-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4x8192 : Shape := ⟨2, ![4, 8192]⟩
abbrev S4x512x3 : Shape := ⟨3, ![4, 512, 3]⟩
abbrev S4x512 : Shape := ⟨2, ![4, 512]⟩
abbrev S4x512x512 : Shape := ⟨3, ![4, 512, 512]⟩
abbrev S4x512x1 : Shape := ⟨3, ![4, 512, 1]⟩
abbrev S4x1x512 : Shape := ⟨3, ![4, 1, 512]⟩
abbrev S_ : Shape := ⟨0, ![]⟩

abbrev nBuf : Space → Nat
  | .hbm => 13
  | .vmem => 14
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192, .f32⟩
  | .hbm, ⟨3, _⟩ => ⟨S4x8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S4x512x3, .f32⟩
  | .local _ .vmem, ⟨1, _⟩ => ⟨S4x512x3, .f32⟩
  | .local _ .vmem, ⟨2, _⟩ => ⟨S4x512x3, .f32⟩
  | .local _ .vmem, ⟨3, _⟩ => ⟨S4x512x3, .f32⟩
  | .local _ .vmem, ⟨4, _⟩ => ⟨S4x512, .f32⟩
  | .local _ .vmem, ⟨5, _⟩ => ⟨S4x512, .f32⟩
  | .local _ .vmem, ⟨6, _⟩ => ⟨S4x512, .f32⟩
  | .local _ .vmem, ⟨7, _⟩ => ⟨S4x512x3, .f32⟩
  | .local _ .vmem, ⟨8, _⟩ => ⟨S4x512x3, .f32⟩
  | .local _ .vmem, ⟨9, _⟩ => ⟨S4x512x3, .f32⟩
  | .local _ .vmem, ⟨10, _⟩ => ⟨S4x512x3, .f32⟩
  | .local _ .vmem, ⟨11, _⟩ => ⟨S4x512, .f32⟩
  | .local _ .vmem, ⟨12, _⟩ => ⟨S4x512, .f32⟩
  | .local _ .vmem, ⟨13, _⟩ => ⟨S4x512, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v24 : BitVec 1 := Scalar.cmpi .eq arg1 c15_i32
  let v25 : BitVec 32 := Scalar.extui v24
  let c0_i32_14 : BitVec 32 := 0#32
  let v26 : BitVec 1 := Scalar.cmpi .ne v25 c0_i32_14
  v26

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![16, 16], ![false, false]⟩

def k1_cond2 (i : grid1.Coords) : BitVec 1 :=
  let arg1 : BitVec 32 := BitVec.ofNat 32 (i 1).val
  let c15_i32 : BitVec 32 := 15#32
  let v24 : BitVec 1 := Scalar.cmpi .eq arg1 c15_i32
  let v25 : BitVec 32 := Scalar.extui v24
  let c0_i32_14 : BitVec 32 := 0#32
  let v26 : BitVec 1 := Scalar.cmpi .ne v25 c0_i32_14
  v26

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S4x512x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4x512x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S4x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S4x512_S4x512_0_0 : ∀ a, (![0, 0] : Fin 2 → Nat) a + S4x512.size a ≤ S4x512.size a
  h_S4x512 : 0 < S4x512.numel
  shapeCasts_S4x512_S4x512 : S4x512.ShapeCasts S4x512
  inb_S4x512x3_S4x512x3_0_0_0 : ∀ a, (![0, 0, 0] : Fin 3 → Nat) a + S4x512x3.size a ≤ S4x512x3.size a
  h_S4x512x3 : 0 < S4x512x3.numel
  reduces_S4x512x3_S4x512 : S4x512x3.Reduces [2] S4x512
  shapeCasts_S4x512_S4x512x1 : S4x512.ShapeCasts S4x512x1
  shapeCasts_S4x512_S4x1x512 : S4x512.ShapeCasts S4x1x512
  broadcasts_S4x512x1_S4x512x512 : S4x512x1.Broadcasts S4x512x512
  broadcasts_S4x1x512_S4x512x512 : S4x1x512.Broadcasts S4x512x512
  reduces_S4x512x512_S4x512 : S4x512x512.Reduces [2] S4x512
  reducesTo_S4x8192_S_d0_1 : S4x8192.ReducesTo [0, 1] S_
  h_S_ : 0 < S_.numel
  dot_S4x512x3_S4x512x3_S4x512x512_2_2_1_1_0_0_wf : DotDims.WF S4x512x3 S4x512x3 S4x512x512 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x3.size a ≤ S4x8192x3.size a
  hwx0_0 : ∀ i : grid0.Coords, EltTy.bits .f32 = 32 ∨ (Rect.block (s := S4x8192x3) S4x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512x3.size a ≤ S4x8192x3.size a
  hwx0_1 : ∀ i : grid0.Coords, EltTy.bits .f32 = 32 ∨ (Rect.block (s := S4x8192x3) S4x512x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x512.size a ≤ S4x8192.size a
  hwx0_2 : ∀ i : grid0.Coords, EltTy.bits .f32 = 32 ∨ (Rect.block (s := S4x8192) S4x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x512x3.size a ≤ S4x8192x3.size a
  hwx1_0 : ∀ i : grid1.Coords, EltTy.bits .f32 = 32 ∨ (Rect.block (s := S4x8192x3) S4x512x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x512x3.size a ≤ S4x8192x3.size a
  hwx1_1 : ∀ i : grid1.Coords, EltTy.bits .f32 = 32 ∨ (Rect.block (s := S4x8192x3) S4x512x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x512.size a ≤ S4x8192.size a
  hwx1_2 : ∀ i : grid1.Coords, EltTy.bits .f32 = 32 ∨ (Rect.block (s := S4x8192) S4x512.size (cc1_transform_2 i) (hinb1_2 i)).WholeWords (EltTy.packing .f32)

variable [Facts₀]

def dot_S4x512x3_S4x512x3_S4x512x512_2_2_1_1_0_0 : DotDims S4x512x3 S4x512x3 S4x512x512 where
  lhsContracting := [2]
  rhsContracting := [2]
  lhsNonContracting := [1]
  rhsNonContracting := [1]
  lhsBatch := [0]
  rhsBatch := [0]
  wf := dot_S4x512x3_S4x512x3_S4x512x512_2_2_1_1_0_0_wf

abbrev win0_0 : Pipeline.Window sig grid0 :=
  Pipeline.Window.ofSpec (Memref.whole main_arg0) S4x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x512x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg1) S4x512x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S4x512x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S4x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩

abbrev nBuf : Space → Nat
  | .hbm => 31
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x3, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192, .f32⟩
  | .hbm, ⟨20, _⟩ => ⟨S_, .f32⟩
  | .hbm, ⟨21, _⟩ => ⟨S4x8192, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_cst_6 : Ref sig .tc := ⟨.hbm, 26, rfl⟩
abbrev main_v17 : Ref sig .tc := ⟨.hbm, 27, rfl⟩
abbrev main_cst_7 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192x8192_S4x8192_d1 : S4x8192x8192.ReducesTo [1] S4x8192
  reducesTo_S4x8192_S_d0_1 : S4x8192.ReducesTo [0, 1] S_
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.KB0Vals.lean ====
/-
  The values the first nearest-distance pass leaves behind, as functions of the arrays it is entered with.

  The pass walks a 16 × 16 grid, point t = 16·a + j. At t it holds block a of its first array (512 points per
  batch) and block j of its second, and keeps in a scratch buffer, per batch and per point of block a, the least
  expanded squared distance to the points of the second array seen so far in this row of the grid: the scratch is
  reset to +∞ when j = 0 and lowered by the block's own minima at every point. `accAt` is that scratch after
  point t, by recursion on t through the body's own arithmetic.
-/
import proofs.«132927_j28724741276335_2_alg».proof.Proof.Gen.Kernel.Skeleton
import proofs.«132927_j28724741276335_2_alg».proof.Proof.Gen.Kernel.Points

noncomputable section

namespace Cert.Kernel.H0

open Idealize.ShloMosaic Idealize.ShloMosaic.TcCoe Idealize.SL.Sem
open Cert.Kernel Cert.Kernel.Gen

variable {F : FTy → Type} [FloatOps F]
variable (V : (c : Dev nD) → (b : Ref sig .tc) → Buf (Elt F) ((c : Thread nD τ).loc b))

/-- Window `w`'s block at grid point `t`, read off its array as the pass finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of query points at `t` (first window) and the block of candidate points (second window). -/
abbrev qblk (c : Dev nD) (t : Fin cfg0.N) : Vec F S4x512x3 .f32 := iblk V c 0 t
abbrev kblk (c : Dev nD) (t : Fin cfg0.N) : Vec F S4x512x3 .f32 := iblk V c 1 t

/-- The scratch after point `n`: the body's update of +∞ at the start of a grid row, of the previous point's
    scratch elsewhere. -/
def accAt (c : Dev nD) : (n : ℕ) → n < cfg0.N → Vec F S4x512 .f32
  | 0, hn => k0_pay2 (qblk V c ⟨0, hn⟩) (kblk V c ⟨0, hn⟩) k0_pay1
  | n + 1, hn =>
    if (n + 1) % 16 = 0 then k0_pay2 (qblk V c ⟨n + 1, hn⟩) (kblk V c ⟨n + 1, hn⟩) k0_pay1
    else k0_pay2 (qblk V c ⟨n + 1, hn⟩) (kblk V c ⟨n + 1, hn⟩) (accAt c n (Nat.lt_of_succ_lt hn))

/-- At the start of a grid row the scratch is the update of +∞. -/
theorem accAt_first (c : Dev nD) (t : Fin cfg0.N) (h : t.val % 16 = 0) :
    accAt V c t.val t.isLt = k0_pay2 (qblk V c t) (kblk V c t) k0_pay1 := by
  obtain ⟨n, hn⟩ := t
  cases n with
  | zero => rfl
  | succ n => exact (if_pos h).trans rfl

/-- Elsewhere it is the update of what the point before left. -/
theorem accAt_next (c : Dev nD) (t : Fin cfg0.N) (h : t.val % 16 ≠ 0) :
    accAt V c t.val t.isLt = k0_pay2 (qblk V c t) (kblk V c t) (accAt V c (t.val - 1) (Nat.lt_of_le_of_lt (Nat.sub_le _ _) t.isLt)) := by
  obtain ⟨n, hn⟩ := t
  cases n with
  | zero => exact absurd (Nat.zero_mod _) h
  | succ n => exact (if_neg h).trans rfl

end Cert.Kernel.H0

end
-- ==== Proof.KB0Frame.lean ====
/-
  The first nearest-distance pass runs to its end without a fault, and what it leaves is named.

  The pass's body has three courses, told apart by the position j = t % 16 in the grid row: at j = 0 it resets its
  scratch to +∞ before lowering it by the point's minima, at 0 < j < 15 it only lowers it, at j = 15 it lowers it and
  copies it into the result window, which is written back to the result array there and nowhere else. Each course is
  run once on arbitrary whole buffers; the invariant carried from point to point says that the scratch holds
  `accAt` of the point before; the proof data name what every window's buffer holds after every point, and the body's
  obligation at a point is its course's run.
-/
import proofs.«132927_j28724741276335_2_alg».proof.Proof.Gen.Kernel.Launch
import proofs.«132927_j28724741276335_2_alg».proof.Proof.Gen.Kernel.Skeleton
import proofs.«132927_j28724741276335_2_alg».proof.Proof.Gen.Kernel.Points
import proofs.«132927_j28724741276335_2_alg».proof.Proof.KB0Vals
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.H0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's two conditions, decided over the grid -/

/-- "This is the first point of a grid row" as the body computes it from the second grid coordinate. -/
abbrev condA (i : grid0.Coords) : Prop := (Scalar.cmpi .ne (Scalar.extui (Scalar.cmpi .eq (BitVec.ofNat 32 (i 1).val) 0#32)) 0#32) = 1#1
/-- "This is the last point of a grid row". -/
abbrev condC (i : grid0.Coords) : Prop := k0_cond2 i = 1#1

theorem hcondA : ∀ t : Fin cfg0.N, condA (grid0.coords t) ↔ t.val % 16 = 0 :=
  (by decide +kernel : ∀ t : Fin grid0.N, condA (grid0.coords t) ↔ t.val % 16 = 0)
theorem hcondC : ∀ t : Fin cfg0.N, condC (grid0.coords t) ↔ t.val % 16 = 15 :=
  (by decide +kernel : ∀ t : Fin grid0.N, condC (grid0.coords t) ↔ t.val % 16 = 15)

/-- The result window is stored into, and written back, exactly at the last point of a grid row. -/
theorem idle2 : ∀ t : Fin cfg0.N, ¬condC (grid0.coords t) → cfg0.idle 2 (grid0.coords t) = true := by decide +kernel
theorem noFlush2 : ∀ t : Fin cfg0.N, ¬condC (grid0.coords t) → (cfg0.win 2).flush t = false := by decide +kernel
theorem live2 : ∀ t : Fin cfg0.N, condC (grid0.coords t) → cfg0.idle 2 (grid0.coords t) = false := by decide +kernel
theorem live0 : ∀ t : Fin cfg0.N, cfg0.idle 0 (grid0.coords t) = false := fun _ => rfl
theorem live1 : ∀ t : Fin cfg0.N, cfg0.idle 1 (grid0.coords t) = false := fun _ => rfl

/-! ## The body on any whole memrefs, case by case -/

theorem hz2 : (![0, 0] : Fin S4x512.rank → Nat) = fun _ => 0 := by
  funext a; match a with | ⟨0, _⟩ => rfl | ⟨1, _⟩ => rfl
theorem hz3 : (![0, 0, 0] : Fin S4x512x3.rank → Nat) = fun _ => 0 := by
  funext a; match a with | ⟨0, _⟩ => rfl | ⟨1, _⟩ => rfl | ⟨2, _⟩ => rfl

/-- A store of the whole scratch shape, last in a list of stores, covers every entry. -/
theorem cov2 (w : S4x512.Idx → Elt F .f32) (L : List (View.Piece (Elt F) S4x512 .f32)) (y : S4x512.Idx) :
    ∃ p ∈ ((⟨Rect.unit (s := S4x512) ![0, 0] S4x512.size inb_S4x512_S4x512_0_0, w⟩ : View.Piece (Elt F) S4x512 .f32) :: L), y ∈ p.1.set :=
  ⟨_, List.mem_cons_self, View.mem_set_unit_zero hz2 inb_S4x512_S4x512_0_0 y⟩

set_option maxHeartbeats 1000000 in
/-- First point of a grid row: the scratch, whatever it held, is reset to +∞ and then lowered by this point's minima;
    the result window is not touched. -/
theorem run_first (c : Dev nD) (E : Set ℕ) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole)
    (hcA : condA i) (hcC : ¬condC i) (x0 x1 : Vec F S4x512x3 .f32) (K : PUnit → sProp 𝕄) :
    iprop(owns (c : Thread nD τ) arg2 fullShare x0 ∗ owns (c : Thread nD τ) arg3 fullShare x1 ∗ (∃ d, owns (c : Thread nD τ) arg5 fullShare d)
        ∗ (iprop(owns (c : Thread nD τ) arg2 fullShare x0 ∗ owns (c : Thread nD τ) arg3 fullShare x1 ∗ owns (c : Thread nD τ) arg5 fullShare (k0_pay2 x0 x1 k0_pay1)) -∗ K ⟨⟩))
      ⊢ wp frame (wpE (defs₀ (F := F)) Variants.none c none) E (cc0__chamfer_half_kernel i arg2 harg2 arg3 harg3 arg4 harg4 arg5 harg5) K := by
  simp only [cc0__chamfer_half_kernel_eq_skeleton]; unfold cc0__chamfer_half_kernel_skel
  unfold owns
  iintro ⟨⟨%f0, %hf0, Hq⟩, ⟨%f1, %hf1, Hc⟩, ⟨%ds, %fs, -, HS⟩, Hk⟩
  obtain rfl := harg2.eq_unread hf0; obtain rfl := harg3.eq_unread hf1
  sl_exec (disch := first | exact hcA | exact hcC)
  sl_step
  iapply Hk
  isplitl [Hq]
  · iexists _; isplitr; · ipureintro; exact harg2.read_unread _
    iexact Hq
  isplitl [Hc]
  · iexists _; isplitr; · ipureintro; exact harg3.read_unread _
    iexact Hc
  iexists _; isplitr
  swap; · iexact HS
  ipureintro
  rw [View.read_writes_eq_canon _ _ _ (cov2 _ _),
    View.canon_cons_unit_zero (S := S4x512) hz2]
  sl_unfold_words
  simp only [View.readAt_eq_ld, harg2.read_unread, harg3.read_unread, View.ld_unit_zero (S := S4x512x3) hz3,
    View.readCov_unit_zero (S := S4x512) _ hz2]

set_option maxHeartbeats 1000000 in
/-- A middle point of a grid row: the scratch is lowered by this point's minima; the result window is not touched. -/
theorem run_mid (c : Dev nD) (E : Set ℕ) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole)
    (hcA : ¬condA i) (hcC : ¬condC i) (x0 x1 : Vec F S4x512x3 .f32) (xs : Vec F S4x512 .f32) (K : PUnit → sProp 𝕄) :
    iprop(owns (c : Thread nD τ) arg2 fullShare x0 ∗ owns (c : Thread nD τ) arg3 fullShare x1 ∗ owns (c : Thread nD τ) arg5 fullShare xs
        ∗ (iprop(owns (c : Thread nD τ) arg2 fullShare x0 ∗ owns (c : Thread nD τ) arg3 fullShare x1 ∗ owns (c : Thread nD τ) arg5 fullShare (k0_pay2 x0 x1 xs)) -∗ K ⟨⟩))
      ⊢ wp frame (wpE (defs₀ (F := F)) Variants.none c none) E (cc0__chamfer_half_kernel i arg2 harg2 arg3 harg3 arg4 harg4 arg5 harg5) K := by
  simp only [cc0__chamfer_half_kernel_eq_skeleton]; unfold cc0__chamfer_half_kernel_skel
  unfold owns
  iintro ⟨⟨%f0, %hf0, Hq⟩, ⟨%f1, %hf1, Hc⟩, ⟨%fs, %hfs, HS⟩, Hk⟩
  obtain rfl := harg2.eq_unread hf0; obtain rfl := harg3.eq_unread hf1; obtain rfl := harg5.eq_unread hfs
  sl_exec (disch := first | exact hcA | exact hcC)
  sl_step
  iapply Hk
  isplitl [Hq]
  · iexists _; isplitr; · ipureintro; exact harg2.read_unread _
    iexact Hq
  isplitl [Hc]
  · iexists _; isplitr; · ipureintro; exact harg3.read_unread _
    iexact Hc
  iexists _; isplitr
  swap; · iexact HS
  ipureintro
  rw [View.read_writes_eq_canon _ _ _ (cov2 _ _),
    View.canon_unit_zero (S := S4x512) hz2]
  simp only [View.readAt_eq_ld, harg2.read_unread, harg3.read_unread, harg5.read_unread, View.ld_unit_zero (S := S4x512x3) hz3,
    View.ld_unit_zero (S := S4x512) hz2]

set_option maxHeartbeats 1000000 in
/-- Last point of a grid row: the scratch is lowered by this point's minima and copied into the result window. -/
theorem run_last (c : Dev nD) (E : Set ℕ) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole)
    (hcA : ¬condA i) (hcC : condC i) (x0 x1 : Vec F S4x512x3 .f32) (xs : Vec F S4x512 .f32) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1 ∗ owns (c : Thread nD τ) arg4 fullShare (k0_pay2 x0 x1 xs) ∗ owns (c : Thread nD τ) arg5 fullShare (k0_pay2 x0 x1 xs)) -∗ K ⟨⟩))
      ⊢ wp frame (wpE (defs₀ (F := F)) Variants.none c none) E (cc0__chamfer_half_kernel i arg2 harg2 arg3 harg3 arg4 harg4 arg5 harg5) K := by
  simp only [cc0__chamfer_half_kernel_eq_skeleton]; unfold cc0__chamfer_half_kernel_skel
  unfold owns
  iintro ⟨⟨%f0, %hf0, Hq⟩, ⟨%f1, %hf1, Hc⟩, ⟨%dout, %fo, -, HO⟩, ⟨%fs, %hfs, HS⟩, Hk⟩
  obtain rfl := harg2.eq_unread hf0; obtain rfl := harg3.eq_unread hf1; obtain rfl := harg5.eq_unread hfs
  sl_exec (disch := first | exact hcA | exact hcC)
  sl_step
  iapply Hk
  isplitl [Hq]
  · iexists _; isplitr; · ipureintro; exact harg2.read_unread _
    iexact Hq
  isplitl [Hc]
  · iexists _; isplitr; · ipureintro; exact harg3.read_unread _
    iexact Hc
  isplitl [HO]
  · iexists _; isplitr
    swap; · iexact HO
    ipureintro
    sl_unfold_words
    rw [View.read_writes_eq_canon _ _ _ (cov2 _ _), View.canon_unit_zero (S := S4x512) hz2]
    simp only [View.readCov_unit_zero (S := S4x512) _ hz2, View.readAt_eq_ld, harg2.read_unread, harg3.read_unread, harg5.read_unread,
      View.ld_unit_zero (S := S4x512x3) hz3, View.ld_unit_zero (S := S4x512) hz2]
  iexists _; isplitr
  swap; · iexact HS
  ipureintro
  sl_unfold_words
  rw [View.read_writes_eq_canon _ _ _ (cov2 _ _), View.canon_unit_zero (S := S4x512) hz2]
  simp only [View.readAt_eq_ld, harg2.read_unread, harg3.read_unread, harg5.read_unread, View.ld_unit_zero (S := S4x512x3) hz3,
    View.ld_unit_zero (S := S4x512) hz2]

/-! ## The invariant between points -/

variable (V : (c : Dev nD) → (b : Ref sig .tc) → Buf (Elt F) ((c : Thread nD τ).loc b))

/-- The pass's scratch operand: a whole scoped buffer of its own. -/
abbrev scM : Memref sig .tc .vmem S4x512 .f32 := Memref.whole cc0_scratch0

/-- The core's other scoped buffers that this pass does not stage through (the other pass's), each at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- What the region hands the body before the first point: the scratch at anything, the other scoped buffers, the generator register. -/
theorem PhiA_eq (c : Dev nD) :
    (Pipeline.ΦA spec0 c : sProp 𝕄)
      = iprop((iprop(∃ d, owns (c : Thread nD τ) scM fullShare d) ∗ others c) ∗ (∃ r, prngReg c r)) := by
  unfold Pipeline.ΦA others
  rw [Pipeline.scopedRest_eq_of_list spec0 c [cc0_scratch0, cc1_stg0_0, cc1_stg0_1, cc1_stg1_0, cc1_stg1_1, cc1_stg2_0, cc1_stg2_1, cc1_scratch0] (by decide) (by decide)]
  simp only [scM, owns_whole]; try rfl

/-- The invariant before position `n`: before the first point the scratch holds anything; afterwards what the point
    before left in it (`accAt`). -/
def PhiS (c : Dev nD) : (n : ℕ) → n ≤ cfg0.N → sProp 𝕄
  | 0, _ => Pipeline.ΦA spec0 c
  | n + 1, hn => iprop((owns (c : Thread nD τ) scM fullShare (accAt V c n hn) ∗ others c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop((owns (c : Thread nD τ) scM fullShare (accAt V c n hn) ∗ others c) ∗ (∃ r, prngReg c r)) := rfl

theorem PhiS_pos (c : Dev nD) (n : ℕ) (h : n ≤ cfg0.N) (hz : n ≠ 0) :
    PhiS V c n h = iprop((owns (c : Thread nD τ) scM fullShare (accAt V c (n - 1) (by omega)) ∗ others c) ∗ (∃ r, prngReg c r)) := by
  cases n with
  | zero => exact absurd rfl hz
  | succ n => rfl

/-! ## The proof data -/

/-- The arrays as the pass finds them; after the body each input's buffer at its block and the result window's at the
    scratch's contents (what the last point of a grid row copies there; elsewhere the window is idle and the value is
    not consulted); the invariant above; nothing owed; full shares. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => accAt V c t.val t.isLt
  Φ t := PhiS V c t.val (Nat.le_of_lt_succ t.isLt)
  q _ := fullShare
  owed _ := 0

theorem A_eq (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk V c 0 t := by dsimp only [dat0]
theorem after0_1 (c : Dev nD) (t : Fin cfg0.N) : (dat0 V c).after 1 t = iblk V c 1 t := by dsimp only [dat0]
theorem after0_2 (c : Dev nD) (t : Fin cfg0.N) : (dat0 V c).after 2 t = accAt V c t.val t.isLt := by dsimp only [dat0]

/-- An input window's current staging buffer holds its block at every point, fetched there or not: where it is not
    fetched its block index has not moved since the point before. -/
theorem before0_0 (c : Dev nD) (t : Fin cfg0.N) (d) : (dat0 V c).before 0 t d = iblk V c 0 t :=
  ((dat0 V c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dat0 V c).before 1 t d = iblk V c 1 t :=
  ((dat0 V c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4000000 in
/-- The body at any point. The position in the grid row says which case runs; the invariant hands the body the scratch
    at what the point before left (at anything before the first point) and takes it back at this point's contents; the
    result window is handed back untouched except at the last point of a row, where it receives the scratch. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (st0_0 t) fullShare ((dat0 V c).after 0 t) from by
    unfold Dat.leavesExact; rw [live0 t], after0_0]
  rw [show (dat0 V c).leavesExact 1 t = owns (c : Thread nD τ) (st0_1 t) fullShare ((dat0 V c).after 1 t) from by
    unfold Dat.leavesExact; rw [live1 t], after0_1]
  have hN : t.val < 256 := lt_of_lt_of_eq t.isLt (show cfg0.N = 256 from N_0)
  by_cases hA : t.val % 16 = 0
  · have hC : ¬t.val % 16 = 15 := by omega
    rw [Dat.leavesExact_idle (dat0 V c) 2 t (idle2 t (fun h => hC ((hcondC t).mp h))) (noFlush2 t (fun h => hC ((hcondC t).mp h)))]
    rw [accAt_first V c t hA]
    by_cases hz : t.val = 0
    · rw [PhiS_castSucc V c t, PhiS_zero V c _ _ hz, PhiA_eq]
      iintro ⟨⟨⟨HS, Hoth⟩, Hg⟩, Ho, ⟨%d0, Hq⟩, ⟨%d1, Hc⟩, Hr⟩
      iapply (run_first c Set.univ (grid0.coords t) _ _ _ _ _ _ _ _ ((hcondA t).mpr hA) (fun h => hC ((hcondC t).mp h)) (qblk V c t) (kblk V c t) _)
      isplitl [Hq]; · iexact Hq
      isplitl [Hc]; · iexact Hc
      isplitl [HS]; · iexact HS
      iintro ⟨Hq, Hc, HS⟩
      isplitl [HS Hoth Hg]
      · isplitl [HS Hoth]
        · isplitl [HS]; · iexact HS
          iexact Hoth
        iexact Hg
      isplitl [Ho]; · iexact Ho
      isplitl [Hq]; · iexact Hq
      isplitl [Hc]; · iexact Hc
      iexact Hr
    · rw [PhiS_castSucc V c t, PhiS_pos V c _ _ hz]
      iintro ⟨⟨⟨HS, Hoth⟩, Hg⟩, Ho, ⟨%d0, Hq⟩, ⟨%d1, Hc⟩, Hr⟩
      iapply (run_first c Set.univ (grid0.coords t) _ _ _ _ _ _ _ _ ((hcondA t).mpr hA) (fun h => hC ((hcondC t).mp h)) (qblk V c t) (kblk V c t) _)
      isplitl [Hq]; · iexact Hq
      isplitl [Hc]; · iexact Hc
      isplitl [HS]; · iexists _; iexact HS
      iintro ⟨Hq, Hc, HS⟩
      isplitl [HS Hoth Hg]
      · isplitl [HS Hoth]
        · isplitl [HS]; · iexact HS
          iexact Hoth
        iexact Hg
      isplitl [Ho]; · iexact Ho
      isplitl [Hq]; · iexact Hq
      isplitl [Hc]; · iexact Hc
      iexact Hr
  · have hz : t.val ≠ 0 := fun e => hA (by rw [e])
    rw [accAt_next V c t hA, PhiS_castSucc V c t, PhiS_pos V c _ _ hz]
    by_cases hC : t.val % 16 = 15
    · rw [show (dat0 V c).leavesExact 2 t = owns (c : Thread nD τ) (st0_2 t) fullShare ((dat0 V c).after 2 t) from by
        unfold Dat.leavesExact; rw [live2 t ((hcondC t).mpr hC)], after0_2, accAt_next V c t hA]
      iintro ⟨⟨⟨HS, Hoth⟩, Hg⟩, Ho, ⟨%d0, Hq⟩, ⟨%d1, Hc⟩, ⟨%d2, Hr⟩⟩
      iapply (run_last c Set.univ (grid0.coords t) _ _ _ _ _ _ _ _ (fun h => hA ((hcondA t).mp h)) ((hcondC t).mpr hC) (qblk V c t) (kblk V c t) _ _)
      isplitl [Hq]; · iexact Hq
      isplitl [Hc]; · iexact Hc
      isplitl [Hr]; · iexists _; iexact Hr
      isplitl [HS]; · iexact HS
      iintro ⟨Hq, Hc, Hr, HS⟩
      isplitl [HS Hoth Hg]
      · isplitl [HS Hoth]
        · isplitl [HS]; · iexact HS
          iexact Hoth
        iexact Hg
      isplitl [Ho]; · iexact Ho
      isplitl [Hq]; · iexact Hq
      isplitl [Hc]; · iexact Hc
      iexact Hr
    · rw [Dat.leavesExact_idle (dat0 V c) 2 t (idle2 t (fun h => hC ((hcondC t).mp h))) (noFlush2 t (fun h => hC ((hcondC t).mp h)))]
      iintro ⟨⟨⟨HS, Hoth⟩, Hg⟩, Ho, ⟨%d0, Hq⟩, ⟨%d1, Hc⟩, Hr⟩
      iapply (run_mid c Set.univ (grid0.coords t) _ _ _ _ _ _ _ _ (fun h => hA ((hcondA t).mp h)) (fun h => hC ((hcondC t).mp h)) (qblk V c t) (kblk V c t) _ _)
      isplitl [Hq]; · iexact Hq
      isplitl [Hc]; · iexact Hc
      isplitl [HS]; · iexact HS
      iintro ⟨Hq, Hc, HS⟩
      isplitl [HS Hoth Hg]
      · isplitl [HS Hoth]
        · isplitl [HS]; · iexact HS
          iexact Hoth
        iexact Hg
      isplitl [Ho]; · iexact Ho
      isplitl [Hq]; · iexact Hq
      isplitl [Hc]; · iexact Hc
      iexact Hr

/-- The library's body obligation, at every point. -/
theorem body_obligation (c : Dev nD) : BodyObligation (dat0 (F := F) V c) (defs₀ (F := F)) Variants.none () Set.univ := fun t => by
  rw [bigSep_W0, bigSep_W0]
  exact sound_body V c t

/-- What the region hands the body is the invariant before the first point. -/
theorem hin (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the region its own back: the scratch's contents are forgotten. -/
theorem hout (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 256 := N_0; omega), PhiA_eq]
  iintro ⟨⟨HS, Hoth⟩, Hg⟩
  isplitl [HS Hoth]
  · isplitl [HS]; · iexists _; iexact HS
    iexact Hoth
  iexact Hg

end Cert.Kernel.H0

end
-- ==== Proof.KB1Vals.lean ====
/-
  The values the second nearest-distance pass leaves behind, as functions of the arrays it is entered with.

  The pass walks a 16 × 16 grid, point t = 16·a + j. At t it holds block a of its first array (512 points per
  batch) and block j of its second, and keeps in a scratch buffer, per batch and per point of block a, the least
  expanded squared distance to the points of the second array seen so far in this row of the grid: the scratch is
  reset to +∞ when j = 0 and lowered by the block's own minima at every point. `accAt` is that scratch after
  point t, by recursion on t through the body's own arithmetic.
-/
import proofs.«132927_j28724741276335_2_alg».proof.Proof.Gen.Kernel.Skeleton
import proofs.«132927_j28724741276335_2_alg».proof.Proof.Gen.Kernel.Points

noncomputable section

namespace Cert.Kernel.H1

open Idealize.ShloMosaic Idealize.ShloMosaic.TcCoe Idealize.SL.Sem
open Cert.Kernel Cert.Kernel.Gen

variable {F : FTy → Type} [FloatOps F]
variable (V : (c : Dev nD) → (b : Ref sig .tc) → Buf (Elt F) ((c : Thread nD τ).loc b))

/-- Window `w`'s block at grid point `t`, read off its array as the pass finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block of query points at `t` (first window) and the block of candidate points (second window). -/
abbrev qblk (c : Dev nD) (t : Fin cfg1.N) : Vec F S4x512x3 .f32 := iblk V c 0 t
abbrev kblk (c : Dev nD) (t : Fin cfg1.N) : Vec F S4x512x3 .f32 := iblk V c 1 t

/-- The scratch after point `n`: the body's update of +∞ at the start of a grid row, of the previous point's
    scratch elsewhere. -/
def accAt (c : Dev nD) : (n : ℕ) → n < cfg1.N → Vec F S4x512 .f32
  | 0, hn => k1_pay2 (qblk V c ⟨0, hn⟩) (kblk V c ⟨0, hn⟩) k1_pay1
  | n + 1, hn =>
    if (n + 1) % 16 = 0 then k1_pay2 (qblk V c ⟨n + 1, hn⟩) (kblk V c ⟨n + 1, hn⟩) k1_pay1
    else k1_pay2 (qblk V c ⟨n + 1, hn⟩) (kblk V c ⟨n + 1, hn⟩) (accAt c n (Nat.lt_of_succ_lt hn))

/-- At the start of a grid row the scratch is the update of +∞. -/
theorem accAt_first (c : Dev nD) (t : Fin cfg1.N) (h : t.val % 16 = 0) :
    accAt V c t.val t.isLt = k1_pay2 (qblk V c t) (kblk V c t) k1_pay1 := by
  obtain ⟨n, hn⟩ := t
  cases n with
  | zero => rfl
  | succ n => exact (if_pos h).trans rfl

/-- Elsewhere it is the update of what the point before left. -/
theorem accAt_next (c : Dev nD) (t : Fin cfg1.N) (h : t.val % 16 ≠ 0) :
    accAt V c t.val t.isLt = k1_pay2 (qblk V c t) (kblk V c t) (accAt V c (t.val - 1) (Nat.lt_of_le_of_lt (Nat.sub_le _ _) t.isLt)) := by
  obtain ⟨n, hn⟩ := t
  cases n with
  | zero => exact absurd (Nat.zero_mod _) h
  | succ n => exact (if_neg h).trans rfl

end Cert.Kernel.H1

end
-- ==== Proof.KB1Frame.lean ====
/-
  The second nearest-distance pass runs to its end without a fault, and what it leaves is named.

  The pass's body has three courses, told apart by the position j = t % 16 in the grid row: at j = 0 it resets its
  scratch to +∞ before lowering it by the point's minima, at 0 < j < 15 it only lowers it, at j = 15 it lowers it and
  copies it into the result window, which is written back to the result array there and nowhere else. Each course is
  run once on arbitrary whole buffers; the invariant carried from point to point says that the scratch holds
  `accAt` of the point before; the proof data name what every window's buffer holds after every point, and the body's
  obligation at a point is its course's run.
-/
import proofs.«132927_j28724741276335_2_alg».proof.Proof.Gen.Kernel.Launch
import proofs.«132927_j28724741276335_2_alg».proof.Proof.Gen.Kernel.Skeleton
import proofs.«132927_j28724741276335_2_alg».proof.Proof.Gen.Kernel.Points
import proofs.«132927_j28724741276335_2_alg».proof.Proof.KB1Vals
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.H1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's two conditions, decided over the grid -/

/-- "This is the first point of a grid row" as the body computes it from the second grid coordinate. -/
abbrev condA (i : grid1.Coords) : Prop := (Scalar.cmpi .ne (Scalar.extui (Scalar.cmpi .eq (BitVec.ofNat 32 (i 1).val) 0#32)) 0#32) = 1#1
/-- "This is the last point of a grid row". -/
abbrev condC (i : grid1.Coords) : Prop := k1_cond2 i = 1#1

theorem hcondA : ∀ t : Fin cfg1.N, condA (grid1.coords t) ↔ t.val % 16 = 0 :=
  (by decide +kernel : ∀ t : Fin grid1.N, condA (grid1.coords t) ↔ t.val % 16 = 0)
theorem hcondC : ∀ t : Fin cfg1.N, condC (grid1.coords t) ↔ t.val % 16 = 15 :=
  (by decide +kernel : ∀ t : Fin grid1.N, condC (grid1.coords t) ↔ t.val % 16 = 15)

/-- The result window is stored into, and written back, exactly at the last point of a grid row. -/
theorem idle2 : ∀ t : Fin cfg1.N, ¬condC (grid1.coords t) → cfg1.idle 2 (grid1.coords t) = true := by decide +kernel
theorem noFlush2 : ∀ t : Fin cfg1.N, ¬condC (grid1.coords t) → (cfg1.win 2).flush t = false := by decide +kernel
theorem live2 : ∀ t : Fin cfg1.N, condC (grid1.coords t) → cfg1.idle 2 (grid1.coords t) = false := by decide +kernel
theorem live0 : ∀ t : Fin cfg1.N, cfg1.idle 0 (grid1.coords t) = false := fun _ => rfl
theorem live1 : ∀ t : Fin cfg1.N, cfg1.idle 1 (grid1.coords t) = false := fun _ => rfl

/-! ## The body on any whole memrefs, case by case -/

theorem hz2 : (![0, 0] : Fin S4x512.rank → Nat) = fun _ => 0 := by
  funext a; match a with | ⟨0, _⟩ => rfl | ⟨1, _⟩ => rfl
theorem hz3 : (![0, 0, 0] : Fin S4x512x3.rank → Nat) = fun _ => 0 := by
  funext a; match a with | ⟨0, _⟩ => rfl | ⟨1, _⟩ => rfl | ⟨2, _⟩ => rfl

/-- A store of the whole scratch shape, last in a list of stores, covers every entry. -/
theorem cov2 (w : S4x512.Idx → Elt F .f32) (L : List (View.Piece (Elt F) S4x512 .f32)) (y : S4x512.Idx) :
    ∃ p ∈ ((⟨Rect.unit (s := S4x512) ![0, 0] S4x512.size inb_S4x512_S4x512_0_0, w⟩ : View.Piece (Elt F) S4x512 .f32) :: L), y ∈ p.1.set :=
  ⟨_, List.mem_cons_self, View.mem_set_unit_zero hz2 inb_S4x512_S4x512_0_0 y⟩

set_option maxHeartbeats 1000000 in
/-- First point of a grid row: the scratch, whatever it held, is reset to +∞ and then lowered by this point's minima;
    the result window is not touched. -/
theorem run_first (c : Dev nD) (E : Set ℕ) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole)
    (hcA : condA i) (hcC : ¬condC i) (x0 x1 : Vec F S4x512x3 .f32) (K : PUnit → sProp 𝕄) :
    iprop(owns (c : Thread nD τ) arg2 fullShare x0 ∗ owns (c : Thread nD τ) arg3 fullShare x1 ∗ (∃ d, owns (c : Thread nD τ) arg5 fullShare d)
        ∗ (iprop(owns (c : Thread nD τ) arg2 fullShare x0 ∗ owns (c : Thread nD τ) arg3 fullShare x1 ∗ owns (c : Thread nD τ) arg5 fullShare (k1_pay2 x0 x1 k1_pay1)) -∗ K ⟨⟩))
      ⊢ wp frame (wpE (defs₀ (F := F)) Variants.none c none) E (cc1__chamfer_half_kernel i arg2 harg2 arg3 harg3 arg4 harg4 arg5 harg5) K := by
  simp only [cc1__chamfer_half_kernel_eq_skeleton]; unfold cc1__chamfer_half_kernel_skel
  unfold owns
  iintro ⟨⟨%f0, %hf0, Hq⟩, ⟨%f1, %hf1, Hc⟩, ⟨%ds, %fs, -, HS⟩, Hk⟩
  obtain rfl := harg2.eq_unread hf0; obtain rfl := harg3.eq_unread hf1
  sl_exec (disch := first | exact hcA | exact hcC)
  sl_step
  iapply Hk
  isplitl [Hq]
  · iexists _; isplitr; · ipureintro; exact harg2.read_unread _
    iexact Hq
  isplitl [Hc]
  · iexists _; isplitr; · ipureintro; exact harg3.read_unread _
    iexact Hc
  iexists _; isplitr
  swap; · iexact HS
  ipureintro
  rw [View.read_writes_eq_canon _ _ _ (cov2 _ _),
    View.canon_cons_unit_zero (S := S4x512) hz2]
  sl_unfold_words
  simp only [View.readAt_eq_ld, harg2.read_unread, harg3.read_unread, View.ld_unit_zero (S := S4x512x3) hz3,
    View.readCov_unit_zero (S := S4x512) _ hz2]

set_option maxHeartbeats 1000000 in
/-- A middle point of a grid row: the scratch is lowered by this point's minima; the result window is not touched. -/
theorem run_mid (c : Dev nD) (E : Set ℕ) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole)
    (hcA : ¬condA i) (hcC : ¬condC i) (x0 x1 : Vec F S4x512x3 .f32) (xs : Vec F S4x512 .f32) (K : PUnit → sProp 𝕄) :
    iprop(owns (c : Thread nD τ) arg2 fullShare x0 ∗ owns (c : Thread nD τ) arg3 fullShare x1 ∗ owns (c : Thread nD τ) arg5 fullShare xs
        ∗ (iprop(owns (c : Thread nD τ) arg2 fullShare x0 ∗ owns (c : Thread nD τ) arg3 fullShare x1 ∗ owns (c : Thread nD τ) arg5 fullShare (k1_pay2 x0 x1 xs)) -∗ K ⟨⟩))
      ⊢ wp frame (wpE (defs₀ (F := F)) Variants.none c none) E (cc1__chamfer_half_kernel i arg2 harg2 arg3 harg3 arg4 harg4 arg5 harg5) K := by
  simp only [cc1__chamfer_half_kernel_eq_skeleton]; unfold cc1__chamfer_half_kernel_skel
  unfold owns
  iintro ⟨⟨%f0, %hf0, Hq⟩, ⟨%f1, %hf1, Hc⟩, ⟨%fs, %hfs, HS⟩, Hk⟩
  obtain rfl := harg2.eq_unread hf0; obtain rfl := harg3.eq_unread hf1; obtain rfl := harg5.eq_unread hfs
  sl_exec (disch := first | exact hcA | exact hcC)
  sl_step
  iapply Hk
  isplitl [Hq]
  · iexists _; isplitr; · ipureintro; exact harg2.read_unread _
    iexact Hq
  isplitl [Hc]
  · iexists _; isplitr; · ipureintro; exact harg3.read_unread _
    iexact Hc
  iexists _; isplitr
  swap; · iexact HS
  ipureintro
  rw [View.read_writes_eq_canon _ _ _ (cov2 _ _),
    View.canon_unit_zero (S := S4x512) hz2]
  simp only [View.readAt_eq_ld, harg2.read_unread, harg3.read_unread, harg5.read_unread, View.ld_unit_zero (S := S4x512x3) hz3,
    View.ld_unit_zero (S := S4x512) hz2]

set_option maxHeartbeats 1000000 in
/-- Last point of a grid row: the scratch is lowered by this point's minima and copied into the result window. -/
theorem run_last (c : Dev nD) (E : Set ℕ) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole)
    (hcA : ¬condA i) (hcC : condC i) (x0 x1 : Vec F S4x512x3 .f32) (xs : Vec F S4x512 .f32) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1 ∗ owns (c : Thread nD τ) arg4 fullShare (k1_pay2 x0 x1 xs) ∗ owns (c : Thread nD τ) arg5 fullShare (k1_pay2 x0 x1 xs)) -∗ K ⟨⟩))
      ⊢ wp frame (wpE (defs₀ (F := F)) Variants.none c none) E (cc1__chamfer_half_kernel i arg2 harg2 arg3 harg3 arg4 harg4 arg5 harg5) K := by
  simp only [cc1__chamfer_half_kernel_eq_skeleton]; unfold cc1__chamfer_half_kernel_skel
  unfold owns
  iintro ⟨⟨%f0, %hf0, Hq⟩, ⟨%f1, %hf1, Hc⟩, ⟨%dout, %fo, -, HO⟩, ⟨%fs, %hfs, HS⟩, Hk⟩
  obtain rfl := harg2.eq_unread hf0; obtain rfl := harg3.eq_unread hf1; obtain rfl := harg5.eq_unread hfs
  sl_exec (disch := first | exact hcA | exact hcC)
  sl_step
  iapply Hk
  isplitl [Hq]
  · iexists _; isplitr; · ipureintro; exact harg2.read_unread _
    iexact Hq
  isplitl [Hc]
  · iexists _; isplitr; · ipureintro; exact harg3.read_unread _
    iexact Hc
  isplitl [HO]
  · iexists _; isplitr
    swap; · iexact HO
    ipureintro
    sl_unfold_words
    rw [View.read_writes_eq_canon _ _ _ (cov2 _ _), View.canon_unit_zero (S := S4x512) hz2]
    simp only [View.readCov_unit_zero (S := S4x512) _ hz2, View.readAt_eq_ld, harg2.read_unread, harg3.read_unread, harg5.read_unread,
      View.ld_unit_zero (S := S4x512x3) hz3, View.ld_unit_zero (S := S4x512) hz2]
  iexists _; isplitr
  swap; · iexact HS
  ipureintro
  sl_unfold_words
  rw [View.read_writes_eq_canon _ _ _ (cov2 _ _), View.canon_unit_zero (S := S4x512) hz2]
  simp only [View.readAt_eq_ld, harg2.read_unread, harg3.read_unread, harg5.read_unread, View.ld_unit_zero (S := S4x512x3) hz3,
    View.ld_unit_zero (S := S4x512) hz2]

/-! ## The invariant between points -/

variable (V : (c : Dev nD) → (b : Ref sig .tc) → Buf (Elt F) ((c : Thread nD τ).loc b))

/-- The pass's scratch operand: a whole scoped buffer of its own. -/
abbrev scM : Memref sig .tc .vmem S4x512 .f32 := Memref.whole cc1_scratch0

/-- The core's other scoped buffers that this pass does not stage through (the other pass's), each at some contents. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- What the region hands the body before the first point: the scratch at anything, the other scoped buffers, the generator register. -/
theorem PhiA_eq (c : Dev nD) :
    (Pipeline.ΦA spec1 c : sProp 𝕄)
      = iprop((iprop(∃ d, owns (c : Thread nD τ) scM fullShare d) ∗ others c) ∗ (∃ r, prngReg c r)) := by
  unfold Pipeline.ΦA others
  rw [Pipeline.scopedRest_eq_of_list spec1 c [cc1_scratch0, cc0_stg0_0, cc0_stg0_1, cc0_stg1_0, cc0_stg1_1, cc0_stg2_0, cc0_stg2_1, cc0_scratch0] (by decide) (by decide)]
  simp only [scM, owns_whole]; try rfl

/-- The invariant before position `n`: before the first point the scratch holds anything; afterwards what the point
    before left in it (`accAt`). -/
def PhiS (c : Dev nD) : (n : ℕ) → n ≤ cfg1.N → sProp 𝕄
  | 0, _ => Pipeline.ΦA spec1 c
  | n + 1, hn => iprop((owns (c : Thread nD τ) scM fullShare (accAt V c n hn) ∗ others c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop((owns (c : Thread nD τ) scM fullShare (accAt V c n hn) ∗ others c) ∗ (∃ r, prngReg c r)) := rfl

theorem PhiS_pos (c : Dev nD) (n : ℕ) (h : n ≤ cfg1.N) (hz : n ≠ 0) :
    PhiS V c n h = iprop((owns (c : Thread nD τ) scM fullShare (accAt V c (n - 1) (by omega)) ∗ others c) ∗ (∃ r, prngReg c r)) := by
  cases n with
  | zero => exact absurd rfl hz
  | succ n => rfl

/-! ## The proof data -/

/-- The arrays as the pass finds them; after the body each input's buffer at its block and the result window's at the
    scratch's contents (what the last point of a grid row copies there; elsewhere the window is idle and the value is
    not consulted); the invariant above; nothing owed; full shares. -/
def dat1 (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => accAt V c t.val t.isLt
  Φ t := PhiS V c t.val (Nat.le_of_lt_succ t.isLt)
  q _ := fullShare
  owed _ := 0

theorem A_eq (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk V c 0 t := by dsimp only [dat1]
theorem after1_1 (c : Dev nD) (t : Fin cfg1.N) : (dat1 V c).after 1 t = iblk V c 1 t := by dsimp only [dat1]
theorem after1_2 (c : Dev nD) (t : Fin cfg1.N) : (dat1 V c).after 2 t = accAt V c t.val t.isLt := by dsimp only [dat1]

/-- An input window's current staging buffer holds its block at every point, fetched there or not: where it is not
    fetched its block index has not moved since the point before. -/
theorem before1_0 (c : Dev nD) (t : Fin cfg1.N) (d) : (dat1 V c).before 0 t d = iblk V c 0 t :=
  ((dat1 V c).before_in_eq_fetched 0 rfl (fun _ => rfl) (fun _ _ _ => rfl) (fun t => by rw [after1_0]; unfold Dat.blockOf iblk; rw [A_eq]; try rfl) t d).trans
    (by unfold Dat.fetched Dat.blockOf iblk; rw [A_eq]; try rfl)
theorem before1_1 (c : Dev nD) (t : Fin cfg1.N) (d) : (dat1 V c).before 1 t d = iblk V c 1 t :=
  ((dat1 V c).before_in_eq_fetched 1 rfl (fun _ => rfl) (fun _ _ _ => rfl) (fun t => by rw [after1_1]; unfold Dat.blockOf iblk; rw [A_eq]; try rfl) t d).trans
    (by unfold Dat.fetched Dat.blockOf iblk; rw [A_eq]; try rfl)

/-! ## The body obligation -/

def bodyPre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point. The position in the grid row says which case runs; the invariant hands the body the scratch
    at what the point before left (at anything before the first point) and takes it back at this point's contents; the
    result window is handed back untouched except at the last point of a row, where it receives the scratch. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (st1_0 t) fullShare ((dat1 V c).after 0 t) from by
    unfold Dat.leavesExact; rw [live0 t], after1_0]
  rw [show (dat1 V c).leavesExact 1 t = owns (c : Thread nD τ) (st1_1 t) fullShare ((dat1 V c).after 1 t) from by
    unfold Dat.leavesExact; rw [live1 t], after1_1]
  have hN : t.val < 256 := lt_of_lt_of_eq t.isLt (show cfg1.N = 256 from N_1)
  by_cases hA : t.val % 16 = 0
  · have hC : ¬t.val % 16 = 15 := by omega
    rw [Dat.leavesExact_idle (dat1 V c) 2 t (idle2 t (fun h => hC ((hcondC t).mp h))) (noFlush2 t (fun h => hC ((hcondC t).mp h)))]
    rw [accAt_first V c t hA]
    by_cases hz : t.val = 0
    · rw [PhiS_castSucc V c t, PhiS_zero V c _ _ hz, PhiA_eq]
      iintro ⟨⟨⟨HS, Hoth⟩, Hg⟩, Ho, ⟨%d0, Hq⟩, ⟨%d1, Hc⟩, Hr⟩
      iapply (run_first c Set.univ (grid1.coords t) _ _ _ _ _ _ _ _ ((hcondA t).mpr hA) (fun h => hC ((hcondC t).mp h)) (qblk V c t) (kblk V c t) _)
      isplitl [Hq]; · iexact Hq
      isplitl [Hc]; · iexact Hc
      isplitl [HS]; · iexact HS
      iintro ⟨Hq, Hc, HS⟩
      isplitl [HS Hoth Hg]
      · isplitl [HS Hoth]
        · isplitl [HS]; · iexact HS
          iexact Hoth
        iexact Hg
      isplitl [Ho]; · iexact Ho
      isplitl [Hq]; · iexact Hq
      isplitl [Hc]; · iexact Hc
      iexact Hr
    · rw [PhiS_castSucc V c t, PhiS_pos V c _ _ hz]
      iintro ⟨⟨⟨HS, Hoth⟩, Hg⟩, Ho, ⟨%d0, Hq⟩, ⟨%d1, Hc⟩, Hr⟩
      iapply (run_first c Set.univ (grid1.coords t) _ _ _ _ _ _ _ _ ((hcondA t).mpr hA) (fun h => hC ((hcondC t).mp h)) (qblk V c t) (kblk V c t) _)
      isplitl [Hq]; · iexact Hq
      isplitl [Hc]; · iexact Hc
      isplitl [HS]; · iexists _; iexact HS
      iintro ⟨Hq, Hc, HS⟩
      isplitl [HS Hoth Hg]
      · isplitl [HS Hoth]
        · isplitl [HS]; · iexact HS
          iexact Hoth
        iexact Hg
      isplitl [Ho]; · iexact Ho
      isplitl [Hq]; · iexact Hq
      isplitl [Hc]; · iexact Hc
      iexact Hr
  · have hz : t.val ≠ 0 := fun e => hA (by rw [e])
    rw [accAt_next V c t hA, PhiS_castSucc V c t, PhiS_pos V c _ _ hz]
    by_cases hC : t.val % 16 = 15
    · rw [show (dat1 V c).leavesExact 2 t = owns (c : Thread nD τ) (st1_2 t) fullShare ((dat1 V c).after 2 t) from by
        unfold Dat.leavesExact; rw [live2 t ((hcondC t).mpr hC)], after1_2, accAt_next V c t hA]
      iintro ⟨⟨⟨HS, Hoth⟩, Hg⟩, Ho, ⟨%d0, Hq⟩, ⟨%d1, Hc⟩, ⟨%d2, Hr⟩⟩
      iapply (run_last c Set.univ (grid1.coords t) _ _ _ _ _ _ _ _ (fun h => hA ((hcondA t).mp h)) ((hcondC t).mpr hC) (qblk V c t) (kblk V c t) _ _)
      isplitl [Hq]; · iexact Hq
      isplitl [Hc]; · iexact Hc
      isplitl [Hr]; · iexists _; iexact Hr
      isplitl [HS]; · iexact HS
      iintro ⟨Hq, Hc, Hr, HS⟩
      isplitl [HS Hoth Hg]
      · isplitl [HS Hoth]
        · isplitl [HS]; · iexact HS
          iexact Hoth
        iexact Hg
      isplitl [Ho]; · iexact Ho
      isplitl [Hq]; · iexact Hq
      isplitl [Hc]; · iexact Hc
      iexact Hr
    · rw [Dat.leavesExact_idle (dat1 V c) 2 t (idle2 t (fun h => hC ((hcondC t).mp h))) (noFlush2 t (fun h => hC ((hcondC t).mp h)))]
      iintro ⟨⟨⟨HS, Hoth⟩, Hg⟩, Ho, ⟨%d0, Hq⟩, ⟨%d1, Hc⟩, Hr⟩
      iapply (run_mid c Set.univ (grid1.coords t) _ _ _ _ _ _ _ _ (fun h => hA ((hcondA t).mp h)) (fun h => hC ((hcondC t).mp h)) (qblk V c t) (kblk V c t) _ _)
      isplitl [Hq]; · iexact Hq
      isplitl [Hc]; · iexact Hc
      isplitl [HS]; · iexact HS
      iintro ⟨Hq, Hc, HS⟩
      isplitl [HS Hoth Hg]
      · isplitl [HS Hoth]
        · isplitl [HS]; · iexact HS
          iexact Hoth
        iexact Hg
      isplitl [Ho]; · iexact Ho
      isplitl [Hq]; · iexact Hq
      isplitl [Hc]; · iexact Hc
      iexact Hr

/-- The library's body obligation, at every point. -/
theorem body_obligation (c : Dev nD) : BodyObligation (dat1 (F := F) V c) (defs₀ (F := F)) Variants.none () Set.univ := fun t => by
  rw [bigSep_W1, bigSep_W1]
  exact sound_body V c t

/-- What the region hands the body is the invariant before the first point. -/
theorem hin (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the region its own back: the scratch's contents are forgotten. -/
theorem hout (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 256 := N_1; omega), PhiA_eq]
  iintro ⟨⟨HS, Hoth⟩, Hg⟩
  isplitl [HS Hoth]
  · isplitl [HS]; · iexists _; iexact HS
    iexact Hoth
  iexact Hg

end Cert.Kernel.H1

end
-- ==== Proof.KBRun.lean ====
/-
  The idealized program runs to its end, and every buffer it leaves is named.

  @main is the first nearest-distance pass, the second, and nine host operations that average the two result arrays and
  add the averages. Between two items the TensorCore holds every unscoped buffer at known contents: the launch memory,
  then the first result array rewritten to what the first pass's write-backs leave, then the second likewise, then what
  the host operations compute from those. Each pass is entered from these contents and left at the next; the launch
  is the library's for a list of items. Read at the two argument arrays the final contents are the launch contents (no
  item writes them): the frame. Read at the result they are the host operations' term of the two result arrays.
-/
import proofs.«132927_j28724741276335_2_alg».proof.Proof.KB0Frame
import proofs.«132927_j28724741276335_2_alg».proof.Proof.KB1Frame
import proofs.«132927_j28724741276335_2_alg».proof.Proof.Gen.Kernel.Regions
import Idealize.ShloMosaic.Lib.Pipeline.RegionsLoop
import Idealize.ShloMosaic.Lib.Pipeline.FrameSuffix

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditional run, with every unscoped buffer named at the end -/

set_option backward.isDefEq.respectTransparency.types false in
/-- Given each pass as an item entered from and left at the contents `Gen.V0` … `Gen.V2` (over any contents `outs` the
    passes leave in their result arrays), every weakly fair execution of @main terminates and the final memory holds
    every unscoped buffer at `Gen.V3`: the last contents, after the host operations. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V0 m c) ∗ E 0 c) ⊢ R0.pre c)
    (hpost0 : ∀ c : Dev nD, R0.post c ⊢ iprop(StableHlo.held (c : Thread nD τ) (Pipeline.ucRefs τ sig) (V1 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V1 m outs c) ∗ E 1 c) ⊢ R1.pre c)
    (hpost1 : ∀ c : Dev nD, R1.post c ⊢ iprop(StableHlo.held (c : Thread nD τ) (Pipeline.ucRefs τ sig) (V2 m outs c) ∗ E 2 c)) :
    θ_run defs (onTc (τ := τ) (main (F := F))) ⟨m, fun _ => 0, ρ⟩ (fun r => ∀ c : Dev nD,
      ∀ b ∈ Pipeline.ucRefs τ sig, r.2.mem ((c : Thread nD τ).1, b) = V3 m outs c b) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          Prog.lift (.customCall (Pipeline.entry 0) ()),
          Prog.lift (.customCall (Pipeline.entry 1) ()),
          StableHlo.seq hostOps2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V3 m outs c))
    (hch := fun c => ⟨hpre0 c, (hpost0 c).trans (hpre1 c), hpost1 c, sep_mono .rfl (hE2 c)⟩)
    (hinit := ?_) (QY := fun c s => ∀ b ∈ Pipeline.ucRefs τ sig, s.mem ((c : Thread nD τ).1, b) = V3 m outs c b)
    (hfin := fun c s' => ?_) (hQ := fun _ h => h)
  · -- the launch: the unscoped buffers are held at the launch contents; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last contents
    unfold StableHlo.held
    iintro ⟨Hh, HSI⟩
    imodintro
    iapply (pointsTo_read_all (Pipeline.ucRefs τ sig) (fun b => ((c : Thread nD τ).1, b)) (V3 m outs c) s')
    isplitl [Hh] <;> iassumption

/-! ## The contents between the items -/

/-- The launch memory read at the TensorCore's references: what both passes' input arrays hold when a pass is entered
    (no item writes an argument). -/
abbrev Ve (c : Dev nD) (b : Ref sig .tc) : Buf (Elt F) ((c : Thread nD τ).loc b) := V0 m c b

/-- After the first pass: its arrays at what its write-backs leave, every other buffer as launched. -/
def W1 (c : Dev nD) : Valuation τ sig (Elt F) :=
  Pipeline.withArrays spec0 c (V0 m c) fun w => (H0.dat0 (Ve m) c).arrAt w cfg0.N
/-- After the second pass likewise, over the first's. -/
def W2 (c : Dev nD) : Valuation τ sig (Elt F) :=
  Pipeline.withArrays spec1 c (W1 m c) fun w => (H1.dat1 (Ve m) c).arrAt w cfg1.N

/-- What the two passes leave in their result arrays. -/
def outs : Outs (F := F) := fun j r c => match j with
  | 1 => W1 m c r
  | _ => W2 m c r

theorem outs1 (c : Dev nD) : outs m 1 main_v0 c = (H0.dat0 (Ve m) c).arrAt 2 cfg0.N := by
  show W1 m c (Proc.devRef .tc (Pipeline.arrRef spec0 2)) = _
  unfold W1; exact Pipeline.withArrays_arr spec0 launch0.win.arr_inj c _ _ 2
theorem outs2 (c : Dev nD) : outs m 2 main_v1 c = (H1.dat1 (Ve m) c).arrAt 2 cfg1.N := by
  show W2 m c (Proc.devRef .tc (Pipeline.arrRef spec1 2)) = _
  unfold W2; exact Pipeline.withArrays_arr spec1 launch1.win.arr_inj c _ _ 2

/-! ## The proof data family and the thread state -/

/-- Both passes' proof data, each at the launch contents of its input arrays — a literal `match`, so that the pinned
    configuration at a numeral reduces to the printed one. -/
def pdats : (p : Fin 2) → (c : Dev nD) → Dat τ (Elt F) Unit ℕ (UR sig nD τ) ℕ (Pipeline.pin (pcfgs (F := F)) adm p) c
  | ⟨0, _⟩ => fun c => H0.dat0 (Ve m) c
  | ⟨1, _⟩ => fun c => H1.dat1 (Ve m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)

/-! ## Each pass's arrays before and after it -/

/-- The first pass finds its three arrays at the launch contents. -/
theorem hA0 (c : Dev nD) : ∀ w, (pdats m 0 c).A w = V0 m c (Pipeline.arrRef spec0 w) := fun _ => rfl
/-- The second pass finds its three arrays at the launch contents too: the first pass changed only its own result array. -/
theorem hA1 (c : Dev nD) : ∀ w, (pdats m 1 c).A w = V1 m (outs m) c (Pipeline.arrRef spec1 w) := fun w =>
  match w with
  | ⟨0, _⟩ => (V1_of m (outs m) c main_arg1 (by decide)).symm
  | ⟨1, _⟩ => (V1_of m (outs m) c main_arg0 (by decide)).symm
  | ⟨2, _⟩ => (V1_of m (outs m) c main_v1 (by decide)).symm

/-- After the first pass its input arrays are as they were and its result array is what `outs` names. -/
theorem hF0 (c : Dev nD) : ∀ w, (pdats m 0 c).arrAt w cfg0.N = V1 m (outs m) c (Pipeline.arrRef spec0 w) := fun w =>
  match w with
  | ⟨0, _⟩ => ((H0.dat0 (Ve m) c).arrAt_in 0 rfl _).trans (V1_of m (outs m) c main_arg0 (by decide)).symm
  | ⟨1, _⟩ => ((H0.dat0 (Ve m) c).arrAt_in 1 rfl _).trans (V1_of m (outs m) c main_arg1 (by decide)).symm
  | ⟨2, _⟩ => by
    show (H0.dat0 (Ve m) c).arrAt 2 cfg0.N = Function.update (V0 m c) (Proc.devRef .tc main_v0) (outs m 1 main_v0 c) (Proc.devRef .tc main_v0)
    rw [Function.update_self]; exact (outs1 m c).symm
theorem hrest0 (c : Dev nD) : ∀ b, b ∉ Finset.univ.image (Pipeline.arrRef spec0) → V1 m (outs m) c b = V0 m c b := fun b hb =>
  V1_of m (outs m) c b (fun h => hb (by
    rw [List.mem_singleton] at h; subst h
    exact Finset.mem_image.mpr ⟨2, Finset.mem_univ _, rfl⟩))

/-- After the second pass likewise. -/
theorem hF1 (c : Dev nD) : ∀ w, (pdats m 1 c).arrAt w cfg1.N = V2 m (outs m) c (Pipeline.arrRef spec1 w) := fun w =>
  match w with
  | ⟨0, _⟩ => ((H1.dat1 (Ve m) c).arrAt_in 0 rfl _).trans ((V2_of m (outs m) c main_arg1 (by decide)).trans (V1_of m (outs m) c main_arg1 (by decide))).symm
  | ⟨1, _⟩ => ((H1.dat1 (Ve m) c).arrAt_in 1 rfl _).trans ((V2_of m (outs m) c main_arg0 (by decide)).trans (V1_of m (outs m) c main_arg0 (by decide))).symm
  | ⟨2, _⟩ => by
    show (H1.dat1 (Ve m) c).arrAt 2 cfg1.N = Function.update (V1 m (outs m) c) (Proc.devRef .tc main_v1) (outs m 2 main_v1 c) (Proc.devRef .tc main_v1)
    rw [Function.update_self]; exact (outs2 m c).symm
theorem hrest1 (c : Dev nD) : ∀ b, b ∉ Finset.univ.image (Pipeline.arrRef spec1) → V2 m (outs m) c b = V1 m (outs m) c b := fun b hb =>
  V2_of m (outs m) c b (fun h => hb (by
    rw [List.mem_singleton] at h; subst h
    exact Finset.mem_image.mpr ⟨2, Finset.mem_univ _, rfl⟩))

/-! ## The passes as items -/

set_option backward.isDefEq.respectTransparency.types false in
/-- Pass 0 as an item of @main: entered with every unscoped buffer at the contents before it, left with its result array
    rewritten and every other unscoped buffer as it was. Its three arrays are taken out of the unscoped buffers at entry
    and put back at exit; the generator register goes into the pass's invariant and comes back; nothing is owed. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (H0.body_obligation (Ve m) c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (V1 m (outs m) c) ∗ R c)
  X c := iprop(∃ r, prngReg c r)
  Y c := iprop(∃ r, prngReg c r)
  Z c := Pipeline.unscopedRest (Ix := Unit) (Name := ℕ) (U := UR sig nD τ) (Lvl := ℕ) spec0 c (fun b => V0 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V0 m c b) (hA0 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (H0.hin (Ve m) c)
    unfold Pipeline.ΦA
    iintro ⟨Hp, -, Hr⟩
    isplitl [Hr]; · iexact Hr
    iexact Hp
  hout c := by
    rw [Pipeline.ownSems0_none]
    refine BIBase.Entails.trans (H0.hout (Ve m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => V0 m c b) (fun b => V1 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass 1 as an item of @main: entered with every unscoped buffer at the contents before it, left with its result array
    rewritten and every other unscoped buffer as it was. Its three arrays are taken out of the unscoped buffers at entry
    and put back at exit; the generator register goes into the pass's invariant and comes back; nothing is owed. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (H1.body_obligation (Ve m) c).loose
  hwaits := Pipeline.hwaits_of_owed_zero _ _ _ _ L lv 1 fun _ _ => rfl
  pre c := iprop(StableHlo.held (c : Thread nD τ) (Pipeline.ucRefs τ sig) (V1 m (outs m) c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec1 c (fun b => V1 m (outs m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => V1 m (outs m) c b) (hA1 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (H1.hin (Ve m) c)
    unfold Pipeline.ΦA
    iintro ⟨Hp, -, Hr⟩
    isplitl [Hr]; · iexact Hr
    iexact Hp
  hout c := by
    rw [Pipeline.ownSems0_none]
    refine BIBase.Entails.trans (H1.hout (Ve m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => V1 m (outs m) c b) (fun b => V2 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- Every weakly fair execution of @main from memory `m` terminates, and the final memory holds every unscoped buffer at
    the last contents `Gen.V3 m (outs m)`. -/
theorem run_full : θ_run defs (onTc (τ := τ) (main (F := F))) ⟨m, fun _ => 0, ρ⟩ (fun r => ∀ c : Dev nD,
      ∀ b ∈ Pipeline.ucRefs τ sig, r.2.mem ((c : Thread nD τ).1, b) = V3 m (outs m) c b) :=
  run_cond m emb₁ () 𝒱₀ L lv (fun _ _ => rfl) ρ (outs m) (pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ => R)
    (hE0 := by
      refine Pipeline.initEach L lv fun c => ?_
      iintro ⟨⟨-, HO, -, Hp, -⟩, -⟩
      imodintro
      isplitl [Hp]; · iexists _; iexact Hp
      iexists ∅; iexact HO)
    (hE2 := fun c => by
      iintro ⟨-, HO⟩; iexact HO)
    (R0 := reg0 m) (hpre0 := fun _ => .rfl) (hpost0 := fun _ => .rfl)
    (R1 := reg1 m) (hpre1 := fun _ => .rfl) (hpost1 := fun _ => .rfl)

/-- An unscoped TensorCore reference is among those the last contents are read at. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: the program runs to its end and its two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (V3_main_arg0 m (outs m) c),
     (h c _ (mem_uc main_arg1 (by decide))).trans (V3_main_arg1 m (outs m) c)⟩) (run_full m ρ)

end Cert.Kernel.Run

end
-- ==== Proof.KI0Vals.lean ====
/-
  The values the first nearest-distance pass leaves behind, as functions of the arrays it is entered with.

  The pass walks a 16 × 16 grid, point t = 16·a + j. At t it holds block a of its first array (512 points per
  batch) and block j of its second, and keeps in a scratch buffer, per batch and per point of block a, the least
  expanded squared distance to the points of the second array seen so far in this row of the grid: the scratch is
  reset to +∞ when j = 0 and lowered by the block's own minima at every point. `accAt` is that scratch after
  point t, by recursion on t through the body's own arithmetic.
-/
import proofs.«132927_j28724741276335_2_alg».proof.Proof.Gen.KernelIdeal.Skeleton
import proofs.«132927_j28724741276335_2_alg».proof.Proof.Gen.KernelIdeal.Points

noncomputable section

namespace Cert.KernelIdeal.H0

open Idealize.ShloMosaic Idealize.ShloMosaic.TcCoe Idealize.SL.Sem
open Cert.KernelIdeal Cert.KernelIdeal.Gen

variable {F : FTy → Type} [FloatOps F]
variable (V : (c : Dev nD) → (b : Ref sig .tc) → Buf (Elt F) ((c : Thread nD τ).loc b))

/-- Window `w`'s block at grid point `t`, read off its array as the pass finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of query points at `t` (first window) and the block of candidate points (second window). -/
abbrev qblk (c : Dev nD) (t : Fin cfg0.N) : Vec F S4x512x3 .f32 := iblk V c 0 t
abbrev kblk (c : Dev nD) (t : Fin cfg0.N) : Vec F S4x512x3 .f32 := iblk V c 1 t

/-- The scratch after point `n`: the body's update of +∞ at the start of a grid row, of the previous point's
    scratch elsewhere. -/
def accAt (c : Dev nD) : (n : ℕ) → n < cfg0.N → Vec F S4x512 .f32
  | 0, hn => k0_pay2 (qblk V c ⟨0, hn⟩) (kblk V c ⟨0, hn⟩) k0_pay1
  | n + 1, hn =>
    if (n + 1) % 16 = 0 then k0_pay2 (qblk V c ⟨n + 1, hn⟩) (kblk V c ⟨n + 1, hn⟩) k0_pay1
    else k0_pay2 (qblk V c ⟨n + 1, hn⟩) (kblk V c ⟨n + 1, hn⟩) (accAt c n (Nat.lt_of_succ_lt hn))

/-- At the start of a grid row the scratch is the update of +∞. -/
theorem accAt_first (c : Dev nD) (t : Fin cfg0.N) (h : t.val % 16 = 0) :
    accAt V c t.val t.isLt = k0_pay2 (qblk V c t) (kblk V c t) k0_pay1 := by
  obtain ⟨n, hn⟩ := t
  cases n with
  | zero => rfl
  | succ n => exact (if_pos h).trans rfl

/-- Elsewhere it is the update of what the point before left. -/
theorem accAt_next (c : Dev nD) (t : Fin cfg0.N) (h : t.val % 16 ≠ 0) :
    accAt V c t.val t.isLt = k0_pay2 (qblk V c t) (kblk V c t) (accAt V c (t.val - 1) (Nat.lt_of_le_of_lt (Nat.sub_le _ _) t.isLt)) := by
  obtain ⟨n, hn⟩ := t
  cases n with
  | zero => exact absurd (Nat.zero_mod _) h
  | succ n => exact (if_neg h).trans rfl

end Cert.KernelIdeal.H0

end
-- ==== Proof.KI0Frame.lean ====
/-
  The first nearest-distance pass runs to its end without a fault, and what it leaves is named.

  The pass's body has three courses, told apart by the position j = t % 16 in the grid row: at j = 0 it resets its
  scratch to +∞ before lowering it by the point's minima, at 0 < j < 15 it only lowers it, at j = 15 it lowers it and
  copies it into the result window, which is written back to the result array there and nowhere else. Each course is
  run once on arbitrary whole buffers; the invariant carried from point to point says that the scratch holds
  `accAt` of the point before; the proof data name what every window's buffer holds after every point, and the body's
  obligation at a point is its course's run.
-/
import proofs.«132927_j28724741276335_2_alg».proof.Proof.Gen.KernelIdeal.Launch
import proofs.«132927_j28724741276335_2_alg».proof.Proof.Gen.KernelIdeal.Skeleton
import proofs.«132927_j28724741276335_2_alg».proof.Proof.Gen.KernelIdeal.Points
import proofs.«132927_j28724741276335_2_alg».proof.Proof.KI0Vals
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.H0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's two conditions, decided over the grid -/

/-- "This is the first point of a grid row" as the body computes it from the second grid coordinate. -/
abbrev condA (i : grid0.Coords) : Prop := (Scalar.cmpi .ne (Scalar.extui (Scalar.cmpi .eq (BitVec.ofNat 32 (i 1).val) 0#32)) 0#32) = 1#1
/-- "This is the last point of a grid row". -/
abbrev condC (i : grid0.Coords) : Prop := k0_cond2 i = 1#1

theorem hcondA : ∀ t : Fin cfg0.N, condA (grid0.coords t) ↔ t.val % 16 = 0 :=
  (by decide +kernel : ∀ t : Fin grid0.N, condA (grid0.coords t) ↔ t.val % 16 = 0)
theorem hcondC : ∀ t : Fin cfg0.N, condC (grid0.coords t) ↔ t.val % 16 = 15 :=
  (by decide +kernel : ∀ t : Fin grid0.N, condC (grid0.coords t) ↔ t.val % 16 = 15)

/-- The result window is stored into, and written back, exactly at the last point of a grid row. -/
theorem idle2 : ∀ t : Fin cfg0.N, ¬condC (grid0.coords t) → cfg0.idle 2 (grid0.coords t) = true := by decide +kernel
theorem noFlush2 : ∀ t : Fin cfg0.N, ¬condC (grid0.coords t) → (cfg0.win 2).flush t = false := by decide +kernel
theorem live2 : ∀ t : Fin cfg0.N, condC (grid0.coords t) → cfg0.idle 2 (grid0.coords t) = false := by decide +kernel
theorem live0 : ∀ t : Fin cfg0.N, cfg0.idle 0 (grid0.coords t) = false := fun _ => rfl
theorem live1 : ∀ t : Fin cfg0.N, cfg0.idle 1 (grid0.coords t) = false := fun _ => rfl

/-! ## The body on any whole memrefs, case by case -/

theorem hz2 : (![0, 0] : Fin S4x512.rank → Nat) = fun _ => 0 := by
  funext a; match a with | ⟨0, _⟩ => rfl | ⟨1, _⟩ => rfl
theorem hz3 : (![0, 0, 0] : Fin S4x512x3.rank → Nat) = fun _ => 0 := by
  funext a; match a with | ⟨0, _⟩ => rfl | ⟨1, _⟩ => rfl | ⟨2, _⟩ => rfl

/-- A store of the whole scratch shape, last in a list of stores, covers every entry. -/
theorem cov2 (w : S4x512.Idx → Elt F .f32) (L : List (View.Piece (Elt F) S4x512 .f32)) (y : S4x512.Idx) :
    ∃ p ∈ ((⟨Rect.unit (s := S4x512) ![0, 0] S4x512.size inb_S4x512_S4x512_0_0, w⟩ : View.Piece (Elt F) S4x512 .f32) :: L), y ∈ p.1.set :=
  ⟨_, List.mem_cons_self, View.mem_set_unit_zero hz2 inb_S4x512_S4x512_0_0 y⟩

set_option maxHeartbeats 1000000 in
/-- First point of a grid row: the scratch, whatever it held, is reset to +∞ and then lowered by this point's minima;
    the result window is not touched. -/
theorem run_first (c : Dev nD) (E : Set ℕ) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole)
    (hcA : condA i) (hcC : ¬condC i) (x0 x1 : Vec F S4x512x3 .f32) (K : PUnit → sProp 𝕄) :
    iprop(owns (c : Thread nD τ) arg2 fullShare x0 ∗ owns (c : Thread nD τ) arg3 fullShare x1 ∗ (∃ d, owns (c : Thread nD τ) arg5 fullShare d)
        ∗ (iprop(owns (c : Thread nD τ) arg2 fullShare x0 ∗ owns (c : Thread nD τ) arg3 fullShare x1 ∗ owns (c : Thread nD τ) arg5 fullShare (k0_pay2 x0 x1 k0_pay1)) -∗ K ⟨⟩))
      ⊢ wp frame (wpE (defs₀ (F := F)) Variants.none c none) E (cc0__chamfer_half_kernel i arg2 harg2 arg3 harg3 arg4 harg4 arg5 harg5) K := by
  simp only [cc0__chamfer_half_kernel_eq_skeleton]; unfold cc0__chamfer_half_kernel_skel
  unfold owns
  iintro ⟨⟨%f0, %hf0, Hq⟩, ⟨%f1, %hf1, Hc⟩, ⟨%ds, %fs, -, HS⟩, Hk⟩
  obtain rfl := harg2.eq_unread hf0; obtain rfl := harg3.eq_unread hf1
  sl_exec (disch := first | exact hcA | exact hcC)
  sl_step
  iapply Hk
  isplitl [Hq]
  · iexists _; isplitr; · ipureintro; exact harg2.read_unread _
    iexact Hq
  isplitl [Hc]
  · iexists _; isplitr; · ipureintro; exact harg3.read_unread _
    iexact Hc
  iexists _; isplitr
  swap; · iexact HS
  ipureintro
  rw [View.read_writes_eq_canon _ _ _ (cov2 _ _),
    View.canon_cons_unit_zero (S := S4x512) hz2]
  sl_unfold_words
  simp only [View.readAt_eq_ld, harg2.read_unread, harg3.read_unread, View.ld_unit_zero (S := S4x512x3) hz3,
    View.readCov_unit_zero (S := S4x512) _ hz2]

set_option maxHeartbeats 1000000 in
/-- A middle point of a grid row: the scratch is lowered by this point's minima; the result window is not touched. -/
theorem run_mid (c : Dev nD) (E : Set ℕ) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole)
    (hcA : ¬condA i) (hcC : ¬condC i) (x0 x1 : Vec F S4x512x3 .f32) (xs : Vec F S4x512 .f32) (K : PUnit → sProp 𝕄) :
    iprop(owns (c : Thread nD τ) arg2 fullShare x0 ∗ owns (c : Thread nD τ) arg3 fullShare x1 ∗ owns (c : Thread nD τ) arg5 fullShare xs
        ∗ (iprop(owns (c : Thread nD τ) arg2 fullShare x0 ∗ owns (c : Thread nD τ) arg3 fullShare x1 ∗ owns (c : Thread nD τ) arg5 fullShare (k0_pay2 x0 x1 xs)) -∗ K ⟨⟩))
      ⊢ wp frame (wpE (defs₀ (F := F)) Variants.none c none) E (cc0__chamfer_half_kernel i arg2 harg2 arg3 harg3 arg4 harg4 arg5 harg5) K := by
  simp only [cc0__chamfer_half_kernel_eq_skeleton]; unfold cc0__chamfer_half_kernel_skel
  unfold owns
  iintro ⟨⟨%f0, %hf0, Hq⟩, ⟨%f1, %hf1, Hc⟩, ⟨%fs, %hfs, HS⟩, Hk⟩
  obtain rfl := harg2.eq_unread hf0; obtain rfl := harg3.eq_unread hf1; obtain rfl := harg5.eq_unread hfs
  sl_exec (disch := first | exact hcA | exact hcC)
  sl_step
  iapply Hk
  isplitl [Hq]
  · iexists _; isplitr; · ipureintro; exact harg2.read_unread _
    iexact Hq
  isplitl [Hc]
  · iexists _; isplitr; · ipureintro; exact harg3.read_unread _
    iexact Hc
  iexists _; isplitr
  swap; · iexact HS
  ipureintro
  rw [View.read_writes_eq_canon _ _ _ (cov2 _ _),
    View.canon_unit_zero (S := S4x512) hz2]
  simp only [View.readAt_eq_ld, harg2.read_unread, harg3.read_unread, harg5.read_unread, View.ld_unit_zero (S := S4x512x3) hz3,
    View.ld_unit_zero (S := S4x512) hz2]

set_option maxHeartbeats 1000000 in
/-- Last point of a grid row: the scratch is lowered by this point's minima and copied into the result window. -/
theorem run_last (c : Dev nD) (E : Set ℕ) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole)
    (hcA : ¬condA i) (hcC : condC i) (x0 x1 : Vec F S4x512x3 .f32) (xs : Vec F S4x512 .f32) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1 ∗ owns (c : Thread nD τ) arg4 fullShare (k0_pay2 x0 x1 xs) ∗ owns (c : Thread nD τ) arg5 fullShare (k0_pay2 x0 x1 xs)) -∗ K ⟨⟩))
      ⊢ wp frame (wpE (defs₀ (F := F)) Variants.none c none) E (cc0__chamfer_half_kernel i arg2 harg2 arg3 harg3 arg4 harg4 arg5 harg5) K := by
  simp only [cc0__chamfer_half_kernel_eq_skeleton]; unfold cc0__chamfer_half_kernel_skel
  unfold owns
  iintro ⟨⟨%f0, %hf0, Hq⟩, ⟨%f1, %hf1, Hc⟩, ⟨%dout, %fo, -, HO⟩, ⟨%fs, %hfs, HS⟩, Hk⟩
  obtain rfl := harg2.eq_unread hf0; obtain rfl := harg3.eq_unread hf1; obtain rfl := harg5.eq_unread hfs
  sl_exec (disch := first | exact hcA | exact hcC)
  sl_step
  iapply Hk
  isplitl [Hq]
  · iexists _; isplitr; · ipureintro; exact harg2.read_unread _
    iexact Hq
  isplitl [Hc]
  · iexists _; isplitr; · ipureintro; exact harg3.read_unread _
    iexact Hc
  isplitl [HO]
  · iexists _; isplitr
    swap; · iexact HO
    ipureintro
    sl_unfold_words
    rw [View.read_writes_eq_canon _ _ _ (cov2 _ _), View.canon_unit_zero (S := S4x512) hz2]
    simp only [View.readCov_unit_zero (S := S4x512) _ hz2, View.readAt_eq_ld, harg2.read_unread, harg3.read_unread, harg5.read_unread,
      View.ld_unit_zero (S := S4x512x3) hz3, View.ld_unit_zero (S := S4x512) hz2]
  iexists _; isplitr
  swap; · iexact HS
  ipureintro
  sl_unfold_words
  rw [View.read_writes_eq_canon _ _ _ (cov2 _ _), View.canon_unit_zero (S := S4x512) hz2]
  simp only [View.readAt_eq_ld, harg2.read_unread, harg3.read_unread, harg5.read_unread, View.ld_unit_zero (S := S4x512x3) hz3,
    View.ld_unit_zero (S := S4x512) hz2]

/-! ## The invariant between points -/

variable (V : (c : Dev nD) → (b : Ref sig .tc) → Buf (Elt F) ((c : Thread nD τ).loc b))

/-- The pass's scratch operand: a whole scoped buffer of its own. -/
abbrev scM : Memref sig .tc .vmem S4x512 .f32 := Memref.whole cc0_scratch0

/-- The core's other scoped buffers that this pass does not stage through (the other pass's), each at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- What the region hands the body before the first point: the scratch at anything, the other scoped buffers, the generator register. -/
theorem PhiA_eq (c : Dev nD) :
    (Pipeline.ΦA spec0 c : sProp 𝕄)
      = iprop((iprop(∃ d, owns (c : Thread nD τ) scM fullShare d) ∗ others c) ∗ (∃ r, prngReg c r)) := by
  unfold Pipeline.ΦA others
  rw [Pipeline.scopedRest_eq_of_list spec0 c [cc0_scratch0, cc1_stg0_0, cc1_stg0_1, cc1_stg1_0, cc1_stg1_1, cc1_stg2_0, cc1_stg2_1, cc1_scratch0] (by decide) (by decide)]
  simp only [scM, owns_whole]; try rfl

/-- The invariant before position `n`: before the first point the scratch holds anything; afterwards what the point
    before left in it (`accAt`). -/
def PhiS (c : Dev nD) : (n : ℕ) → n ≤ cfg0.N → sProp 𝕄
  | 0, _ => Pipeline.ΦA spec0 c
  | n + 1, hn => iprop((owns (c : Thread nD τ) scM fullShare (accAt V c n hn) ∗ others c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop((owns (c : Thread nD τ) scM fullShare (accAt V c n hn) ∗ others c) ∗ (∃ r, prngReg c r)) := rfl

theorem PhiS_pos (c : Dev nD) (n : ℕ) (h : n ≤ cfg0.N) (hz : n ≠ 0) :
    PhiS V c n h = iprop((owns (c : Thread nD τ) scM fullShare (accAt V c (n - 1) (by omega)) ∗ others c) ∗ (∃ r, prngReg c r)) := by
  cases n with
  | zero => exact absurd rfl hz
  | succ n => rfl

/-! ## The proof data -/

/-- The arrays as the pass finds them; after the body each input's buffer at its block and the result window's at the
    scratch's contents (what the last point of a grid row copies there; elsewhere the window is idle and the value is
    not consulted); the invariant above; nothing owed; full shares. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => accAt V c t.val t.isLt
  Φ t := PhiS V c t.val (Nat.le_of_lt_succ t.isLt)
  q _ := fullShare
  owed _ := 0

theorem A_eq (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk V c 0 t := by dsimp only [dat0]
theorem after0_1 (c : Dev nD) (t : Fin cfg0.N) : (dat0 V c).after 1 t = iblk V c 1 t := by dsimp only [dat0]
theorem after0_2 (c : Dev nD) (t : Fin cfg0.N) : (dat0 V c).after 2 t = accAt V c t.val t.isLt := by dsimp only [dat0]

/-- An input window's current staging buffer holds its block at every point, fetched there or not: where it is not
    fetched its block index has not moved since the point before. -/
theorem before0_0 (c : Dev nD) (t : Fin cfg0.N) (d) : (dat0 V c).before 0 t d = iblk V c 0 t :=
  ((dat0 V c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dat0 V c).before 1 t d = iblk V c 1 t :=
  ((dat0 V c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4000000 in
/-- The body at any point. The position in the grid row says which case runs; the invariant hands the body the scratch
    at what the point before left (at anything before the first point) and takes it back at this point's contents; the
    result window is handed back untouched except at the last point of a row, where it receives the scratch. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (st0_0 t) fullShare ((dat0 V c).after 0 t) from by
    unfold Dat.leavesExact; rw [live0 t], after0_0]
  rw [show (dat0 V c).leavesExact 1 t = owns (c : Thread nD τ) (st0_1 t) fullShare ((dat0 V c).after 1 t) from by
    unfold Dat.leavesExact; rw [live1 t], after0_1]
  have hN : t.val < 256 := lt_of_lt_of_eq t.isLt (show cfg0.N = 256 from N_0)
  by_cases hA : t.val % 16 = 0
  · have hC : ¬t.val % 16 = 15 := by omega
    rw [Dat.leavesExact_idle (dat0 V c) 2 t (idle2 t (fun h => hC ((hcondC t).mp h))) (noFlush2 t (fun h => hC ((hcondC t).mp h)))]
    rw [accAt_first V c t hA]
    by_cases hz : t.val = 0
    · rw [PhiS_castSucc V c t, PhiS_zero V c _ _ hz, PhiA_eq]
      iintro ⟨⟨⟨HS, Hoth⟩, Hg⟩, Ho, ⟨%d0, Hq⟩, ⟨%d1, Hc⟩, Hr⟩
      iapply (run_first c Set.univ (grid0.coords t) _ _ _ _ _ _ _ _ ((hcondA t).mpr hA) (fun h => hC ((hcondC t).mp h)) (qblk V c t) (kblk V c t) _)
      isplitl [Hq]; · iexact Hq
      isplitl [Hc]; · iexact Hc
      isplitl [HS]; · iexact HS
      iintro ⟨Hq, Hc, HS⟩
      isplitl [HS Hoth Hg]
      · isplitl [HS Hoth]
        · isplitl [HS]; · iexact HS
          iexact Hoth
        iexact Hg
      isplitl [Ho]; · iexact Ho
      isplitl [Hq]; · iexact Hq
      isplitl [Hc]; · iexact Hc
      iexact Hr
    · rw [PhiS_castSucc V c t, PhiS_pos V c _ _ hz]
      iintro ⟨⟨⟨HS, Hoth⟩, Hg⟩, Ho, ⟨%d0, Hq⟩, ⟨%d1, Hc⟩, Hr⟩
      iapply (run_first c Set.univ (grid0.coords t) _ _ _ _ _ _ _ _ ((hcondA t).mpr hA) (fun h => hC ((hcondC t).mp h)) (qblk V c t) (kblk V c t) _)
      isplitl [Hq]; · iexact Hq
      isplitl [Hc]; · iexact Hc
      isplitl [HS]; · iexists _; iexact HS
      iintro ⟨Hq, Hc, HS⟩
      isplitl [HS Hoth Hg]
      · isplitl [HS Hoth]
        · isplitl [HS]; · iexact HS
          iexact Hoth
        iexact Hg
      isplitl [Ho]; · iexact Ho
      isplitl [Hq]; · iexact Hq
      isplitl [Hc]; · iexact Hc
      iexact Hr
  · have hz : t.val ≠ 0 := fun e => hA (by rw [e])
    rw [accAt_next V c t hA, PhiS_castSucc V c t, PhiS_pos V c _ _ hz]
    by_cases hC : t.val % 16 = 15
    · rw [show (dat0 V c).leavesExact 2 t = owns (c : Thread nD τ) (st0_2 t) fullShare ((dat0 V c).after 2 t) from by
        unfold Dat.leavesExact; rw [live2 t ((hcondC t).mpr hC)], after0_2, accAt_next V c t hA]
      iintro ⟨⟨⟨HS, Hoth⟩, Hg⟩, Ho, ⟨%d0, Hq⟩, ⟨%d1, Hc⟩, ⟨%d2, Hr⟩⟩
      iapply (run_last c Set.univ (grid0.coords t) _ _ _ _ _ _ _ _ (fun h => hA ((hcondA t).mp h)) ((hcondC t).mpr hC) (qblk V c t) (kblk V c t) _ _)
      isplitl [Hq]; · iexact Hq
      isplitl [Hc]; · iexact Hc
      isplitl [Hr]; · iexists _; iexact Hr
      isplitl [HS]; · iexact HS
      iintro ⟨Hq, Hc, Hr, HS⟩
      isplitl [HS Hoth Hg]
      · isplitl [HS Hoth]
        · isplitl [HS]; · iexact HS
          iexact Hoth
        iexact Hg
      isplitl [Ho]; · iexact Ho
      isplitl [Hq]; · iexact Hq
      isplitl [Hc]; · iexact Hc
      iexact Hr
    · rw [Dat.leavesExact_idle (dat0 V c) 2 t (idle2 t (fun h => hC ((hcondC t).mp h))) (noFlush2 t (fun h => hC ((hcondC t).mp h)))]
      iintro ⟨⟨⟨HS, Hoth⟩, Hg⟩, Ho, ⟨%d0, Hq⟩, ⟨%d1, Hc⟩, Hr⟩
      iapply (run_mid c Set.univ (grid0.coords t) _ _ _ _ _ _ _ _ (fun h => hA ((hcondA t).mp h)) (fun h => hC ((hcondC t).mp h)) (qblk V c t) (kblk V c t) _ _)
      isplitl [Hq]; · iexact Hq
      isplitl [Hc]; · iexact Hc
      isplitl [HS]; · iexact HS
      iintro ⟨Hq, Hc, HS⟩
      isplitl [HS Hoth Hg]
      · isplitl [HS Hoth]
        · isplitl [HS]; · iexact HS
          iexact Hoth
        iexact Hg
      isplitl [Ho]; · iexact Ho
      isplitl [Hq]; · iexact Hq
      isplitl [Hc]; · iexact Hc
      iexact Hr

/-- The library's body obligation, at every point. -/
theorem body_obligation (c : Dev nD) : BodyObligation (dat0 (F := F) V c) (defs₀ (F := F)) Variants.none () Set.univ := fun t => by
  rw [bigSep_W0, bigSep_W0]
  exact sound_body V c t

/-- What the region hands the body is the invariant before the first point. -/
theorem hin (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the region its own back: the scratch's contents are forgotten. -/
theorem hout (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 256 := N_0; omega), PhiA_eq]
  iintro ⟨⟨HS, Hoth⟩, Hg⟩
  isplitl [HS Hoth]
  · isplitl [HS]; · iexists _; iexact HS
    iexact Hoth
  iexact Hg

end Cert.KernelIdeal.H0

end
-- ==== Proof.KI1Vals.lean ====
/-
  The values the second nearest-distance pass leaves behind, as functions of the arrays it is entered with.

  The pass walks a 16 × 16 grid, point t = 16·a + j. At t it holds block a of its first array (512 points per
  batch) and block j of its second, and keeps in a scratch buffer, per batch and per point of block a, the least
  expanded squared distance to the points of the second array seen so far in this row of the grid: the scratch is
  reset to +∞ when j = 0 and lowered by the block's own minima at every point. `accAt` is that scratch after
  point t, by recursion on t through the body's own arithmetic.
-/
import proofs.«132927_j28724741276335_2_alg».proof.Proof.Gen.KernelIdeal.Skeleton
import proofs.«132927_j28724741276335_2_alg».proof.Proof.Gen.KernelIdeal.Points

noncomputable section

namespace Cert.KernelIdeal.H1

open Idealize.ShloMosaic Idealize.ShloMosaic.TcCoe Idealize.SL.Sem
open Cert.KernelIdeal Cert.KernelIdeal.Gen

variable {F : FTy → Type} [FloatOps F]
variable (V : (c : Dev nD) → (b : Ref sig .tc) → Buf (Elt F) ((c : Thread nD τ).loc b))

/-- Window `w`'s block at grid point `t`, read off its array as the pass finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block of query points at `t` (first window) and the block of candidate points (second window). -/
abbrev qblk (c : Dev nD) (t : Fin cfg1.N) : Vec F S4x512x3 .f32 := iblk V c 0 t
abbrev kblk (c : Dev nD) (t : Fin cfg1.N) : Vec F S4x512x3 .f32 := iblk V c 1 t

/-- The scratch after point `n`: the body's update of +∞ at the start of a grid row, of the previous point's
    scratch elsewhere. -/
def accAt (c : Dev nD) : (n : ℕ) → n < cfg1.N → Vec F S4x512 .f32
  | 0, hn => k1_pay2 (qblk V c ⟨0, hn⟩) (kblk V c ⟨0, hn⟩) k1_pay1
  | n + 1, hn =>
    if (n + 1) % 16 = 0 then k1_pay2 (qblk V c ⟨n + 1, hn⟩) (kblk V c ⟨n + 1, hn⟩) k1_pay1
    else k1_pay2 (qblk V c ⟨n + 1, hn⟩) (kblk V c ⟨n + 1, hn⟩) (accAt c n (Nat.lt_of_succ_lt hn))

/-- At the start of a grid row the scratch is the update of +∞. -/
theorem accAt_first (c : Dev nD) (t : Fin cfg1.N) (h : t.val % 16 = 0) :
    accAt V c t.val t.isLt = k1_pay2 (qblk V c t) (kblk V c t) k1_pay1 := by
  obtain ⟨n, hn⟩ := t
  cases n with
  | zero => rfl
  | succ n => exact (if_pos h).trans rfl

/-- Elsewhere it is the update of what the point before left. -/
theorem accAt_next (c : Dev nD) (t : Fin cfg1.N) (h : t.val % 16 ≠ 0) :
    accAt V c t.val t.isLt = k1_pay2 (qblk V c t) (kblk V c t) (accAt V c (t.val - 1) (Nat.lt_of_le_of_lt (Nat.sub_le _ _) t.isLt)) := by
  obtain ⟨n, hn⟩ := t
  cases n with
  | zero => exact absurd (Nat.zero_mod _) h
  | succ n => exact (if_neg h).trans rfl

end Cert.KernelIdeal.H1

end
-- ==== Proof.KI1Frame.lean ====
/-
  The second nearest-distance pass runs to its end without a fault, and what it leaves is named.

  The pass's body has three courses, told apart by the position j = t % 16 in the grid row: at j = 0 it resets its
  scratch to +∞ before lowering it by the point's minima, at 0 < j < 15 it only lowers it, at j = 15 it lowers it and
  copies it into the result window, which is written back to the result array there and nowhere else. Each course is
  run once on arbitrary whole buffers; the invariant carried from point to point says that the scratch holds
  `accAt` of the point before; the proof data name what every window's buffer holds after every point, and the body's
  obligation at a point is its course's run.
-/
import proofs.«132927_j28724741276335_2_alg».proof.Proof.Gen.KernelIdeal.Launch
import proofs.«132927_j28724741276335_2_alg».proof.Proof.Gen.KernelIdeal.Skeleton
import proofs.«132927_j28724741276335_2_alg».proof.Proof.Gen.KernelIdeal.Points
import proofs.«132927_j28724741276335_2_alg».proof.Proof.KI1Vals
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.H1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's two conditions, decided over the grid -/

/-- "This is the first point of a grid row" as the body computes it from the second grid coordinate. -/
abbrev condA (i : grid1.Coords) : Prop := (Scalar.cmpi .ne (Scalar.extui (Scalar.cmpi .eq (BitVec.ofNat 32 (i 1).val) 0#32)) 0#32) = 1#1
/-- "This is the last point of a grid row". -/
abbrev condC (i : grid1.Coords) : Prop := k1_cond2 i = 1#1

theorem hcondA : ∀ t : Fin cfg1.N, condA (grid1.coords t) ↔ t.val % 16 = 0 :=
  (by decide +kernel : ∀ t : Fin grid1.N, condA (grid1.coords t) ↔ t.val % 16 = 0)
theorem hcondC : ∀ t : Fin cfg1.N, condC (grid1.coords t) ↔ t.val % 16 = 15 :=
  (by decide +kernel : ∀ t : Fin grid1.N, condC (grid1.coords t) ↔ t.val % 16 = 15)

/-- The result window is stored into, and written back, exactly at the last point of a grid row. -/
theorem idle2 : ∀ t : Fin cfg1.N, ¬condC (grid1.coords t) → cfg1.idle 2 (grid1.coords t) = true := by decide +kernel
theorem noFlush2 : ∀ t : Fin cfg1.N, ¬condC (grid1.coords t) → (cfg1.win 2).flush t = false := by decide +kernel
theorem live2 : ∀ t : Fin cfg1.N, condC (grid1.coords t) → cfg1.idle 2 (grid1.coords t) = false := by decide +kernel
theorem live0 : ∀ t : Fin cfg1.N, cfg1.idle 0 (grid1.coords t) = false := fun _ => rfl
theorem live1 : ∀ t : Fin cfg1.N, cfg1.idle 1 (grid1.coords t) = false := fun _ => rfl

/-! ## The body on any whole memrefs, case by case -/

theorem hz2 : (![0, 0] : Fin S4x512.rank → Nat) = fun _ => 0 := by
  funext a; match a with | ⟨0, _⟩ => rfl | ⟨1, _⟩ => rfl
theorem hz3 : (![0, 0, 0] : Fin S4x512x3.rank → Nat) = fun _ => 0 := by
  funext a; match a with | ⟨0, _⟩ => rfl | ⟨1, _⟩ => rfl | ⟨2, _⟩ => rfl

/-- A store of the whole scratch shape, last in a list of stores, covers every entry. -/
theorem cov2 (w : S4x512.Idx → Elt F .f32) (L : List (View.Piece (Elt F) S4x512 .f32)) (y : S4x512.Idx) :
    ∃ p ∈ ((⟨Rect.unit (s := S4x512) ![0, 0] S4x512.size inb_S4x512_S4x512_0_0, w⟩ : View.Piece (Elt F) S4x512 .f32) :: L), y ∈ p.1.set :=
  ⟨_, List.mem_cons_self, View.mem_set_unit_zero hz2 inb_S4x512_S4x512_0_0 y⟩

set_option maxHeartbeats 1000000 in
/-- First point of a grid row: the scratch, whatever it held, is reset to +∞ and then lowered by this point's minima;
    the result window is not touched. -/
theorem run_first (c : Dev nD) (E : Set ℕ) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole)
    (hcA : condA i) (hcC : ¬condC i) (x0 x1 : Vec F S4x512x3 .f32) (K : PUnit → sProp 𝕄) :
    iprop(owns (c : Thread nD τ) arg2 fullShare x0 ∗ owns (c : Thread nD τ) arg3 fullShare x1 ∗ (∃ d, owns (c : Thread nD τ) arg5 fullShare d)
        ∗ (iprop(owns (c : Thread nD τ) arg2 fullShare x0 ∗ owns (c : Thread nD τ) arg3 fullShare x1 ∗ owns (c : Thread nD τ) arg5 fullShare (k1_pay2 x0 x1 k1_pay1)) -∗ K ⟨⟩))
      ⊢ wp frame (wpE (defs₀ (F := F)) Variants.none c none) E (cc1__chamfer_half_kernel i arg2 harg2 arg3 harg3 arg4 harg4 arg5 harg5) K := by
  simp only [cc1__chamfer_half_kernel_eq_skeleton]; unfold cc1__chamfer_half_kernel_skel
  unfold owns
  iintro ⟨⟨%f0, %hf0, Hq⟩, ⟨%f1, %hf1, Hc⟩, ⟨%ds, %fs, -, HS⟩, Hk⟩
  obtain rfl := harg2.eq_unread hf0; obtain rfl := harg3.eq_unread hf1
  sl_exec (disch := first | exact hcA | exact hcC)
  sl_step
  iapply Hk
  isplitl [Hq]
  · iexists _; isplitr; · ipureintro; exact harg2.read_unread _
    iexact Hq
  isplitl [Hc]
  · iexists _; isplitr; · ipureintro; exact harg3.read_unread _
    iexact Hc
  iexists _; isplitr
  swap; · iexact HS
  ipureintro
  rw [View.read_writes_eq_canon _ _ _ (cov2 _ _),
    View.canon_cons_unit_zero (S := S4x512) hz2]
  sl_unfold_words
  simp only [View.readAt_eq_ld, harg2.read_unread, harg3.read_unread, View.ld_unit_zero (S := S4x512x3) hz3,
    View.readCov_unit_zero (S := S4x512) _ hz2]

set_option maxHeartbeats 1000000 in
/-- A middle point of a grid row: the scratch is lowered by this point's minima; the result window is not touched. -/
theorem run_mid (c : Dev nD) (E : Set ℕ) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole)
    (hcA : ¬condA i) (hcC : ¬condC i) (x0 x1 : Vec F S4x512x3 .f32) (xs : Vec F S4x512 .f32) (K : PUnit → sProp 𝕄) :
    iprop(owns (c : Thread nD τ) arg2 fullShare x0 ∗ owns (c : Thread nD τ) arg3 fullShare x1 ∗ owns (c : Thread nD τ) arg5 fullShare xs
        ∗ (iprop(owns (c : Thread nD τ) arg2 fullShare x0 ∗ owns (c : Thread nD τ) arg3 fullShare x1 ∗ owns (c : Thread nD τ) arg5 fullShare (k1_pay2 x0 x1 xs)) -∗ K ⟨⟩))
      ⊢ wp frame (wpE (defs₀ (F := F)) Variants.none c none) E (cc1__chamfer_half_kernel i arg2 harg2 arg3 harg3 arg4 harg4 arg5 harg5) K := by
  simp only [cc1__chamfer_half_kernel_eq_skeleton]; unfold cc1__chamfer_half_kernel_skel
  unfold owns
  iintro ⟨⟨%f0, %hf0, Hq⟩, ⟨%f1, %hf1, Hc⟩, ⟨%fs, %hfs, HS⟩, Hk⟩
  obtain rfl := harg2.eq_unread hf0; obtain rfl := harg3.eq_unread hf1; obtain rfl := harg5.eq_unread hfs
  sl_exec (disch := first | exact hcA | exact hcC)
  sl_step
  iapply Hk
  isplitl [Hq]
  · iexists _; isplitr; · ipureintro; exact harg2.read_unread _
    iexact Hq
  isplitl [Hc]
  · iexists _; isplitr; · ipureintro; exact harg3.read_unread _
    iexact Hc
  iexists _; isplitr
  swap; · iexact HS
  ipureintro
  rw [View.read_writes_eq_canon _ _ _ (cov2 _ _),
    View.canon_unit_zero (S := S4x512) hz2]
  simp only [View.readAt_eq_ld, harg2.read_unread, harg3.read_unread, harg5.read_unread, View.ld_unit_zero (S := S4x512x3) hz3,
    View.ld_unit_zero (S := S4x512) hz2]

set_option maxHeartbeats 1000000 in
/-- Last point of a grid row: the scratch is lowered by this point's minima and copied into the result window. -/
theorem run_last (c : Dev nD) (E : Set ℕ) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole)
    (hcA : ¬condA i) (hcC : condC i) (x0 x1 : Vec F S4x512x3 .f32) (xs : Vec F S4x512 .f32) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1 ∗ owns (c : Thread nD τ) arg4 fullShare (k1_pay2 x0 x1 xs) ∗ owns (c : Thread nD τ) arg5 fullShare (k1_pay2 x0 x1 xs)) -∗ K ⟨⟩))
      ⊢ wp frame (wpE (defs₀ (F := F)) Variants.none c none) E (cc1__chamfer_half_kernel i arg2 harg2 arg3 harg3 arg4 harg4 arg5 harg5) K := by
  simp only [cc1__chamfer_half_kernel_eq_skeleton]; unfold cc1__chamfer_half_kernel_skel
  unfold owns
  iintro ⟨⟨%f0, %hf0, Hq⟩, ⟨%f1, %hf1, Hc⟩, ⟨%dout, %fo, -, HO⟩, ⟨%fs, %hfs, HS⟩, Hk⟩
  obtain rfl := harg2.eq_unread hf0; obtain rfl := harg3.eq_unread hf1; obtain rfl := harg5.eq_unread hfs
  sl_exec (disch := first | exact hcA | exact hcC)
  sl_step
  iapply Hk
  isplitl [Hq]
  · iexists _; isplitr; · ipureintro; exact harg2.read_unread _
    iexact Hq
  isplitl [Hc]
  · iexists _; isplitr; · ipureintro; exact harg3.read_unread _
    iexact Hc
  isplitl [HO]
  · iexists _; isplitr
    swap; · iexact HO
    ipureintro
    sl_unfold_words
    rw [View.read_writes_eq_canon _ _ _ (cov2 _ _), View.canon_unit_zero (S := S4x512) hz2]
    simp only [View.readCov_unit_zero (S := S4x512) _ hz2, View.readAt_eq_ld, harg2.read_unread, harg3.read_unread, harg5.read_unread,
      View.ld_unit_zero (S := S4x512x3) hz3, View.ld_unit_zero (S := S4x512) hz2]
  iexists _; isplitr
  swap; · iexact HS
  ipureintro
  sl_unfold_words
  rw [View.read_writes_eq_canon _ _ _ (cov2 _ _), View.canon_unit_zero (S := S4x512) hz2]
  simp only [View.readAt_eq_ld, harg2.read_unread, harg3.read_unread, harg5.read_unread, View.ld_unit_zero (S := S4x512x3) hz3,
    View.ld_unit_zero (S := S4x512) hz2]

/-! ## The invariant between points -/

variable (V : (c : Dev nD) → (b : Ref sig .tc) → Buf (Elt F) ((c : Thread nD τ).loc b))

/-- The pass's scratch operand: a whole scoped buffer of its own. -/
abbrev scM : Memref sig .tc .vmem S4x512 .f32 := Memref.whole cc1_scratch0

/-- The core's other scoped buffers that this pass does not stage through (the other pass's), each at some contents. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- What the region hands the body before the first point: the scratch at anything, the other scoped buffers, the generator register. -/
theorem PhiA_eq (c : Dev nD) :
    (Pipeline.ΦA spec1 c : sProp 𝕄)
      = iprop((iprop(∃ d, owns (c : Thread nD τ) scM fullShare d) ∗ others c) ∗ (∃ r, prngReg c r)) := by
  unfold Pipeline.ΦA others
  rw [Pipeline.scopedRest_eq_of_list spec1 c [cc1_scratch0, cc0_stg0_0, cc0_stg0_1, cc0_stg1_0, cc0_stg1_1, cc0_stg2_0, cc0_stg2_1, cc0_scratch0] (by decide) (by decide)]
  simp only [scM, owns_whole]; try rfl

/-- The invariant before position `n`: before the first point the scratch holds anything; afterwards what the point
    before left in it (`accAt`). -/
def PhiS (c : Dev nD) : (n : ℕ) → n ≤ cfg1.N → sProp 𝕄
  | 0, _ => Pipeline.ΦA spec1 c
  | n + 1, hn => iprop((owns (c : Thread nD τ) scM fullShare (accAt V c n hn) ∗ others c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop((owns (c : Thread nD τ) scM fullShare (accAt V c n hn) ∗ others c) ∗ (∃ r, prngReg c r)) := rfl

theorem PhiS_pos (c : Dev nD) (n : ℕ) (h : n ≤ cfg1.N) (hz : n ≠ 0) :
    PhiS V c n h = iprop((owns (c : Thread nD τ) scM fullShare (accAt V c (n - 1) (by omega)) ∗ others c) ∗ (∃ r, prngReg c r)) := by
  cases n with
  | zero => exact absurd rfl hz
  | succ n => rfl

/-! ## The proof data -/

/-- The arrays as the pass finds them; after the body each input's buffer at its block and the result window's at the
    scratch's contents (what the last point of a grid row copies there; elsewhere the window is idle and the value is
    not consulted); the invariant above; nothing owed; full shares. -/
def dat1 (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => accAt V c t.val t.isLt
  Φ t := PhiS V c t.val (Nat.le_of_lt_succ t.isLt)
  q _ := fullShare
  owed _ := 0

theorem A_eq (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk V c 0 t := by dsimp only [dat1]
theorem after1_1 (c : Dev nD) (t : Fin cfg1.N) : (dat1 V c).after 1 t = iblk V c 1 t := by dsimp only [dat1]
theorem after1_2 (c : Dev nD) (t : Fin cfg1.N) : (dat1 V c).after 2 t = accAt V c t.val t.isLt := by dsimp only [dat1]

/-- An input window's current staging buffer holds its block at every point, fetched there or not: where it is not
    fetched its block index has not moved since the point before. -/
theorem before1_0 (c : Dev nD) (t : Fin cfg1.N) (d) : (dat1 V c).before 0 t d = iblk V c 0 t :=
  ((dat1 V c).before_in_eq_fetched 0 rfl (fun _ => rfl) (fun _ _ _ => rfl) (fun t => by rw [after1_0]; unfold Dat.blockOf iblk; rw [A_eq]; try rfl) t d).trans
    (by unfold Dat.fetched Dat.blockOf iblk; rw [A_eq]; try rfl)
theorem before1_1 (c : Dev nD) (t : Fin cfg1.N) (d) : (dat1 V c).before 1 t d = iblk V c 1 t :=
  ((dat1 V c).before_in_eq_fetched 1 rfl (fun _ => rfl) (fun _ _ _ => rfl) (fun t => by rw [after1_1]; unfold Dat.blockOf iblk; rw [A_eq]; try rfl) t d).trans
    (by unfold Dat.fetched Dat.blockOf iblk; rw [A_eq]; try rfl)

/-! ## The body obligation -/

def bodyPre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point. The position in the grid row says which case runs; the invariant hands the body the scratch
    at what the point before left (at anything before the first point) and takes it back at this point's contents; the
    result window is handed back untouched except at the last point of a row, where it receives the scratch. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (st1_0 t) fullShare ((dat1 V c).after 0 t) from by
    unfold Dat.leavesExact; rw [live0 t], after1_0]
  rw [show (dat1 V c).leavesExact 1 t = owns (c : Thread nD τ) (st1_1 t) fullShare ((dat1 V c).after 1 t) from by
    unfold Dat.leavesExact; rw [live1 t], after1_1]
  have hN : t.val < 256 := lt_of_lt_of_eq t.isLt (show cfg1.N = 256 from N_1)
  by_cases hA : t.val % 16 = 0
  · have hC : ¬t.val % 16 = 15 := by omega
    rw [Dat.leavesExact_idle (dat1 V c) 2 t (idle2 t (fun h => hC ((hcondC t).mp h))) (noFlush2 t (fun h => hC ((hcondC t).mp h)))]
    rw [accAt_first V c t hA]
    by_cases hz : t.val = 0
    · rw [PhiS_castSucc V c t, PhiS_zero V c _ _ hz, PhiA_eq]
      iintro ⟨⟨⟨HS, Hoth⟩, Hg⟩, Ho, ⟨%d0, Hq⟩, ⟨%d1, Hc⟩, Hr⟩
      iapply (run_first c Set.univ (grid1.coords t) _ _ _ _ _ _ _ _ ((hcondA t).mpr hA) (fun h => hC ((hcondC t).mp h)) (qblk V c t) (kblk V c t) _)
      isplitl [Hq]; · iexact Hq
      isplitl [Hc]; · iexact Hc
      isplitl [HS]; · iexact HS
      iintro ⟨Hq, Hc, HS⟩
      isplitl [HS Hoth Hg]
      · isplitl [HS Hoth]
        · isplitl [HS]; · iexact HS
          iexact Hoth
        iexact Hg
      isplitl [Ho]; · iexact Ho
      isplitl [Hq]; · iexact Hq
      isplitl [Hc]; · iexact Hc
      iexact Hr
    · rw [PhiS_castSucc V c t, PhiS_pos V c _ _ hz]
      iintro ⟨⟨⟨HS, Hoth⟩, Hg⟩, Ho, ⟨%d0, Hq⟩, ⟨%d1, Hc⟩, Hr⟩
      iapply (run_first c Set.univ (grid1.coords t) _ _ _ _ _ _ _ _ ((hcondA t).mpr hA) (fun h => hC ((hcondC t).mp h)) (qblk V c t) (kblk V c t) _)
      isplitl [Hq]; · iexact Hq
      isplitl [Hc]; · iexact Hc
      isplitl [HS]; · iexists _; iexact HS
      iintro ⟨Hq, Hc, HS⟩
      isplitl [HS Hoth Hg]
      · isplitl [HS Hoth]
        · isplitl [HS]; · iexact HS
          iexact Hoth
        iexact Hg
      isplitl [Ho]; · iexact Ho
      isplitl [Hq]; · iexact Hq
      isplitl [Hc]; · iexact Hc
      iexact Hr
  · have hz : t.val ≠ 0 := fun e => hA (by rw [e])
    rw [accAt_next V c t hA, PhiS_castSucc V c t, PhiS_pos V c _ _ hz]
    by_cases hC : t.val % 16 = 15
    · rw [show (dat1 V c).leavesExact 2 t = owns (c : Thread nD τ) (st1_2 t) fullShare ((dat1 V c).after 2 t) from by
        unfold Dat.leavesExact; rw [live2 t ((hcondC t).mpr hC)], after1_2, accAt_next V c t hA]
      iintro ⟨⟨⟨HS, Hoth⟩, Hg⟩, Ho, ⟨%d0, Hq⟩, ⟨%d1, Hc⟩, ⟨%d2, Hr⟩⟩
      iapply (run_last c Set.univ (grid1.coords t) _ _ _ _ _ _ _ _ (fun h => hA ((hcondA t).mp h)) ((hcondC t).mpr hC) (qblk V c t) (kblk V c t) _ _)
      isplitl [Hq]; · iexact Hq
      isplitl [Hc]; · iexact Hc
      isplitl [Hr]; · iexists _; iexact Hr
      isplitl [HS]; · iexact HS
      iintro ⟨Hq, Hc, Hr, HS⟩
      isplitl [HS Hoth Hg]
      · isplitl [HS Hoth]
        · isplitl [HS]; · iexact HS
          iexact Hoth
        iexact Hg
      isplitl [Ho]; · iexact Ho
      isplitl [Hq]; · iexact Hq
      isplitl [Hc]; · iexact Hc
      iexact Hr
    · rw [Dat.leavesExact_idle (dat1 V c) 2 t (idle2 t (fun h => hC ((hcondC t).mp h))) (noFlush2 t (fun h => hC ((hcondC t).mp h)))]
      iintro ⟨⟨⟨HS, Hoth⟩, Hg⟩, Ho, ⟨%d0, Hq⟩, ⟨%d1, Hc⟩, Hr⟩
      iapply (run_mid c Set.univ (grid1.coords t) _ _ _ _ _ _ _ _ (fun h => hA ((hcondA t).mp h)) (fun h => hC ((hcondC t).mp h)) (qblk V c t) (kblk V c t) _ _)
      isplitl [Hq]; · iexact Hq
      isplitl [Hc]; · iexact Hc
      isplitl [HS]; · iexact HS
      iintro ⟨Hq, Hc, HS⟩
      isplitl [HS Hoth Hg]
      · isplitl [HS Hoth]
        · isplitl [HS]; · iexact HS
          iexact Hoth
        iexact Hg
      isplitl [Ho]; · iexact Ho
      isplitl [Hq]; · iexact Hq
      isplitl [Hc]; · iexact Hc
      iexact Hr

/-- The library's body obligation, at every point. -/
theorem body_obligation (c : Dev nD) : BodyObligation (dat1 (F := F) V c) (defs₀ (F := F)) Variants.none () Set.univ := fun t => by
  rw [bigSep_W1, bigSep_W1]
  exact sound_body V c t

/-- What the region hands the body is the invariant before the first point. -/
theorem hin (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the region its own back: the scratch's contents are forgotten. -/
theorem hout (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 256 := N_1; omega), PhiA_eq]
  iintro ⟨⟨HS, Hoth⟩, Hg⟩
  isplitl [HS Hoth]
  · isplitl [HS]; · iexists _; iexact HS
    iexact Hoth
  iexact Hg

end Cert.KernelIdeal.H1

end
-- ==== Proof.KIRun.lean ====
/-
  The idealized program runs to its end, and every buffer it leaves is named.

  @main is the first nearest-distance pass, the second, and nine host operations that average the two result arrays and
  add the averages. Between two items the TensorCore holds every unscoped buffer at known contents: the launch memory,
  then the first result array rewritten to what the first pass's write-backs leave, then the second likewise, then what
  the host operations compute from those. Each pass is entered from these contents and left at the next; the launch
  is the library's for a list of items. Read at the two argument arrays the final contents are the launch contents (no
  item writes them): the frame. Read at the result they are the host operations' term of the two result arrays.
-/
import proofs.«132927_j28724741276335_2_alg».proof.Proof.KI0Frame
import proofs.«132927_j28724741276335_2_alg».proof.Proof.KI1Frame
import proofs.«132927_j28724741276335_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditional run, with every unscoped buffer named at the end -/

set_option backward.isDefEq.respectTransparency.types false in
/-- Given each pass as an item entered from and left at the contents `Gen.V0` … `Gen.V2` (over any contents `outs` the
    passes leave in their result arrays), every weakly fair execution of @main terminates and the final memory holds
    every unscoped buffer at `Gen.V3`: the last contents, after the host operations. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V0 m c) ∗ E 0 c) ⊢ R0.pre c)
    (hpost0 : ∀ c : Dev nD, R0.post c ⊢ iprop(StableHlo.held (c : Thread nD τ) (Pipeline.ucRefs τ sig) (V1 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V1 m outs c) ∗ E 1 c) ⊢ R1.pre c)
    (hpost1 : ∀ c : Dev nD, R1.post c ⊢ iprop(StableHlo.held (c : Thread nD τ) (Pipeline.ucRefs τ sig) (V2 m outs c) ∗ E 2 c)) :
    θ_run defs (onTc (τ := τ) (main (F := F))) ⟨m, fun _ => 0, ρ⟩ (fun r => ∀ c : Dev nD,
      ∀ b ∈ Pipeline.ucRefs τ sig, r.2.mem ((c : Thread nD τ).1, b) = V3 m outs c b) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          Prog.lift (.customCall (Pipeline.entry 0) ()),
          Prog.lift (.customCall (Pipeline.entry 1) ()),
          StableHlo.seq hostOps2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V3 m outs c))
    (hch := fun c => ⟨hpre0 c, (hpost0 c).trans (hpre1 c), hpost1 c, sep_mono .rfl (hE2 c)⟩)
    (hinit := ?_) (QY := fun c s => ∀ b ∈ Pipeline.ucRefs τ sig, s.mem ((c : Thread nD τ).1, b) = V3 m outs c b)
    (hfin := fun c s' => ?_) (hQ := fun _ h => h)
  · -- the launch: the unscoped buffers are held at the launch contents; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last contents
    unfold StableHlo.held
    iintro ⟨Hh, HSI⟩
    imodintro
    iapply (pointsTo_read_all (Pipeline.ucRefs τ sig) (fun b => ((c : Thread nD τ).1, b)) (V3 m outs c) s')
    isplitl [Hh] <;> iassumption

/-! ## The contents between the items -/

/-- The launch memory read at the TensorCore's references: what both passes' input arrays hold when a pass is entered
    (no item writes an argument). -/
abbrev Ve (c : Dev nD) (b : Ref sig .tc) : Buf (Elt F) ((c : Thread nD τ).loc b) := V0 m c b

/-- After the first pass: its arrays at what its write-backs leave, every other buffer as launched. -/
def W1 (c : Dev nD) : Valuation τ sig (Elt F) :=
  Pipeline.withArrays spec0 c (V0 m c) fun w => (H0.dat0 (Ve m) c).arrAt w cfg0.N
/-- After the second pass likewise, over the first's. -/
def W2 (c : Dev nD) : Valuation τ sig (Elt F) :=
  Pipeline.withArrays spec1 c (W1 m c) fun w => (H1.dat1 (Ve m) c).arrAt w cfg1.N

/-- What the two passes leave in their result arrays. -/
def outs : Outs (F := F) := fun j r c => match j with
  | 1 => W1 m c r
  | _ => W2 m c r

theorem outs1 (c : Dev nD) : outs m 1 main_v0 c = (H0.dat0 (Ve m) c).arrAt 2 cfg0.N := by
  show W1 m c (Proc.devRef .tc (Pipeline.arrRef spec0 2)) = _
  unfold W1; exact Pipeline.withArrays_arr spec0 launch0.win.arr_inj c _ _ 2
theorem outs2 (c : Dev nD) : outs m 2 main_v1 c = (H1.dat1 (Ve m) c).arrAt 2 cfg1.N := by
  show W2 m c (Proc.devRef .tc (Pipeline.arrRef spec1 2)) = _
  unfold W2; exact Pipeline.withArrays_arr spec1 launch1.win.arr_inj c _ _ 2

/-! ## The proof data family and the thread state -/

/-- Both passes' proof data, each at the launch contents of its input arrays — a literal `match`, so that the pinned
    configuration at a numeral reduces to the printed one. -/
def pdats : (p : Fin 2) → (c : Dev nD) → Dat τ (Elt F) Unit ℕ (UR sig nD τ) ℕ (Pipeline.pin (pcfgs (F := F)) adm p) c
  | ⟨0, _⟩ => fun c => H0.dat0 (Ve m) c
  | ⟨1, _⟩ => fun c => H1.dat1 (Ve m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)

/-! ## Each pass's arrays before and after it -/

/-- The first pass finds its three arrays at the launch contents. -/
theorem hA0 (c : Dev nD) : ∀ w, (pdats m 0 c).A w = V0 m c (Pipeline.arrRef spec0 w) := fun _ => rfl
/-- The second pass finds its three arrays at the launch contents too: the first pass changed only its own result array. -/
theorem hA1 (c : Dev nD) : ∀ w, (pdats m 1 c).A w = V1 m (outs m) c (Pipeline.arrRef spec1 w) := fun w =>
  match w with
  | ⟨0, _⟩ => (V1_of m (outs m) c main_arg1 (by decide)).symm
  | ⟨1, _⟩ => (V1_of m (outs m) c main_arg0 (by decide)).symm
  | ⟨2, _⟩ => (V1_of m (outs m) c main_v1 (by decide)).symm

/-- After the first pass its input arrays are as they were and its result array is what `outs` names. -/
theorem hF0 (c : Dev nD) : ∀ w, (pdats m 0 c).arrAt w cfg0.N = V1 m (outs m) c (Pipeline.arrRef spec0 w) := fun w =>
  match w with
  | ⟨0, _⟩ => ((H0.dat0 (Ve m) c).arrAt_in 0 rfl _).trans (V1_of m (outs m) c main_arg0 (by decide)).symm
  | ⟨1, _⟩ => ((H0.dat0 (Ve m) c).arrAt_in 1 rfl _).trans (V1_of m (outs m) c main_arg1 (by decide)).symm
  | ⟨2, _⟩ => by
    show (H0.dat0 (Ve m) c).arrAt 2 cfg0.N = Function.update (V0 m c) (Proc.devRef .tc main_v0) (outs m 1 main_v0 c) (Proc.devRef .tc main_v0)
    rw [Function.update_self]; exact (outs1 m c).symm
theorem hrest0 (c : Dev nD) : ∀ b, b ∉ Finset.univ.image (Pipeline.arrRef spec0) → V1 m (outs m) c b = V0 m c b := fun b hb =>
  V1_of m (outs m) c b (fun h => hb (by
    rw [List.mem_singleton] at h; subst h
    exact Finset.mem_image.mpr ⟨2, Finset.mem_univ _, rfl⟩))

/-- After the second pass likewise. -/
theorem hF1 (c : Dev nD) : ∀ w, (pdats m 1 c).arrAt w cfg1.N = V2 m (outs m) c (Pipeline.arrRef spec1 w) := fun w =>
  match w with
  | ⟨0, _⟩ => ((H1.dat1 (Ve m) c).arrAt_in 0 rfl _).trans ((V2_of m (outs m) c main_arg1 (by decide)).trans (V1_of m (outs m) c main_arg1 (by decide))).symm
  | ⟨1, _⟩ => ((H1.dat1 (Ve m) c).arrAt_in 1 rfl _).trans ((V2_of m (outs m) c main_arg0 (by decide)).trans (V1_of m (outs m) c main_arg0 (by decide))).symm
  | ⟨2, _⟩ => by
    show (H1.dat1 (Ve m) c).arrAt 2 cfg1.N = Function.update (V1 m (outs m) c) (Proc.devRef .tc main_v1) (outs m 2 main_v1 c) (Proc.devRef .tc main_v1)
    rw [Function.update_self]; exact (outs2 m c).symm
theorem hrest1 (c : Dev nD) : ∀ b, b ∉ Finset.univ.image (Pipeline.arrRef spec1) → V2 m (outs m) c b = V1 m (outs m) c b := fun b hb =>
  V2_of m (outs m) c b (fun h => hb (by
    rw [List.mem_singleton] at h; subst h
    exact Finset.mem_image.mpr ⟨2, Finset.mem_univ _, rfl⟩))

/-! ## The passes as items -/

set_option backward.isDefEq.respectTransparency.types false in
/-- Pass 0 as an item of @main: entered with every unscoped buffer at the contents before it, left with its result array
    rewritten and every other unscoped buffer as it was. Its three arrays are taken out of the unscoped buffers at entry
    and put back at exit; the generator register goes into the pass's invariant and comes back; nothing is owed. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (H0.body_obligation (Ve m) c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (V1 m (outs m) c) ∗ R c)
  X c := iprop(∃ r, prngReg c r)
  Y c := iprop(∃ r, prngReg c r)
  Z c := Pipeline.unscopedRest (Ix := Unit) (Name := ℕ) (U := UR sig nD τ) (Lvl := ℕ) spec0 c (fun b => V0 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V0 m c b) (hA0 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (H0.hin (Ve m) c)
    unfold Pipeline.ΦA
    iintro ⟨Hp, -, Hr⟩
    isplitl [Hr]; · iexact Hr
    iexact Hp
  hout c := by
    rw [Pipeline.ownSems0_none]
    refine BIBase.Entails.trans (H0.hout (Ve m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => V0 m c b) (fun b => V1 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass 1 as an item of @main: entered with every unscoped buffer at the contents before it, left with its result array
    rewritten and every other unscoped buffer as it was. Its three arrays are taken out of the unscoped buffers at entry
    and put back at exit; the generator register goes into the pass's invariant and comes back; nothing is owed. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (H1.body_obligation (Ve m) c).loose
  hwaits := Pipeline.hwaits_of_owed_zero _ _ _ _ L lv 1 fun _ _ => rfl
  pre c := iprop(StableHlo.held (c : Thread nD τ) (Pipeline.ucRefs τ sig) (V1 m (outs m) c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec1 c (fun b => V1 m (outs m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => V1 m (outs m) c b) (hA1 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (H1.hin (Ve m) c)
    unfold Pipeline.ΦA
    iintro ⟨Hp, -, Hr⟩
    isplitl [Hr]; · iexact Hr
    iexact Hp
  hout c := by
    rw [Pipeline.ownSems0_none]
    refine BIBase.Entails.trans (H1.hout (Ve m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => V1 m (outs m) c b) (fun b => V2 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- Every weakly fair execution of @main from memory `m` terminates, and the final memory holds every unscoped buffer at
    the last contents `Gen.V3 m (outs m)`. -/
theorem run_full : θ_run defs (onTc (τ := τ) (main (F := F))) ⟨m, fun _ => 0, ρ⟩ (fun r => ∀ c : Dev nD,
      ∀ b ∈ Pipeline.ucRefs τ sig, r.2.mem ((c : Thread nD τ).1, b) = V3 m (outs m) c b) :=
  run_cond m emb₁ () 𝒱₀ L lv (fun _ _ => rfl) ρ (outs m) (pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ => R)
    (hE0 := by
      refine Pipeline.initEach L lv fun c => ?_
      iintro ⟨⟨-, HO, -, Hp, -⟩, -⟩
      imodintro
      isplitl [Hp]; · iexists _; iexact Hp
      iexists ∅; iexact HO)
    (hE2 := fun c => by
      iintro ⟨-, HO⟩; iexact HO)
    (R0 := reg0 m) (hpre0 := fun _ => .rfl) (hpost0 := fun _ => .rfl)
    (R1 := reg1 m) (hpre1 := fun _ => .rfl) (hpost1 := fun _ => .rfl)

/-- An unscoped TensorCore reference is among those the last contents are read at. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: the program runs to its end and its two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (V3_main_arg0 m (outs m) c),
     (h c _ (mem_uc main_arg1 (by decide))).trans (V3_main_arg1 m (outs m) c)⟩) (run_full m ρ)

end Cert.KernelIdeal.Run

end
-- ==== Proof.Spec.lean ====
/-
  The mathematics both programs compute, stated once over the extended reals.

  For two points of ℝ³ given by their coordinates, the squared distance is taken in its expanded form
  |x|² + |y|² − 2·⟨x, y⟩ (the form both programs evaluate); `near x ys` is the least such value from `x` to a
  finite family of points `ys`, the infimum over the family with +∞ for the empty one. The expanded form is
  symmetric in its two points because addition and multiplication of extended reals commute; no cancellation or
  distributivity is used anywhere, so nothing here needs the points to be finite.
-/
import Idealize.ShloMosaic.PureOps.Ideal.Laws
import Idealize.ShloMosaic.Lib.ValueIdx

noncomputable section

open scoped BigOperators

namespace Cert.Chamfer

open Idealize.ShloMosaic

/-- The factor of the cross term: the f32 literal 2.0, which both programs spell with the same word. -/
abbrev two : EReal := Ideal.ofBits .f32 0x40000000#32

/-- |x|² + |y|² − 2·⟨x, y⟩ for two points given by their three coordinates. -/
def sqd (x y : Fin 3 → EReal) : EReal :=
  ((∑ d : Fin 3, x d * x d) + (∑ d : Fin 3, y d * y d)) - two * ∑ d : Fin 3, x d * y d

/-- The expanded squared distance does not depend on the order of its two points. -/
theorem sqd_comm (x y : Fin 3 → EReal) : sqd x y = sqd y x := by
  unfold sqd
  rw [add_comm (∑ d : Fin 3, x d * x d), Finset.sum_congr rfl fun d _ => mul_comm (x d) (y d)]

/-- The least expanded squared distance from `x` to a point of the family `ys`. -/
def near {M : ℕ} (x : Fin 3 → EReal) (ys : Fin M → Fin 3 → EReal) : EReal :=
  (Finset.univ : Finset (Fin M)).inf fun m => sqd x (ys m)

end Cert.Chamfer

end
-- ==== Proof.MinBlocks.lean ====
/-
  Minima over a range taken block by block.

  The least value of a function over 8192 = 16 · 512 places is the least, over the 16 blocks, of the least value
  inside each block; and a running minimum started at +∞ is the infimum over the places passed so far.
-/
import proofs.«132927_j28724741276335_2_alg».proof.Proof.Spec
import Mathlib.Order.Fin.Basic
import Mathlib.Data.Finset.Lattice.Fold
import Mathlib.Data.Finset.Range

noncomputable section

open scoped BigOperators

namespace Cert.Chamfer

/-- The nearest distance to 8192 points is the least, over the 16 blocks of 512 consecutive points, of the nearest
    distance to a block's points. -/
theorem near_blocks (x : Fin 3 → EReal) (ys : Fin 8192 → Fin 3 → EReal) :
    (Finset.range 16).inf (fun j => near x (fun s : Fin 512 => ys ⟨(512 * j + s.val) % 8192, Nat.mod_lt _ (by norm_num)⟩)) = near x ys := by
  unfold near
  apply le_antisymm
  · -- every place m is place m % 512 of block m / 512
    apply Finset.le_inf
    intro m _
    have hm : m.val < 8192 := m.isLt
    have hj : m.val / 512 ∈ Finset.range 16 := Finset.mem_range.mpr (by omega)
    refine (Finset.inf_le hj).trans ?_
    refine (Finset.inf_le (Finset.mem_univ (⟨m.val % 512, Nat.mod_lt _ (by norm_num)⟩ : Fin 512))).trans ?_
    have hidx : (⟨(512 * (m.val / 512) + m.val % 512) % 8192, Nat.mod_lt _ (by norm_num)⟩ : Fin 8192) = m := by
      apply Fin.ext
      show (512 * (m.val / 512) + m.val % 512) % 8192 = m.val
      omega
    exact le_of_eq (congrArg (fun i => sqd x (ys i)) hidx)
  · -- every place of every block is one of the 8192 places
    apply Finset.le_inf
    intro j _
    apply Finset.le_inf
    intro s _
    exact Finset.inf_le (Finset.mem_univ _)

/-- The infimum over the first `j + 1` places, one more place taken in. -/
theorem inf_range_succ (f : ℕ → EReal) (j : ℕ) :
    (Finset.range (j + 1 + 1)).inf f = min ((Finset.range (j + 1)).inf f) (f (j + 1)) := by
  rw [Finset.range_add_one (n := j + 1), Finset.inf_insert, inf_comm]

/-- Started from +∞ the running minimum after the first place is that place's value. -/
theorem inf_range_one (f : ℕ → EReal) : (Finset.range 1).inf f = min ⊤ (f 0) := by
  rw [Finset.range_one, Finset.inf_singleton, min_eq_right le_top]

end Cert.Chamfer

end
-- ==== Proof.Payload.lean ====
/-
  The body's arithmetic read at one entry, at the exact reals.

  At a grid point the body forms, for every batch b, every query point r of its first block and every candidate s
  of its second, the expanded squared distance of the two points, takes the least over s, and lowers the scratch
  entry (b, r) to it. Read at the extended reals this is `min` of the old entry and the nearest distance from the
  query point to the candidate block; the value the scratch is reset to is +∞.
-/
import proofs.«132927_j28724741276335_2_alg».proof.Proof.Spec
import proofs.«132927_j28724741276335_2_alg».proof.Proof.Gen.KernelIdeal.Skeleton
import Idealize.ShloMosaic.Lib.Pipeline.Value
import Idealize.ShloMosaic.Lib.ValueLayout

noncomputable section

open scoped BigOperators

namespace Cert.KernelIdeal.Payload

open Idealize.ShloMosaic Idealize.ShloMosaic.ValueIdx
open Cert.KernelIdeal Cert.KernelIdeal.Gen

/-! ## The two literals -/

/-- The f32 word 0x7F800000 is +∞. -/
theorem ofBits_inf_f32 : Ideal.ofBits .f32 0x7F800000#32 = ⊤ := by simp [Ideal.ofBits, Ideal.ieee]

/-- The reset value is +∞ at every entry. -/
theorem pay1_apply (i : S4x512.Idx) : k0_pay1 (F := Ideal) i = ⊤ := by
  unfold k0_pay1
  rw [shapeCast_self]
  exact ofBits_inf_f32

/-! ## The sum of squares of a point's coordinates -/

/-- The source index over (b, r) with coordinate d on the last axis is (b, r, d). -/
theorem lift3 (b : Fin 4) (r : Fin 512) (d : Fin 3) :
    reduces_S4x512x3_S4x512.lift (ix2 b r) d = ix3 b r d :=
  funext fun a => Fin.ext (by match a with | ⟨0, _⟩ => rfl | ⟨1, _⟩ => rfl | ⟨2, _⟩ => rfl)

/-- The sum over the last axis of the squares, at (b, r). -/
theorem sumsq_apply (x : Vec Ideal S4x512x3 .f32) (b : Fin 4) (r : Fin 512) :
    multiReduction (F := Ideal) .add [2] S4x512 (mulf x x) 0x00000000#32 reduces_S4x512x3_S4x512 (.inl rfl) rfl (ix2 b r)
      = ∑ d : Fin 3, x (ix3 b r d) * x (ix3 b r d) := by
  refine (Ideal.multiReduction_add_single (mulf x x) _ reduces_S4x512x3_S4x512 (.inl rfl) rfl (ix2 b r)).trans ?_
  exact Finset.sum_congr rfl fun (d : Fin 3) _ => congrArg (fun i => x i * x i) (lift3 b r d)

/-! ## The two keepdims casts and their broadcasts -/

/-- A [4,512] array cast to [4,512,1] reads, at (b, r, z), the operand at (b, r). -/
theorem cast_col_apply (x : Vec Ideal S4x512 .f32) (b : Fin 4) (r : Fin 512) (z : Fin 1) :
    shapeCast S4x512x1 x shapeCasts_S4x512_S4x512x1 (ix3 b r z) = x (ix2 b r) :=
  shapeCast_apply x shapeCasts_S4x512_S4x512x1 _ _ (by
    have hz : z.val = 0 := by omega
    rw [Shape.rowMajor_val_three, Shape.rowMajor_val_two]
    show b.val * 512 + r.val = (b.val * 512 + r.val) * 1 + z.val
    rw [hz, Nat.mul_one, Nat.add_zero])

/-- A [4,512] array cast to [4,1,512] reads, at (b, z, s), the operand at (b, s). -/
theorem cast_row_apply (x : Vec Ideal S4x512 .f32) (b : Fin 4) (z : Fin 1) (s : Fin 512) :
    shapeCast S4x1x512 x shapeCasts_S4x512_S4x1x512 (ix3 b z s) = x (ix2 b s) :=
  shapeCast_apply x shapeCasts_S4x512_S4x1x512 _ _ (by
    have hz : z.val = 0 := by omega
    rw [Shape.rowMajor_val_three, Shape.rowMajor_val_two]
    show b.val * 512 + s.val = (b.val * 1 + z.val) * 512 + s.val
    rw [hz, Nat.mul_one, Nat.add_zero])

/-- A [4,512,1] array broadcast to [4,512,512] reads, at (b, r, s), the operand at (b, r, 0). -/
theorem bcast_col_apply (x : Vec Ideal S4x512x1 .f32) (b : Fin 4) (r s : Fin 512) :
    broadcastTo S4x512x512 x broadcasts_S4x512x1_S4x512x512 (ix3 b r s) = x (ix3 b r (0 : Fin 1)) :=
  broadcastTo_apply x broadcasts_S4x512x1_S4x512x512 _ _ fun a => match a with
    | ⟨0, _⟩ => by show b.val = if (4 : Nat) = 1 then 0 else b.val; rw [if_neg (by decide)]
    | ⟨1, _⟩ => by show r.val = if (512 : Nat) = 1 then 0 else r.val; rw [if_neg (by decide)]
    | ⟨2, _⟩ => by show 0 = if (1 : Nat) = 1 then 0 else s.val; rw [if_pos rfl]

/-- A [4,1,512] array broadcast to [4,512,512] reads, at (b, r, s), the operand at (b, 0, s). -/
theorem bcast_row_apply (x : Vec Ideal S4x1x512 .f32) (b : Fin 4) (r s : Fin 512) :
    broadcastTo S4x512x512 x broadcasts_S4x1x512_S4x512x512 (ix3 b r s) = x (ix3 b (0 : Fin 1) s) :=
  broadcastTo_apply x broadcasts_S4x1x512_S4x512x512 _ _ fun a => match a with
    | ⟨0, _⟩ => by show b.val = if (4 : Nat) = 1 then 0 else b.val; rw [if_neg (by decide)]
    | ⟨1, _⟩ => by show 0 = if (1 : Nat) = 1 then 0 else r.val; rw [if_pos rfl]
    | ⟨2, _⟩ => by show s.val = if (512 : Nat) = 1 then 0 else s.val; rw [if_neg (by decide)]

/-! ## The batched product of the two blocks -/

/-- The left operand's index at output index i and contraction index c, axis by axis: batch, row, contraction. -/
theorem lhs_0 (i : S4x512x512.Idx) (c : dot_S4x512x3_S4x512x3_S4x512x512_2_2_1_1_0_0.contr.Idx) :
    (dot_S4x512x3_S4x512x3_S4x512x512_2_2_1_1_0_0.lhsIdx i c 0).val = (i 0).val := by
  unfold DotDims.lhsIdx
  rw [dif_pos (show (0 : Fin S4x512x3.rank) ∈ dot_S4x512x3_S4x512x3_S4x512x512_2_2_1_1_0_0.lhsBatch by decide)]
  rfl
theorem lhs_1 (i : S4x512x512.Idx) (c : dot_S4x512x3_S4x512x3_S4x512x512_2_2_1_1_0_0.contr.Idx) :
    (dot_S4x512x3_S4x512x3_S4x512x512_2_2_1_1_0_0.lhsIdx i c 1).val = (i 1).val := by
  unfold DotDims.lhsIdx
  rw [dif_neg (show ¬(1 : Fin S4x512x3.rank) ∈ dot_S4x512x3_S4x512x3_S4x512x512_2_2_1_1_0_0.lhsBatch by decide), dif_pos (show (1 : Fin S4x512x3.rank) ∈ dot_S4x512x3_S4x512x3_S4x512x512_2_2_1_1_0_0.lhsNonContracting by decide)]
  rfl
theorem lhs_2 (i : S4x512x512.Idx) (c : dot_S4x512x3_S4x512x3_S4x512x512_2_2_1_1_0_0.contr.Idx) :
    (dot_S4x512x3_S4x512x3_S4x512x512_2_2_1_1_0_0.lhsIdx i c 2).val = (c ⟨0, by decide⟩).val :=
  dot_S4x512x3_S4x512x3_S4x512x512_2_2_1_1_0_0.lhsIdx_val_of_single rfl i c
/-- The right operand's index likewise: batch, column, contraction. -/
theorem rhs_0 (i : S4x512x512.Idx) (c : dot_S4x512x3_S4x512x3_S4x512x512_2_2_1_1_0_0.contr.Idx) :
    (dot_S4x512x3_S4x512x3_S4x512x512_2_2_1_1_0_0.rhsIdx i c 0).val = (i 0).val := by
  unfold DotDims.rhsIdx
  rw [dif_pos (show (0 : Fin S4x512x3.rank) ∈ dot_S4x512x3_S4x512x3_S4x512x512_2_2_1_1_0_0.rhsBatch by decide)]
  rfl
theorem rhs_1 (i : S4x512x512.Idx) (c : dot_S4x512x3_S4x512x3_S4x512x512_2_2_1_1_0_0.contr.Idx) :
    (dot_S4x512x3_S4x512x3_S4x512x512_2_2_1_1_0_0.rhsIdx i c 1).val = (i 2).val := by
  unfold DotDims.rhsIdx
  rw [dif_neg (show ¬(1 : Fin S4x512x3.rank) ∈ dot_S4x512x3_S4x512x3_S4x512x512_2_2_1_1_0_0.rhsBatch by decide), dif_pos (show (1 : Fin S4x512x3.rank) ∈ dot_S4x512x3_S4x512x3_S4x512x512_2_2_1_1_0_0.rhsNonContracting by decide)]
  rfl
theorem rhs_2 (i : S4x512x512.Idx) (c : dot_S4x512x3_S4x512x3_S4x512x512_2_2_1_1_0_0.contr.Idx) :
    (dot_S4x512x3_S4x512x3_S4x512x512_2_2_1_1_0_0.rhsIdx i c 2).val = (c ⟨0, by decide⟩).val :=
  dot_S4x512x3_S4x512x3_S4x512x512_2_2_1_1_0_0.rhsIdx_val_of_single rfl i c

/-- The batched product into the zero block, at (b, r, s): the inner product of query point r and candidate s of batch b. -/
theorem dot_apply (q k : Vec Ideal S4x512x3 .f32) (b : Fin 4) (r s : Fin 512) :
    matmul (F := Ideal) (φ₁ := .f32) (φ₂ := .f32) dot_S4x512x3_S4x512x3_S4x512x512_2_2_1_1_0_0 (some .fp32) q k (constant S4x512x512 .f32 0x00000000#32) (ix3 b r s)
      = ∑ d : Fin 3, q (ix3 b r d) * k (ix3 b s d) := by
  simp only [matmul]
  rw [Ideal.matmul_constant_zero_apply, ← Equiv.sum_comp (ValueIdx.contrEquiv1 dot_S4x512x3_S4x512x3_S4x512x512_2_2_1_1_0_0 3 rfl rfl).symm]
  refine Finset.sum_congr rfl fun d _ => ?_
  have hd := ValueIdx.contrEquiv1_symm_val dot_S4x512x3_S4x512x3_S4x512x512_2_2_1_1_0_0 3 rfl rfl d
  have el : dot_S4x512x3_S4x512x3_S4x512x512_2_2_1_1_0_0.lhsIdx (ix3 b r s) ((ValueIdx.contrEquiv1 dot_S4x512x3_S4x512x3_S4x512x512_2_2_1_1_0_0 3 rfl rfl).symm d) = ix3 b r d := funext fun a => Fin.ext (by
    match a with
    | ⟨0, _⟩ => exact lhs_0 _ _
    | ⟨1, _⟩ => exact lhs_1 _ _
    | ⟨2, _⟩ => exact (lhs_2 _ _).trans hd)
  have er : dot_S4x512x3_S4x512x3_S4x512x512_2_2_1_1_0_0.rhsIdx (ix3 b r s) ((ValueIdx.contrEquiv1 dot_S4x512x3_S4x512x3_S4x512x512_2_2_1_1_0_0 3 rfl rfl).symm d) = ix3 b s d := funext fun a => Fin.ext (by
    match a with
    | ⟨0, _⟩ => exact rhs_0 _ _
    | ⟨1, _⟩ => exact rhs_1 _ _
    | ⟨2, _⟩ => exact (rhs_2 _ _).trans hd)
  rw [el, er]

/-! ## The least over the candidates -/

/-- The source index over (b, r) with coordinate s on the last axis is (b, r, s). -/
theorem lift512 (b : Fin 4) (r s : Fin 512) :
    reduces_S4x512x512_S4x512.lift (ix2 b r) s = ix3 b r s :=
  funext fun a => Fin.ext (by match a with | ⟨0, _⟩ => rfl | ⟨1, _⟩ => rfl | ⟨2, _⟩ => rfl)

/-- The least over the last axis from +∞, at (b, r): the infimum over the candidates. -/
theorem minred_apply (x : Vec Ideal S4x512x512 .f32) (b : Fin 4) (r : Fin 512) :
    multiReduction (F := Ideal) .minimumf [2] S4x512 x 0x7F800000#32 reduces_S4x512x512_S4x512 (.inl rfl) rfl (ix2 b r)
      = (Finset.univ : Finset (Fin 512)).inf fun s => x (ix3 b r s) := by
  refine (multiReduction_minimumf_eq_fold (F := Ideal) x _ reduces_S4x512x512_S4x512 (.inl rfl) rfl (ix2 b r)).trans ?_
  refine (reduces_S4x512x512_S4x512.fold_filter_drop_single _ _ x (ix2 b r)).trans ?_
  have hf : (x ∘ reduces_S4x512x512_S4x512.lift (ix2 b r)) = fun s : Fin 512 => x (ix3 b r s) :=
    funext fun s => congrArg x (lift512 b r s)
  have h0 : FloatOps.ofBits (F := Ideal) .f32 (FKind.minimumf.neutral .f32 (.inl rfl)) = (⊤ : EReal) := ofBits_inf_f32
  rw [hf, h0]
  rfl

/-! ## The update -/

/-- The update at entry (b, r): the old entry lowered to the nearest distance from query point r to the candidate block. -/
theorem pay2_apply (q k : Vec Ideal S4x512x3 .f32) (a : Vec Ideal S4x512 .f32) (b : Fin 4) (r : Fin 512) :
    k0_pay2 (F := Ideal) q k a (ix2 b r)
      = min (a (ix2 b r)) (Chamfer.near (fun d => q (ix3 b r d)) (fun (s : Fin 512) d => k (ix3 b s d))) := by
  unfold k0_pay2
  dsimp only
  rw [shapeCast_self]
  refine (minimumf_apply a _ (ix2 b r)).trans (congrArg (min (a (ix2 b r))) ?_)
  refine (minred_apply _ b r).trans ?_
  unfold Chamfer.near
  refine congrArg (Finset.univ.inf) (funext fun s => ?_)
  rw [subf_apply, addf_apply, mulf_apply, broadcast_apply, bcast_col_apply, bcast_row_apply, cast_col_apply, cast_row_apply,
    sumsq_apply, sumsq_apply, dot_apply]
  rfl

/-- The second pass runs the same arithmetic. -/
theorem pay1_eq {F : FTy → Type} [FloatOps F] : k1_pay1 (F := F) = k0_pay1 (F := F) := rfl
theorem pay2_eq {F : FTy → Type} [FloatOps F] : k1_pay2 (F := F) = k0_pay2 (F := F) := rfl

/-- The same two readings under each pass's own names for its arithmetic. -/
theorem pay1_apply_k0 (i : S4x512.Idx) : k0_pay1 (F := Ideal) i = ⊤ := pay1_apply i
theorem pay1_apply_k1 (i : S4x512.Idx) : k1_pay1 (F := Ideal) i = ⊤ := pay1_apply i
theorem pay2_apply_k0 (q k : Vec Ideal S4x512x3 .f32) (a : Vec Ideal S4x512 .f32) (b : Fin 4) (r : Fin 512) :
    k0_pay2 (F := Ideal) q k a (ix2 b r)
      = min (a (ix2 b r)) (Chamfer.near (fun d => q (ix3 b r d)) (fun (s : Fin 512) d => k (ix3 b s d))) := pay2_apply q k a b r
theorem pay2_apply_k1 (q k : Vec Ideal S4x512x3 .f32) (a : Vec Ideal S4x512 .f32) (b : Fin 4) (r : Fin 512) :
    k1_pay2 (F := Ideal) q k a (ix2 b r)
      = min (a (ix2 b r)) (Chamfer.near (fun d => q (ix3 b r d)) (fun (s : Fin 512) d => k (ix3 b s d))) := pay2_apply q k a b r

end Cert.KernelIdeal.Payload

end
-- ==== Proof.KI0Near.lean ====
/-
  What the first pass's scratch holds at the end of a grid row, at the exact reals.

  At point t = 16·a + j the block of query points is rows 512·a … 512·a + 511 of the first array and the block of
  candidates rows 512·j … 512·j + 511 of the second. By induction along the row of the grid the scratch entry
  (b, r) after point t is the least expanded squared distance from query point 512·a + r to the candidates of the
  blocks 0 … j; at j = 15 that is every point of the second array.
-/
import proofs.«132927_j28724741276335_2_alg».proof.Proof.Spec
import proofs.«132927_j28724741276335_2_alg».proof.Proof.MinBlocks
import proofs.«132927_j28724741276335_2_alg».proof.Proof.Payload
import proofs.«132927_j28724741276335_2_alg».proof.Proof.KI0Vals
import Idealize.ShloMosaic.Lib.Pipeline.Value

noncomputable section

open scoped BigOperators

namespace Cert.KernelIdeal.H0

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The arrays behind the first and the second window, as functions of an index. -/
abbrev qarr (c : Dev nD) : Vec Ideal S4x8192x3 .f32 := V c (Pipeline.arrRef spec0 0)
abbrev karr (c : Dev nD) : Vec Ideal S4x8192x3 .f32 := V c (Pipeline.arrRef spec0 1)

/-- The block indices of the two windows at point t, decided over the grid: the first window holds block t / 16
    of its array's middle axis, the second block t % 16, and both are whole along the other two axes. -/
theorem blk_index0 : ∀ t : Fin cfg0.N, win0_0.index t (0 : Fin 3) = 0 ∧ win0_0.index t (1 : Fin 3) = t.val / 16 ∧ win0_0.index t (2 : Fin 3) = 0
    ∧ win0_1.index t (0 : Fin 3) = 0 ∧ win0_1.index t (1 : Fin 3) = t.val % 16 ∧ win0_1.index t (2 : Fin 3) = 0 :=
  (by decide +kernel : ∀ t : Fin grid0.N, _)

/-- Entry (b, r, d) of the query block at point t is row 512·(t / 16) + r of the first array. -/
theorem qblk_apply (c : Dev nD) (t : Fin cfg0.N) (b : Fin 4) (r : Fin 512) (d : Fin 3) (n : Fin 8192)
    (hn : n.val = 512 * (t.val / 16) + r.val) :
    qblk V c t (ix3 b r d) = qarr V c (ix3 b n d) := by
  obtain ⟨e0, e1, e2, -, -, -⟩ := blk_index0 t
  show V c (Pipeline.arrRef spec0 0) (((cfg0.win 0).blk t).view.emb (ix3 b r d)) = V c (Pipeline.arrRef spec0 0) (ix3 b n d)
  refine congrArg (V c (Pipeline.arrRef spec0 0)) ?_
  -- the block's index embedded in the array: block index times block extent plus the offset, axis by axis
  funext a; apply Fin.ext
  match a with
  | ⟨0, _⟩ => show win0_0.index t (0 : Fin 3) * 4 + 1 * b.val = b.val; omega
  | ⟨1, _⟩ => show win0_0.index t (1 : Fin 3) * 512 + 1 * r.val = n.val; omega
  | ⟨2, _⟩ => show win0_0.index t (2 : Fin 3) * 3 + 1 * d.val = d.val; omega

/-- Entry (b, s, d) of the candidate block at point t is row 512·(t % 16) + s of the second array. -/
theorem kblk_apply (c : Dev nD) (t : Fin cfg0.N) (b : Fin 4) (s : Fin 512) (d : Fin 3) (m : Fin 8192)
    (hm : m.val = 512 * (t.val % 16) + s.val) :
    kblk V c t (ix3 b s d) = karr V c (ix3 b m d) := by
  obtain ⟨-, -, -, e0, e1, e2⟩ := blk_index0 t
  show V c (Pipeline.arrRef spec0 1) (((cfg0.win 1).blk t).view.emb (ix3 b s d)) = V c (Pipeline.arrRef spec0 1) (ix3 b m d)
  refine congrArg (V c (Pipeline.arrRef spec0 1)) ?_
  funext a; apply Fin.ext
  match a with
  | ⟨0, _⟩ => show win0_1.index t (0 : Fin 3) * 4 + 1 * b.val = b.val; omega
  | ⟨1, _⟩ => show win0_1.index t (1 : Fin 3) * 512 + 1 * s.val = m.val; omega
  | ⟨2, _⟩ => show win0_1.index t (2 : Fin 3) * 3 + 1 * d.val = d.val; omega

/-- The nearest distance from row n of the first array (batch b) to the 512 rows of block j of the second. -/
def nearBlk (c : Dev nD) (b : Fin 4) (n : Fin 8192) (j : ℕ) : EReal :=
  Chamfer.near (fun d => qarr V c (ix3 b n d))
    (fun (s : Fin 512) d => karr V c (ix3 b ⟨(512 * j + s.val) % 8192, Nat.mod_lt _ (by norm_num)⟩ d))

/-- The nearest distance inside the two blocks held at point t, read off the arrays. -/
theorem near_blk (c : Dev nD) (t : Fin cfg0.N) (b : Fin 4) (r : Fin 512) (n : Fin 8192)
    (hn : n.val = 512 * (t.val / 16) + r.val) :
    Chamfer.near (fun d => qblk V c t (ix3 b r d)) (fun (s : Fin 512) d => kblk V c t (ix3 b s d))
      = nearBlk V c b n (t.val % 16) := by
  have hq : (fun d => qblk V c t (ix3 b r d)) = (fun d => qarr V c (ix3 b n d)) :=
    funext fun d => qblk_apply V c t b r d n hn
  have hk : (fun (s : Fin 512) d => kblk V c t (ix3 b s d))
      = (fun (s : Fin 512) d => karr V c (ix3 b ⟨(512 * (t.val % 16) + s.val) % 8192, Nat.mod_lt _ (by norm_num)⟩ d)) :=
    funext fun s => funext fun d => kblk_apply V c t b s d _ (by
      show (512 * (t.val % 16) + s.val) % 8192 = 512 * (t.val % 16) + s.val
      have := s.isLt
      omega)
  exact congrArg₂ (Chamfer.near (M := 512)) hq hk

/-- The update at point t, at entry (b, r): the old entry lowered to the nearest distance to block t % 16. -/
theorem pay2_at (c : Dev nD) (t : Fin cfg0.N) (a : Vec Ideal S4x512 .f32) (b : Fin 4) (r : Fin 512) (n : Fin 8192)
    (hn : n.val = 512 * (t.val / 16) + r.val) :
    k0_pay2 (F := Ideal) (qblk V c t) (kblk V c t) a (ix2 b r) = min (a (ix2 b r)) (nearBlk V c b n (t.val % 16)) :=
  (Payload.pay2_apply_k0 (qblk V c t) (kblk V c t) a b r).trans
    (congrArg (min (a (ix2 b r))) (near_blk V c t b r n hn))

/-- Along a row of the grid the scratch entry (b, r) after point k is the least of the nearest distances to the
    blocks 0 … k % 16 of the second array. -/
theorem accAt_inv (c : Dev nD) (k : ℕ) : ∀ (hk : k < cfg0.N) (b : Fin 4) (r : Fin 512) (n : Fin 8192),
    n.val = 512 * (k / 16) + r.val →
    accAt V c k hk (ix2 b r) = (Finset.range (k % 16 + 1)).inf (nearBlk V c b n) := by
  induction k using Nat.strong_induction_on with
  | _ k ih =>
    intro hk b r n hn
    by_cases h : k % 16 = 0
    · -- the start of a row: the update of +∞
      calc accAt V c k hk (ix2 b r)
          = k0_pay2 (F := Ideal) (qblk V c ⟨k, hk⟩) (kblk V c ⟨k, hk⟩) (k0_pay1 (F := Ideal)) (ix2 b r) :=
            congrFun (accAt_first V c ⟨k, hk⟩ h) (ix2 b r)
        _ = min (k0_pay1 (F := Ideal) (ix2 b r)) (nearBlk V c b n (k % 16)) := pay2_at V c ⟨k, hk⟩ (k0_pay1 (F := Ideal)) b r n hn
        _ = min ⊤ (nearBlk V c b n 0) := congrArg₂ min (Payload.pay1_apply_k0 (ix2 b r)) (congrArg (nearBlk V c b n) h)
        _ = (Finset.range 1).inf (nearBlk V c b n) := (Chamfer.inf_range_one (nearBlk V c b n)).symm
        _ = (Finset.range (k % 16 + 1)).inf (nearBlk V c b n) := by rw [h]
    · -- inside a row: the update of what the point before left
      have hk' : k - 1 < cfg0.N := Nat.lt_of_le_of_lt (Nat.sub_le _ _) hk
      have e1 := ih (k - 1) (by omega) hk' b r n (by omega)
      have hj : (k - 1) % 16 + 1 = k % 16 := by omega
      calc accAt V c k hk (ix2 b r)
          = k0_pay2 (F := Ideal) (qblk V c ⟨k, hk⟩) (kblk V c ⟨k, hk⟩) (accAt V c (k - 1) hk') (ix2 b r) :=
            congrFun (accAt_next V c ⟨k, hk⟩ h) (ix2 b r)
        _ = min (accAt V c (k - 1) hk' (ix2 b r)) (nearBlk V c b n (k % 16)) :=
            pay2_at V c ⟨k, hk⟩ (accAt V c (k - 1) hk') b r n hn
        _ = min ((Finset.range ((k - 1) % 16 + 1)).inf (nearBlk V c b n)) (nearBlk V c b n ((k - 1) % 16 + 1)) :=
            congrArg₂ min e1 (congrArg (nearBlk V c b n) hj.symm)
        _ = (Finset.range ((k - 1) % 16 + 1 + 1)).inf (nearBlk V c b n) :=
            (Chamfer.inf_range_succ (nearBlk V c b n) ((k - 1) % 16)).symm
        _ = (Finset.range (k % 16 + 1)).inf (nearBlk V c b n) := by rw [hj]

/-- At the last point of a grid row the scratch entry (b, r) is the nearest distance from query point
    512·(t / 16) + r to all the points of the second array. -/
theorem accAt_last (c : Dev nD) (t : Fin cfg0.N) (h : t.val % 16 = 15) (b : Fin 4) (r : Fin 512) (n : Fin 8192)
    (hn : n.val = 512 * (t.val / 16) + r.val) :
    accAt V c t.val t.isLt (ix2 b r)
      = Chamfer.near (fun d => qarr V c (ix3 b n d)) (fun (m : Fin 8192) d => karr V c (ix3 b m d)) := by
  -- after the sixteenth point of the row the blocks 0 … 15 have all been passed: they are the whole array
  have e := accAt_inv V c t.val t.isLt b r n hn
  rw [h] at e
  exact e.trans (Chamfer.near_blocks (fun d => qarr V c (ix3 b n d)) (fun (m : Fin 8192) d => karr V c (ix3 b m d)))

end Cert.KernelIdeal.H0

end
-- ==== Proof.KI0Final.lean ====
/-
  The result array of the first pass, at the exact reals.

  The pass writes its result window back exactly at the last point of each grid row, t = 16·a + 15, into rows
  512·a … 512·a + 511 of the result array; what it writes there is the scratch, whose entry (b, r) is by then the
  nearest distance from row 512·a + r of the first array to all rows of the second. The sixteen blocks tile the result
  array, so it ends as one function of the two arrays: entry (b, n) is the nearest distance from row n of the first
  array, in batch b, to the rows of the second.
-/
import proofs.«132927_j28724741276335_2_alg».proof.Proof.KI0Frame
import proofs.«132927_j28724741276335_2_alg».proof.Proof.KI0Near

set_option maxRecDepth 16384

noncomputable section

open scoped BigOperators

namespace Cert.KernelIdeal.H0

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The nearest distance from row n of the first array, in batch b, to the rows of the second. -/
def nearAt (c : Dev nD) (b : Fin 4) (n : Fin 8192) : EReal :=
  Chamfer.near (fun d => qarr V c (ix3 b n d)) (fun (m : Fin 8192) d => karr V c (ix3 b m d))

/-- The same as an array over (batch, row). -/
def nearArr (c : Dev nD) : Vec Ideal S4x8192 .f32 :=
  fun i => nearAt V c ⟨(i 0).val, idx2_lt0 i⟩ ⟨(i 1).val, idx2_lt1 i⟩

theorem nearArr_apply (c : Dev nD) (b : Fin 4) (n : Fin 8192) : nearArr V c (ix2 b n) = nearAt V c b n := rfl

/-- The block indices of the result window at point t, decided over the grid: whole along the batch axis, block
    t / 16 along the rows. -/
theorem out_index0 : ∀ t : Fin cfg0.N, win0_2.index t (0 : Fin 2) = 0 ∧ win0_2.index t (1 : Fin 2) = t.val / 16 :=
  (by decide +kernel : ∀ t : Fin grid0.N, _)

/-- What the pass writes back at the last point of a grid row is the block of the nearest-distance array there. -/
theorem flushed_last (c : Dev nD) (t : Fin cfg0.N) (h : t.val % 16 = 15) :
    (dat0 (F := Ideal) V c).flushed 2 t = ((cfg0.win 2).blk t).view.read (Elt Ideal) (nearArr V c) := by
  show (cfg0.win 2).cut (grid0.coords t) ((dat0 (F := Ideal) V c).after 2 t) = _
  rw [after0_2]
  have hN : t.val < 256 := lt_of_lt_of_eq t.isLt (show cfg0.N = 256 from N_0)
  obtain ⟨e0, e1⟩ := out_index0 t
  funext y
  obtain ⟨b, r, rfl⟩ : ∃ (b : Fin 4) (r : Fin 512), y = ix2 b r := ⟨y 0, y 1, eq_ix2 y⟩
  have hr : r.val < 512 := r.isLt
  -- the scratch entry (b, r) at the end of row t / 16 of the grid is the nearest distance from row 512·(t / 16) + r
  show accAt V c t.val t.isLt (ix2 b r) = nearArr V c (((cfg0.win 2).blk t).view.emb (ix2 b r))
  refine (accAt_last V c t h b r ⟨512 * (t.val / 16) + r.val, by omega⟩ rfl).trans ?_
  refine (nearArr_apply V c b ⟨512 * (t.val / 16) + r.val, by omega⟩).symm.trans ?_
  refine congrArg (nearArr V c) ?_
  -- the block's index embedded in the array: block index times block extent plus the offset, axis by axis
  funext a; apply Fin.ext
  match a with
  | ⟨0, _⟩ => show b.val = win0_2.index t (0 : Fin 2) * 4 + 1 * b.val; omega
  | ⟨1, _⟩ => show 512 * (t.val / 16) + r.val = win0_2.index t (1 : Fin 2) * 512 + 1 * r.val; omega

/-- An index of the result array lies in the block of point t exactly when, on each axis, its coordinate lies in the
    block's range. -/
theorem mem_out_blk (t : Fin cfg0.N) (i : S4x8192.Idx) :
    i ∈ ((cfg0.win 2).blk t).view.set
      ↔ ∀ a : Fin 2, win0_2.index t a * S4x512.size a ≤ (i a).val ∧ (i a).val < win0_2.index t a * S4x512.size a + S4x512.size a := by
  show i ∈ ((View.whole main_v0).slice (win0_2.rect t)).set ↔ _
  rw [View.set_slice_whole, Rect.mem_set_unit]
  exact Iff.rfl

/-- Every index (b, n) of the result array lies in the block written back at the last point of grid row n / 512. -/
theorem out_cover (i : S4x8192.Idx) :
    ∃ t : Fin cfg0.N, (cfg0.win 2).flush t = true ∧ i ∈ ((cfg0.win 2).blk t).view.set := by
  have hi0 : (i 0).val < 4 := idx2_lt0 i
  have hi1 : (i 1).val < 8192 := idx2_lt1 i
  have hN : cfg0.N = 256 := N_0
  have ht : 16 * ((i 1).val / 512) + 15 < cfg0.N := by omega
  obtain ⟨e0, e1⟩ := out_index0 ⟨16 * ((i 1).val / 512) + 15, ht⟩
  have e1' : win0_2.index ⟨16 * ((i 1).val / 512) + 15, ht⟩ (1 : Fin 2) = (i 1).val / 512 := by
    rw [e1]; show (16 * ((i 1).val / 512) + 15) / 16 = (i 1).val / 512; omega
  refine ⟨⟨16 * ((i 1).val / 512) + 15, ht⟩, (flush0_2 _).mpr (by show (16 * ((i 1).val / 512) + 15) % 16 = 15; omega), ?_⟩
  rw [mem_out_blk]
  intro a
  match a with
  | ⟨0, _⟩ =>
    show win0_2.index ⟨16 * ((i 1).val / 512) + 15, ht⟩ (0 : Fin 2) * 4 ≤ (i 0).val
      ∧ (i 0).val < win0_2.index ⟨16 * ((i 1).val / 512) + 15, ht⟩ (0 : Fin 2) * 4 + 4
    omega
  | ⟨1, _⟩ =>
    show win0_2.index ⟨16 * ((i 1).val / 512) + 15, ht⟩ (1 : Fin 2) * 512 ≤ (i 1).val
      ∧ (i 1).val < win0_2.index ⟨16 * ((i 1).val / 512) + 15, ht⟩ (1 : Fin 2) * 512 + 512
    omega

/-- After the pass the result array is that array. -/
theorem arr_final (c : Dev nD) : (dat0 (F := Ideal) V c).arrAt 2 cfg0.N = nearArr V c :=
  (dat0 (F := Ideal) V c).arrAt_eq_of_cover 2 (nearArr V c)
    (fun t hf => flushed_last V c t ((flush0_2 t).mp hf)) out_cover

end Cert.KernelIdeal.H0

end
-- ==== Proof.KI1Near.lean ====
/-
  What the second pass's scratch holds at the end of a grid row, at the exact reals.

  At point t = 16·a + j the block of query points is rows 512·a … 512·a + 511 of the first array and the block of
  candidates rows 512·j … 512·j + 511 of the second. By induction along the row of the grid the scratch entry
  (b, r) after point t is the least expanded squared distance from query point 512·a + r to the candidates of the
  blocks 0 … j; at j = 15 that is every point of the second array.
-/
import proofs.«132927_j28724741276335_2_alg».proof.Proof.Spec
import proofs.«132927_j28724741276335_2_alg».proof.Proof.MinBlocks
import proofs.«132927_j28724741276335_2_alg».proof.Proof.Payload
import proofs.«132927_j28724741276335_2_alg».proof.Proof.KI1Vals
import Idealize.ShloMosaic.Lib.Pipeline.Value

noncomputable section

open scoped BigOperators

namespace Cert.KernelIdeal.H1

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The arrays behind the first and the second window, as functions of an index. -/
abbrev qarr (c : Dev nD) : Vec Ideal S4x8192x3 .f32 := V c (Pipeline.arrRef spec1 0)
abbrev karr (c : Dev nD) : Vec Ideal S4x8192x3 .f32 := V c (Pipeline.arrRef spec1 1)

/-- The block indices of the two windows at point t, decided over the grid: the first window holds block t / 16
    of its array's middle axis, the second block t % 16, and both are whole along the other two axes. -/
theorem blk_index1 : ∀ t : Fin cfg1.N, win1_0.index t (0 : Fin 3) = 0 ∧ win1_0.index t (1 : Fin 3) = t.val / 16 ∧ win1_0.index t (2 : Fin 3) = 0
    ∧ win1_1.index t (0 : Fin 3) = 0 ∧ win1_1.index t (1 : Fin 3) = t.val % 16 ∧ win1_1.index t (2 : Fin 3) = 0 :=
  (by decide +kernel : ∀ t : Fin grid1.N, _)

/-- Entry (b, r, d) of the query block at point t is row 512·(t / 16) + r of the first array. -/
theorem qblk_apply (c : Dev nD) (t : Fin cfg1.N) (b : Fin 4) (r : Fin 512) (d : Fin 3) (n : Fin 8192)
    (hn : n.val = 512 * (t.val / 16) + r.val) :
    qblk V c t (ix3 b r d) = qarr V c (ix3 b n d) := by
  obtain ⟨e0, e1, e2, -, -, -⟩ := blk_index1 t
  show V c (Pipeline.arrRef spec1 0) (((cfg1.win 0).blk t).view.emb (ix3 b r d)) = V c (Pipeline.arrRef spec1 0) (ix3 b n d)
  refine congrArg (V c (Pipeline.arrRef spec1 0)) ?_
  -- the block's index embedded in the array: block index times block extent plus the offset, axis by axis
  funext a; apply Fin.ext
  match a with
  | ⟨0, _⟩ => show win1_0.index t (0 : Fin 3) * 4 + 1 * b.val = b.val; omega
  | ⟨1, _⟩ => show win1_0.index t (1 : Fin 3) * 512 + 1 * r.val = n.val; omega
  | ⟨2, _⟩ => show win1_0.index t (2 : Fin 3) * 3 + 1 * d.val = d.val; omega

/-- Entry (b, s, d) of the candidate block at point t is row 512·(t % 16) + s of the second array. -/
theorem kblk_apply (c : Dev nD) (t : Fin cfg1.N) (b : Fin 4) (s : Fin 512) (d : Fin 3) (m : Fin 8192)
    (hm : m.val = 512 * (t.val % 16) + s.val) :
    kblk V c t (ix3 b s d) = karr V c (ix3 b m d) := by
  obtain ⟨-, -, -, e0, e1, e2⟩ := blk_index1 t
  show V c (Pipeline.arrRef spec1 1) (((cfg1.win 1).blk t).view.emb (ix3 b s d)) = V c (Pipeline.arrRef spec1 1) (ix3 b m d)
  refine congrArg (V c (Pipeline.arrRef spec1 1)) ?_
  funext a; apply Fin.ext
  match a with
  | ⟨0, _⟩ => show win1_1.index t (0 : Fin 3) * 4 + 1 * b.val = b.val; omega
  | ⟨1, _⟩ => show win1_1.index t (1 : Fin 3) * 512 + 1 * s.val = m.val; omega
  | ⟨2, _⟩ => show win1_1.index t (2 : Fin 3) * 3 + 1 * d.val = d.val; omega

/-- The nearest distance from row n of the first array (batch b) to the 512 rows of block j of the second. -/
def nearBlk (c : Dev nD) (b : Fin 4) (n : Fin 8192) (j : ℕ) : EReal :=
  Chamfer.near (fun d => qarr V c (ix3 b n d))
    (fun (s : Fin 512) d => karr V c (ix3 b ⟨(512 * j + s.val) % 8192, Nat.mod_lt _ (by norm_num)⟩ d))

/-- The nearest distance inside the two blocks held at point t, read off the arrays. -/
theorem near_blk (c : Dev nD) (t : Fin cfg1.N) (b : Fin 4) (r : Fin 512) (n : Fin 8192)
    (hn : n.val = 512 * (t.val / 16) + r.val) :
    Chamfer.near (fun d => qblk V c t (ix3 b r d)) (fun (s : Fin 512) d => kblk V c t (ix3 b s d))
      = nearBlk V c b n (t.val % 16) := by
  have hq : (fun d => qblk V c t (ix3 b r d)) = (fun d => qarr V c (ix3 b n d)) :=
    funext fun d => qblk_apply V c t b r d n hn
  have hk : (fun (s : Fin 512) d => kblk V c t (ix3 b s d))
      = (fun (s : Fin 512) d => karr V c (ix3 b ⟨(512 * (t.val % 16) + s.val) % 8192, Nat.mod_lt _ (by norm_num)⟩ d)) :=
    funext fun s => funext fun d => kblk_apply V c t b s d _ (by
      show (512 * (t.val % 16) + s.val) % 8192 = 512 * (t.val % 16) + s.val
      have := s.isLt
      omega)
  exact congrArg₂ (Chamfer.near (M := 512)) hq hk

/-- The update at point t, at entry (b, r): the old entry lowered to the nearest distance to block t % 16. -/
theorem pay2_at (c : Dev nD) (t : Fin cfg1.N) (a : Vec Ideal S4x512 .f32) (b : Fin 4) (r : Fin 512) (n : Fin 8192)
    (hn : n.val = 512 * (t.val / 16) + r.val) :
    k1_pay2 (F := Ideal) (qblk V c t) (kblk V c t) a (ix2 b r) = min (a (ix2 b r)) (nearBlk V c b n (t.val % 16)) :=
  (Payload.pay2_apply_k1 (qblk V c t) (kblk V c t) a b r).trans
    (congrArg (min (a (ix2 b r))) (near_blk V c t b r n hn))

/-- Along a row of the grid the scratch entry (b, r) after point k is the least of the nearest distances to the
    blocks 0 … k % 16 of the second array. -/
theorem accAt_inv (c : Dev nD) (k : ℕ) : ∀ (hk : k < cfg1.N) (b : Fin 4) (r : Fin 512) (n : Fin 8192),
    n.val = 512 * (k / 16) + r.val →
    accAt V c k hk (ix2 b r) = (Finset.range (k % 16 + 1)).inf (nearBlk V c b n) := by
  induction k using Nat.strong_induction_on with
  | _ k ih =>
    intro hk b r n hn
    by_cases h : k % 16 = 0
    · -- the start of a row: the update of +∞
      calc accAt V c k hk (ix2 b r)
          = k1_pay2 (F := Ideal) (qblk V c ⟨k, hk⟩) (kblk V c ⟨k, hk⟩) (k1_pay1 (F := Ideal)) (ix2 b r) :=
            congrFun (accAt_first V c ⟨k, hk⟩ h) (ix2 b r)
        _ = min (k1_pay1 (F := Ideal) (ix2 b r)) (nearBlk V c b n (k % 16)) := pay2_at V c ⟨k, hk⟩ (k1_pay1 (F := Ideal)) b r n hn
        _ = min ⊤ (nearBlk V c b n 0) := congrArg₂ min (Payload.pay1_apply_k1 (ix2 b r)) (congrArg (nearBlk V c b n) h)
        _ = (Finset.range 1).inf (nearBlk V c b n) := (Chamfer.inf_range_one (nearBlk V c b n)).symm
        _ = (Finset.range (k % 16 + 1)).inf (nearBlk V c b n) := by rw [h]
    · -- inside a row: the update of what the point before left
      have hk' : k - 1 < cfg1.N := Nat.lt_of_le_of_lt (Nat.sub_le _ _) hk
      have e1 := ih (k - 1) (by omega) hk' b r n (by omega)
      have hj : (k - 1) % 16 + 1 = k % 16 := by omega
      calc accAt V c k hk (ix2 b r)
          = k1_pay2 (F := Ideal) (qblk V c ⟨k, hk⟩) (kblk V c ⟨k, hk⟩) (accAt V c (k - 1) hk') (ix2 b r) :=
            congrFun (accAt_next V c ⟨k, hk⟩ h) (ix2 b r)
        _ = min (accAt V c (k - 1) hk' (ix2 b r)) (nearBlk V c b n (k % 16)) :=
            pay2_at V c ⟨k, hk⟩ (accAt V c (k - 1) hk') b r n hn
        _ = min ((Finset.range ((k - 1) % 16 + 1)).inf (nearBlk V c b n)) (nearBlk V c b n ((k - 1) % 16 + 1)) :=
            congrArg₂ min e1 (congrArg (nearBlk V c b n) hj.symm)
        _ = (Finset.range ((k - 1) % 16 + 1 + 1)).inf (nearBlk V c b n) :=
            (Chamfer.inf_range_succ (nearBlk V c b n) ((k - 1) % 16)).symm
        _ = (Finset.range (k % 16 + 1)).inf (nearBlk V c b n) := by rw [hj]

/-- At the last point of a grid row the scratch entry (b, r) is the nearest distance from query point
    512·(t / 16) + r to all the points of the second array. -/
theorem accAt_last (c : Dev nD) (t : Fin cfg1.N) (h : t.val % 16 = 15) (b : Fin 4) (r : Fin 512) (n : Fin 8192)
    (hn : n.val = 512 * (t.val / 16) + r.val) :
    accAt V c t.val t.isLt (ix2 b r)
      = Chamfer.near (fun d => qarr V c (ix3 b n d)) (fun (m : Fin 8192) d => karr V c (ix3 b m d)) := by
  -- after the sixteenth point of the row the blocks 0 … 15 have all been passed: they are the whole array
  have e := accAt_inv V c t.val t.isLt b r n hn
  rw [h] at e
  exact e.trans (Chamfer.near_blocks (fun d => qarr V c (ix3 b n d)) (fun (m : Fin 8192) d => karr V c (ix3 b m d)))

end Cert.KernelIdeal.H1

end
-- ==== Proof.KI1Final.lean ====
/-
  The result array of the second pass, at the exact reals.

  The pass writes its result window back exactly at the last point of each grid row, t = 16·a + 15, into rows
  512·a … 512·a + 511 of the result array; what it writes there is the scratch, whose entry (b, r) is by then the
  nearest distance from row 512·a + r of the first array to all rows of the second. The sixteen blocks tile the result
  array, so it ends as one function of the two arrays: entry (b, n) is the nearest distance from row n of the first
  array, in batch b, to the rows of the second.
-/
import proofs.«132927_j28724741276335_2_alg».proof.Proof.KI1Frame
import proofs.«132927_j28724741276335_2_alg».proof.Proof.KI1Near

set_option maxRecDepth 16384

noncomputable section

open scoped BigOperators

namespace Cert.KernelIdeal.H1

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The nearest distance from row n of the first array, in batch b, to the rows of the second. -/
def nearAt (c : Dev nD) (b : Fin 4) (n : Fin 8192) : EReal :=
  Chamfer.near (fun d => qarr V c (ix3 b n d)) (fun (m : Fin 8192) d => karr V c (ix3 b m d))

/-- The same as an array over (batch, row). -/
def nearArr (c : Dev nD) : Vec Ideal S4x8192 .f32 :=
  fun i => nearAt V c ⟨(i 0).val, idx2_lt0 i⟩ ⟨(i 1).val, idx2_lt1 i⟩

theorem nearArr_apply (c : Dev nD) (b : Fin 4) (n : Fin 8192) : nearArr V c (ix2 b n) = nearAt V c b n := rfl

/-- The block indices of the result window at point t, decided over the grid: whole along the batch axis, block
    t / 16 along the rows. -/
theorem out_index1 : ∀ t : Fin cfg1.N, win1_2.index t (0 : Fin 2) = 0 ∧ win1_2.index t (1 : Fin 2) = t.val / 16 :=
  (by decide +kernel : ∀ t : Fin grid1.N, _)

/-- What the pass writes back at the last point of a grid row is the block of the nearest-distance array there. -/
theorem flushed_last (c : Dev nD) (t : Fin cfg1.N) (h : t.val % 16 = 15) :
    (dat1 (F := Ideal) V c).flushed 2 t = ((cfg1.win 2).blk t).view.read (Elt Ideal) (nearArr V c) := by
  show (cfg1.win 2).cut (grid1.coords t) ((dat1 (F := Ideal) V c).after 2 t) = _
  rw [after1_2]
  have hN : t.val < 256 := lt_of_lt_of_eq t.isLt (show cfg1.N = 256 from N_1)
  obtain ⟨e0, e1⟩ := out_index1 t
  funext y
  obtain ⟨b, r, rfl⟩ : ∃ (b : Fin 4) (r : Fin 512), y = ix2 b r := ⟨y 0, y 1, eq_ix2 y⟩
  have hr : r.val < 512 := r.isLt
  -- the scratch entry (b, r) at the end of row t / 16 of the grid is the nearest distance from row 512·(t / 16) + r
  show accAt V c t.val t.isLt (ix2 b r) = nearArr V c (((cfg1.win 2).blk t).view.emb (ix2 b r))
  refine (accAt_last V c t h b r ⟨512 * (t.val / 16) + r.val, by omega⟩ rfl).trans ?_
  refine (nearArr_apply V c b ⟨512 * (t.val / 16) + r.val, by omega⟩).symm.trans ?_
  refine congrArg (nearArr V c) ?_
  -- the block's index embedded in the array: block index times block extent plus the offset, axis by axis
  funext a; apply Fin.ext
  match a with
  | ⟨0, _⟩ => show b.val = win1_2.index t (0 : Fin 2) * 4 + 1 * b.val; omega
  | ⟨1, _⟩ => show 512 * (t.val / 16) + r.val = win1_2.index t (1 : Fin 2) * 512 + 1 * r.val; omega

/-- An index of the result array lies in the block of point t exactly when, on each axis, its coordinate lies in the
    block's range. -/
theorem mem_out_blk (t : Fin cfg1.N) (i : S4x8192.Idx) :
    i ∈ ((cfg1.win 2).blk t).view.set
      ↔ ∀ a : Fin 2, win1_2.index t a * S4x512.size a ≤ (i a).val ∧ (i a).val < win1_2.index t a * S4x512.size a + S4x512.size a := by
  show i ∈ ((View.whole main_v0).slice (win1_2.rect t)).set ↔ _
  rw [View.set_slice_whole, Rect.mem_set_unit]
  exact Iff.rfl

/-- Every index (b, n) of the result array lies in the block written back at the last point of grid row n / 512. -/
theorem out_cover (i : S4x8192.Idx) :
    ∃ t : Fin cfg1.N, (cfg1.win 2).flush t = true ∧ i ∈ ((cfg1.win 2).blk t).view.set := by
  have hi0 : (i 0).val < 4 := idx2_lt0 i
  have hi1 : (i 1).val < 8192 := idx2_lt1 i
  have hN : cfg1.N = 256 := N_1
  have ht : 16 * ((i 1).val / 512) + 15 < cfg1.N := by omega
  obtain ⟨e0, e1⟩ := out_index1 ⟨16 * ((i 1).val / 512) + 15, ht⟩
  have e1' : win1_2.index ⟨16 * ((i 1).val / 512) + 15, ht⟩ (1 : Fin 2) = (i 1).val / 512 := by
    rw [e1]; show (16 * ((i 1).val / 512) + 15) / 16 = (i 1).val / 512; omega
  refine ⟨⟨16 * ((i 1).val / 512) + 15, ht⟩, (flush1_2 _).mpr (by show (16 * ((i 1).val / 512) + 15) % 16 = 15; omega), ?_⟩
  rw [mem_out_blk]
  intro a
  match a with
  | ⟨0, _⟩ =>
    show win1_2.index ⟨16 * ((i 1).val / 512) + 15, ht⟩ (0 : Fin 2) * 4 ≤ (i 0).val
      ∧ (i 0).val < win1_2.index ⟨16 * ((i 1).val / 512) + 15, ht⟩ (0 : Fin 2) * 4 + 4
    omega
  | ⟨1, _⟩ =>
    show win1_2.index ⟨16 * ((i 1).val / 512) + 15, ht⟩ (1 : Fin 2) * 512 ≤ (i 1).val
      ∧ (i 1).val < win1_2.index ⟨16 * ((i 1).val / 512) + 15, ht⟩ (1 : Fin 2) * 512 + 512
    omega

/-- After the pass the result array is that array. -/
theorem arr_final (c : Dev nD) : (dat1 (F := Ideal) V c).arrAt 2 cfg1.N = nearArr V c :=
  (dat1 (F := Ideal) V c).arrAt_eq_of_cover 2 (nearArr V c)
    (fun t hf => flushed_last V c t ((flush1_2 t).mp hf)) out_cover

end Cert.KernelIdeal.H1

end
-- ==== Proof.RefNear.lean ====
/-
  The reference's two minima read at one entry, at the exact reals.

  The reference forms the full table of expanded squared distances between the points of its two arrays, batch by
  batch, and takes its minima along one axis and along the other: entry (b, n) of the first is the nearest distance
  from point n of the first array to the points of the second, entry (b, m) of the second the nearest distance from
  point m of the second array to the points of the first.

  Entry (b, n, m) of the table is |x₀(b,n)|² + |x₁(b,m)|² − 2·⟨x₀(b,n), x₁(b,m)⟩: the two squared norms are sums over
  the three coordinates started from 0, spread along the other array's axis, and the inner product is the contraction
  over the three coordinates. A minimum over one axis of the table, started from +∞, is the infimum over that axis's
  coordinates of the entries; along the last axis the fixed point is the first array's, along the middle axis the
  second array's, and there the symmetry of the expanded form puts the fixed point first.
-/
import proofs.«132927_j28724741276335_2_alg».proof.Proof.Spec
import proofs.«132927_j28724741276335_2_alg».proof.Proof.Gen.ReferenceIdeal.Read

noncomputable section

open scoped BigOperators

namespace Cert.ReferenceIdeal.Near

open Idealize.ShloMosaic Idealize.ShloMosaic.ValueIdx
open Cert.ReferenceIdeal Cert.ReferenceIdeal.Gen

/-- Entry (b, n, m) of the table of distances is the expanded squared distance between point n of the first array and
    point m of the second, both of batch b. -/
theorem v12_apply (x0 x1 : (⟨S4x8192x3, .f32⟩ : BufTy).Contents (Elt Ideal)) (b : Fin 4) (n m : Fin 8192) :
    Read.val_main_v12 (F := Ideal) x0 x1 (ix3 b n m)
      = Chamfer.sqd (fun d => x0 (ix3 b n d)) (fun d => x1 (ix3 b m d)) := by
  rw [Read.val_main_v12_apply, Read.val_main_v9_apply, Read.val_main_v11_apply, Read.val_main_v7_apply,
    Read.val_main_v8_apply, Read.val_main_v5_apply, Read.val_main_v6_apply, Read.val_main_v1_apply,
    Read.val_main_v3_apply, Read.val_main_v10_apply, Read.val_main_v4_apply, Read.val_main_cst_apply,
    Read.val_main_cst_0_apply, Read.val_main_cst_1_apply]
  simp only [Ideal.mulf_def, Ideal.addf_def, Ideal.subf_def, Read.val_main_v0_apply, Read.val_main_v2_apply]
  -- the squared norm of the first array's point is read at (b, n, ·), that of the second's at (b, m, ·),
  -- and so are the two factors of the inner product
  have h1 : ∀ k : Fin 3, Read.idx_main_v1 (Read.idx_main_v5 (Read.idx_main_v7 (ix3 b n m))) k = ix3 b n k :=
    fun k => funext fun a => Fin.ext (by match a with | ⟨0, _⟩ => rfl | ⟨1, _⟩ => rfl | ⟨2, _⟩ => rfl)
  have h3 : ∀ k : Fin 3, Read.idx_main_v3 (Read.idx_main_v6 (Read.idx_main_v8 (ix3 b n m))) k = ix3 b m k :=
    fun k => funext fun a => Fin.ext (by match a with | ⟨0, _⟩ => rfl | ⟨1, _⟩ => rfl | ⟨2, _⟩ => rfl)
  have hl : ∀ k : Fin 3, Read.lidx_main_v4 (ix3 b n m) k = ix3 b n k :=
    fun k => funext fun a => Fin.ext (by match a with | ⟨0, _⟩ => rfl | ⟨1, _⟩ => rfl | ⟨2, _⟩ => rfl)
  have hr : ∀ k : Fin 3, Read.ridx_main_v4 (ix3 b n m) k = ix3 b m k :=
    fun k => funext fun a => Fin.ext (by match a with | ⟨0, _⟩ => rfl | ⟨1, _⟩ => rfl | ⟨2, _⟩ => rfl)
  simp only [h1, h3, hl, hr]
  -- both sums start from the f32 zero, the extended real 0
  show Ideal.ofBits .f32 0x00000000#32 + _ + (Ideal.ofBits .f32 0x00000000#32 + _) - _ = _
  rw [Ideal.ofBits_zero_f32, zero_add, zero_add]
  rfl

/-- The reduced index (b, n) with k put back on the last axis is (b, n, k). -/
private theorem lift_d2 (h : S4x8192x8192.Reduces [2] S4x8192) (b : Fin 4) (n : Fin 8192) (k : Fin (S4x8192x8192.size 2)) :
    h.lift (ix2 b n) k = ix3 b n (⟨k.val, k.isLt⟩ : Fin 8192) :=
  funext fun c => Fin.ext (by match c with | ⟨0, _⟩ => rfl | ⟨1, _⟩ => rfl | ⟨2, _⟩ => rfl)

/-- The reduced index (b, m) with k put back on the middle axis is (b, k, m). -/
private theorem lift_d1 (h : S4x8192x8192.Reduces [1] S4x8192) (b : Fin 4) (m : Fin 8192) (k : Fin (S4x8192x8192.size 1)) :
    h.lift (ix2 b m) k = ix3 b (⟨k.val, k.isLt⟩ : Fin 8192) m :=
  funext fun c => Fin.ext (by match c with | ⟨0, _⟩ => rfl | ⟨1, _⟩ => rfl | ⟨2, _⟩ => rfl)

/-- The f32 word of +∞ is the top of the extended reals. -/
private theorem ofBits_inf : Ideal.ofBits .f32 0x7F800000#32 = (⊤ : EReal) := by simp [Ideal.ofBits, Ideal.ieee]

/-- Minimum along the last axis: from a point of the first array to the points of the second. -/
theorem v13_apply (x0 x1 : (⟨S4x8192x3, .f32⟩ : BufTy).Contents (Elt Ideal)) (b : Fin 4) (n : Fin 8192) :
    Read.val_main_v13 (F := Ideal) x0 x1 (ix2 b n)
      = Chamfer.near (fun d => x0 (ix3 b n d)) (fun (m : Fin 8192) d => x1 (ix3 b m d)) := by
  have hy := v12_apply x0 x1
  unfold Read.val_main_v13
  generalize Read.val_main_v12 (F := Ideal) x0 x1 = y at hy ⊢
  have hR : S4x8192x8192.Reduces [2] S4x8192 := by decide
  -- the minimum is commutative and associative: the reduction at (b, n) is the fold of min from +∞ over m
  have e := Host.reduce_eq_fold_single (α := Ideal .f32) (s := S4x8192x8192) (t := S4x8192) (u := S_) (a := (2 : Fin 3))
    (FloatOps.minimumf (F := Ideal) (φ := .f32)) y (Read.val_main_cst_2 (F := Ideal)) reducesTo_S4x8192x8192_S4x8192_d2 hR h_S_ (ix2 b n)
  refine e.trans ?_
  have hf : (y ∘ hR.lift (ix2 b n))
      = fun m : Fin 8192 => Chamfer.sqd (fun d => x0 (ix3 b n d)) (fun d => x1 (ix3 b m d)) :=
    funext fun k => (congrArg y (lift_d2 hR b n k)).trans (hy b n _)
  show Finset.fold min (Ideal.ofBits .f32 0x7F800000#32) (y ∘ hR.lift (ix2 b n)) (Finset.univ : Finset (Fin 8192)) = _
  rw [hf, ofBits_inf]
  -- the infimum of a finite family is by definition the fold of ⊓ from ⊤, and ⊓ is min
  rfl

/-- Minimum along the middle axis: from a point of the second array to the points of the first. -/
theorem v14_apply (x0 x1 : (⟨S4x8192x3, .f32⟩ : BufTy).Contents (Elt Ideal)) (b : Fin 4) (m : Fin 8192) :
    Read.val_main_v14 (F := Ideal) x0 x1 (ix2 b m)
      = Chamfer.near (fun d => x1 (ix3 b m d)) (fun (n : Fin 8192) d => x0 (ix3 b n d)) := by
  have hy := v12_apply x0 x1
  unfold Read.val_main_v14
  generalize Read.val_main_v12 (F := Ideal) x0 x1 = y at hy ⊢
  have hR : S4x8192x8192.Reduces [1] S4x8192 := by decide
  -- the reduction at (b, m) is the fold of min from +∞ over n of the entries (b, n, m)
  have e := Host.reduce_eq_fold_single (α := Ideal .f32) (s := S4x8192x8192) (t := S4x8192) (u := S_) (a := (1 : Fin 3))
    (FloatOps.minimumf (F := Ideal) (φ := .f32)) y (Read.val_main_cst_3 (F := Ideal)) reducesTo_S4x8192x8192_S4x8192_d1 hR h_S_ (ix2 b m)
  refine e.trans ?_
  -- entry (b, n, m) is the distance from point n of the first array to point m of the second: by symmetry also the
  -- distance from point m of the second to point n of the first
  have hf : (y ∘ hR.lift (ix2 b m))
      = fun n : Fin 8192 => Chamfer.sqd (fun d => x1 (ix3 b m d)) (fun d => x0 (ix3 b n d)) :=
    funext fun k => ((congrArg y (lift_d1 hR b m k)).trans (hy b _ m)).trans (Chamfer.sqd_comm _ _)
  show Finset.fold min (Ideal.ofBits .f32 0x7F800000#32) (y ∘ hR.lift (ix2 b m)) (Finset.univ : Finset (Fin 8192)) = _
  rw [hf, ofBits_inf]
  rfl

end Cert.ReferenceIdeal.Near

end
-- ==== Proof.KIValue.lean ====
/-
  The idealized program's result is the reference's, at the exact reals.

  After the two passes the first result array holds, at (b, n), the nearest distance from row n of the first argument to
  the rows of the second, and the second result array, at (b, m), the nearest distance from row m of the second argument
  to the rows of the first: these are the reference's two minima of its table of distances, along its last and along its
  middle axis. The host operations that follow — sum each array, divide by 32768, add — are the reference's last
  operations word for word, so the two programs' results are one term of the arguments.
-/
import proofs.«132927_j28724741276335_2_alg».proof.Proof.KIRun
import proofs.«132927_j28724741276335_2_alg».proof.Proof.KI0Final
import proofs.«132927_j28724741276335_2_alg».proof.Proof.KI1Final
import proofs.«132927_j28724741276335_2_alg».proof.Proof.RefNear

set_option maxRecDepth 16384

noncomputable section

namespace Cert.KernelIdeal.Run

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The two argument arrays as launched. -/
abbrev xs0 (c : Dev nD) : Vec Ideal S4x8192x3 .f32 := m ((c.tc : Thread nD τ).loc main_arg0)
abbrev xs1 (c : Dev nD) : Vec Ideal S4x8192x3 .f32 := m ((c.tc : Thread nD τ).loc main_arg1)

/-- The first result array is the reference's minimum along its last axis. -/
theorem v0_eq (c : Dev nD) :
    (V2 m (outs m) c main_v0 : S4x8192.Idx → EReal) = Cert.ReferenceIdeal.Read.val_main_v13 (F := Ideal) (xs0 m c) (xs1 m c) := by
  have e1 : V2 m (outs m) c main_v0 = outs m 1 main_v0 c :=
    (V2_of m (outs m) c main_v0 (by decide)).trans (Function.update_self _ _ _)
  rw [e1, outs1, H0.arr_final]
  funext i
  obtain ⟨b, n, rfl⟩ : ∃ (b : Fin 4) (n : Fin 8192), i = ix2 b n := ⟨i 0, i 1, eq_ix2 i⟩
  rw [H0.nearArr_apply]
  exact (Cert.ReferenceIdeal.Near.v13_apply (xs0 m c) (xs1 m c) b n).symm

/-- The second result array is the reference's minimum along its middle axis. -/
theorem v1_eq (c : Dev nD) :
    (V2 m (outs m) c main_v1 : S4x8192.Idx → EReal) = Cert.ReferenceIdeal.Read.val_main_v14 (F := Ideal) (xs0 m c) (xs1 m c) := by
  have e1 : V2 m (outs m) c main_v1 = outs m 2 main_v1 c := Function.update_self _ _ _
  rw [e1, outs2, H1.arr_final]
  funext i
  obtain ⟨b, n, rfl⟩ : ∃ (b : Fin 4) (n : Fin 8192), i = ix2 b n := ⟨i 0, i 1, eq_ix2 i⟩
  rw [H1.nearArr_apply]
  exact (Cert.ReferenceIdeal.Near.v14_apply (xs0 m c) (xs1 m c) b n).symm

/-- The result buffer after the host operations, as their term of the two result arrays. -/
theorem v6_eq (c : Dev nD) :
    (V3 m (outs m) c main_v6 : S_.Idx → EReal)
      = addf (Host.divf (Host.reduceAdd (V2 m (outs m) c main_v0 : S4x8192.Idx → EReal) (constant (F := Ideal) S_ .f32 0x00000000#32) reducesTo_S4x8192_S_d0_1 h_S_) (constant (F := Ideal) S_ .f32 0x47000000#32))
          (Host.divf (Host.reduceAdd (V2 m (outs m) c main_v1 : S4x8192.Idx → EReal) (constant (F := Ideal) S_ .f32 0x00000000#32) reducesTo_S4x8192_S_d0_1 h_S_) (constant (F := Ideal) S_ .f32 0x47000000#32)) := by
  show StableHlo.after hostOps2 (V2 m (outs m) c) (Proc.devRef .tc main_v6) = _
  after_results

/-- The program's result is the reference's result term of the two arguments. -/
theorem result_eq (c : Dev nD) :
    (V3 m (outs m) c main_v6 : S_.Idx → EReal) = Cert.ReferenceIdeal.Read.val_main_v19 (F := Ideal) (xs0 m c) (xs1 m c) := by
  rw [v6_eq, v0_eq, v1_eq]
  rfl

end Cert.KernelIdeal.Run

end
-- ==== Proof.lean ====
/-
  The certificate: a Chamfer distance computed by two tiled nearest-distance passes equals the reference's.

  For two arrays of 4 × 8192 points of ℝ³ the reference forms, batch by batch, the full table of expanded squared
  distances |x|² + |y|² − 2·⟨x, y⟩, takes its minima along both axes, and adds the means of the two arrays of minima.
  The kernel never forms the table: a pass over a 16 × 16 grid of 512 × 512 tiles keeps, per query point, a running
  minimum over the tiles of its grid row and writes it out at the row's end; the second pass is the first with the two
  arrays exchanged; the same host operations take the means and add them.

  At the exact reals the two agree because a minimum over 8192 candidates is the minimum of the sixteen blocks' minima
  (started from +∞), and because the expanded squared distance is symmetric in its two points — addition and
  multiplication of extended reals commute. Neither step cancels or distributes anything, so the precondition that the
  inputs are finite is never opened.

  The three frames: each kernel program's is its run as a list of items (the two passes, each entered from and left at
  named buffer contents, then the host operations), read at the argument arrays, which no item writes; the reference's
  is its run as a list of host operations. The idealization rewrote nothing, so there is nothing to preserve.
-/
import proofs.«132927_j28724741276335_2_alg».proof.Defs
import proofs.«132927_j28724741276335_2_alg».proof.Proof.Gen.Kernel
import proofs.«132927_j28724741276335_2_alg».proof.Proof.Gen.KernelIdeal
import proofs.«132927_j28724741276335_2_alg».proof.Proof.Gen.ReferenceIdeal
import proofs.«132927_j28724741276335_2_alg».proof.Proof.Gen.ReferenceIdeal.Run
import proofs.«132927_j28724741276335_2_alg».proof.Proof.Gen.ReferenceIdeal.Read
import proofs.«132927_j28724741276335_2_alg».proof.Proof.Gen.Pre_finite_inputs
import proofs.«132927_j28724741276335_2_alg».proof.Proof.KBRun
import proofs.«132927_j28724741276335_2_alg».proof.Proof.KIValue
import Idealize.ShloMosaic.Adequacy
import Idealize.ShloMosaic.Init

noncomputable section

namespace Cert.Proof

open Idealize.ShloMosaic Idealize.ShloMosaic.TcCoe Idealize.SL.Sem

/-- The word-level kernel program runs to its end and leaves its arguments as launched. -/
theorem frame_k : Cert.frame_Kernel := fun m ρ _ => Cert.Kernel.Run.frame m ρ

/-- So does the idealized kernel program. -/
theorem frame_ki : Cert.frame_KernelIdeal := fun m ρ _ => Cert.KernelIdeal.Run.frame m ρ

/-- The reference is host operations only: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Run from memories that agree on the arguments, the idealized kernel program ends with its result at the reference's
    result term of its own arguments (the passes' result arrays are the reference's two minima, the host operations after
    them the reference's own), and the reference ends at the same term of its arguments, which are the same arrays. -/
theorem algebraic : Cert.algebraic_KernelIdeal_ReferenceIdeal := by
  intro m ρ m' ρ' _ hagree
  refine ⟨fun c => Cert.ReferenceIdeal.Read.val_main_v19 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun _ h c => ⟨?_, ?_, ?_⟩) (Cert.KernelIdeal.Run.run_full m ρ)
    · exact (h c _ (Cert.KernelIdeal.Run.mem_uc Cert.KernelIdeal.main_v6 (by decide))).trans (Cert.KernelIdeal.Run.result_eq m c)
    · exact (h c _ (Cert.KernelIdeal.Run.mem_uc Cert.KernelIdeal.main_arg0 (by decide))).trans
        (Cert.KernelIdeal.Gen.V3_main_arg0 m (Cert.KernelIdeal.Run.outs m) c)
    · exact (h c _ (Cert.KernelIdeal.Run.mem_uc Cert.KernelIdeal.main_arg1 (by decide))).trans
        (Cert.KernelIdeal.Gen.V3_main_arg1 m (Cert.KernelIdeal.Run.outs m) c)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v19_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
